-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100000x64 : Shape := ⟨3, ![8, 100000, 64]⟩
abbrev S2x3200000 : Shape := ⟨2, ![2, 3200000]⟩
abbrev S196x64 : Shape := ⟨2, ![196, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S8x100000x64 : S_.BroadcastsInDim S8x100000x64 (![] : Fin 0 → Fin S8x100000x64.rank)
  reducesTo_S8x100000x64_S_d0_1_2 : S8x100000x64.ReducesTo [0, 1, 2] S_
  h_S_ : 0 < S_.numel
  bcast_S_S196x64 : S_.BroadcastsInDim S196x64 (![] : Fin 0 → Fin S196x64.rank)
  reducesTo_S196x64_S_d0_1 : S196x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8x100000x64 .f32) (main_arg1 : IVec S2x3200000 32) (main_arg2 : FVec F S196x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S8x100000x64 .f32 := Host.absf main_arg0
  let main_cst : FVec F S_ .f32 := constant S_ .f32 0x7F800000#32
  let main_v1 : FVec F S8x100000x64 .f32 := broadcastInDim S8x100000x64 ![] bcast_S_S8x100000x64 main_cst
  let main_v2 : IVec S8x100000x64 1 := cmpf .olt main_v0 main_v1
  let main_c : IVec S_ 1 := constantI S_ 1 1#1
  let main_v3 : IVec S_ 1 := (fun x v => Host.reduce IntOp.andi x v reducesTo_S8x100000x64_S_d0_1_2 h_S_) main_v2 main_c
  let main_v4 : FVec F S196x64 .f32 := Host.absf main_arg2
  let main_cst_0 : FVec F S_ .f32 := constant S_ .f32 0x7F800000#32
  let main_v5 : FVec F S196x64 .f32 := broadcastInDim S196x64 ![] bcast_S_S196x64 main_cst_0
  let main_v6 : IVec S196x64 1 := cmpf .olt main_v4 main_v5
  let main_c_1 : IVec S_ 1 := constantI S_ 1 1#1
  let main_v7 : IVec S_ 1 := (fun x v => Host.reduce IntOp.andi x v reducesTo_S196x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S8x100000x64 : Shape := ⟨3, ![8, 100000, 64]⟩
abbrev S2x3200000 : Shape := ⟨2, ![2, 3200000]⟩
abbrev S196x64 : Shape := ⟨2, ![196, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S8x1x64 : Shape := ⟨3, ![8, 1, 64]⟩
abbrev S1x20000x64 : Shape := ⟨3, ![1, 20000, 64]⟩
abbrev S1x1x64 : Shape := ⟨3, ![1, 1, 64]⟩
abbrev S1x64 : Shape := ⟨2, ![1, 64]⟩
abbrev S20000x64 : Shape := ⟨2, ![20000, 64]⟩
abbrev S8x64 : Shape := ⟨2, ![8, 64]⟩
abbrev S_ : Shape := ⟨0, ![]⟩
abbrev S100000 : Shape := ⟨1, ![100000]⟩
abbrev S1x3200000 : Shape := ⟨2, ![1, 3200000]⟩
abbrev S3200000 : Shape := ⟨1, ![3200000]⟩
abbrev S3200000x1 : Shape := ⟨2, ![3200000, 1]⟩
abbrev S4 : Shape := ⟨1, ![4]⟩
abbrev S1x4 : Shape := ⟨2, ![1, 4]⟩
abbrev S8x4 : Shape := ⟨2, ![8, 4]⟩
abbrev S8x196 : Shape := ⟨2, ![8, 196]⟩
abbrev S8x32 : Shape := ⟨2, ![8, 32]⟩
abbrev S1x32 : Shape := ⟨2, ![1, 32]⟩
abbrev S8x1 : Shape := ⟨2, ![8, 1]⟩
abbrev S1x1 : Shape := ⟨2, ![1, 1]⟩
abbrev S8 : Shape := ⟨1, ![8]⟩
abbrev S2 : Shape := ⟨1, ![2]⟩

abbrev nBuf : Space → Nat
  | .hbm => 124
  | .vmem => 11
  | .smem => 0
  | _ => 0

abbrev bufTy : (tb : Table) → Fin (tcTables nBuf tb) → BufTy
  | .hbm, ⟨0, _⟩ => ⟨S8x100000x64, .f32⟩
  | .hbm, ⟨1, _⟩ => ⟨S2x3200000, .i32⟩
  | .hbm, ⟨2, _⟩ => ⟨S196x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S8x1x64, .f32⟩
  | .hbm, ⟨9, _⟩ => ⟨S8x1x64, .f32⟩
  | .hbm, ⟨10, _⟩ => ⟨S8x1x64, .f32⟩
  | .hbm, ⟨11, _⟩ => ⟨S8x64, .f32⟩
  | .hbm, ⟨12, _⟩ => ⟨S8x64, .f32⟩
  | .hbm, ⟨13, _⟩ => ⟨S8x64, .f32⟩
  | .hbm, ⟨14, _⟩ => ⟨S_, .f32⟩
  | .hbm, ⟨15, _⟩ => ⟨S8x64, .f32⟩
  | .hbm, ⟨16, _⟩ => ⟨S8x64, .f32⟩
  | .hbm, ⟨17, _⟩ => ⟨S8x64, .f32⟩
  | .hbm, ⟨18, _⟩ => ⟨S_, .f32⟩
  | .hbm, ⟨19, _⟩ => ⟨S8x64, .f32⟩
  | .hbm, ⟨20, _⟩ => ⟨S8x64, .f32⟩
  | .hbm, ⟨21, _⟩ => ⟨S8x64, .f32⟩
  | .hbm, ⟨22, _⟩ => ⟨S_, .f32⟩
  | .hbm, ⟨23, _⟩ => ⟨S8x64, .f32⟩
  | .hbm, ⟨24, _⟩ => ⟨S8x64, .f32⟩
  | .hbm, ⟨25, _⟩ => ⟨S8x64, .f32⟩
  | .hbm, ⟨26, _⟩ => ⟨S_, .f32⟩
  | .hbm, ⟨27, _⟩ => ⟨S100000, .f32⟩
  | .hbm, ⟨28, _⟩ => ⟨S1x3200000, .i32⟩
  | .hbm, ⟨29, _⟩ => ⟨S3200000, .i32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S_, .f32⟩
  | .hbm, ⟨39, _⟩ => ⟨S3200000, .f32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S_, .f32⟩
  | .hbm, ⟨50, _⟩ => ⟨S1, .f32⟩
  | .hbm, ⟨51, _⟩ => ⟨S1, .f32⟩
  | .hbm, ⟨52, _⟩ => ⟨S100000, .f32⟩
  | .hbm, ⟨53, _⟩ => ⟨S100000, .f32⟩
  | .hbm, ⟨54, _⟩ => ⟨S100000, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1, .f32⟩
  | .hbm, ⟨70, _⟩ => ⟨S1, .f32⟩
  | .hbm, ⟨71, _⟩ => ⟨S1, .f32⟩
  | .hbm, ⟨72, _⟩ => ⟨S1, .f32⟩
  | .hbm, ⟨73, _⟩ => ⟨S4, .f32⟩
  | .hbm, ⟨74, _⟩ => ⟨S1x4, .f32⟩
  | .hbm, ⟨75, _⟩ => ⟨S8x4, .f32⟩
  | .hbm, ⟨76, _⟩ => ⟨S8x196, .f32⟩
  | .hbm, ⟨77, _⟩ => ⟨S8x64, .f32⟩
  | .hbm, ⟨78, _⟩ => ⟨S1x64, .f32⟩
  | .hbm, ⟨79, _⟩ => ⟨S8x64, .f32⟩
  | .hbm, ⟨80, _⟩ => ⟨S8x64, .f32⟩
  | .hbm, ⟨81, _⟩ => ⟨S_, .f32⟩
  | .hbm, ⟨82, _⟩ => ⟨S8x64, .f32⟩
  | .hbm, ⟨83, _⟩ => ⟨S8x64, .f32⟩
  | .hbm, ⟨84, _⟩ => ⟨S8x32, .f32⟩
  | .hbm, ⟨85, _⟩ => ⟨S1x32, .f32⟩
  | .hbm, ⟨86, _⟩ => ⟨S8x32, .f32⟩
  | .hbm, ⟨87, _⟩ => ⟨S8x32, .f32⟩
  | .hbm, ⟨88, _⟩ => ⟨S_, .f32⟩
  | .hbm, ⟨89, _⟩ => ⟨S8x32, .f32⟩
  | .hbm, ⟨90, _⟩ => ⟨S8x32, .f32⟩
  | .hbm, ⟨91, _⟩ => ⟨S8x1, .f32⟩
  | .hbm, ⟨92, _⟩ => ⟨S1x1, .f32⟩
  | .hbm, ⟨93, _⟩ => ⟨S8x1, .f32⟩
  | .hbm, ⟨94, _⟩ => ⟨S8x1, .f32⟩
  | .hbm, ⟨95, _⟩ => ⟨S8x1, .f32⟩
  | .hbm, ⟨96, _⟩ => ⟨S8x1, .f32⟩
  | .hbm, ⟨97, _⟩ => ⟨S_, .f32⟩
  | .hbm, ⟨98, _⟩ => ⟨S8x1, .f32⟩
  | .hbm, ⟨99, _⟩ => ⟨S8x1, .f32⟩
  | .hbm, ⟨100, _⟩ => ⟨S_, .f32⟩
  | .hbm, ⟨101, _⟩ => ⟨S8x1, .f32⟩
  | .hbm, ⟨102, _⟩ => ⟨S8x1, .f32⟩
  | .hbm, ⟨103, _⟩ => ⟨S8, .f32⟩
  | .hbm, ⟨104, _⟩ => ⟨S_, .f32⟩
  | .hbm, ⟨105, _⟩ => ⟨S8, .f32⟩
  | .hbm, ⟨106, _⟩ => ⟨S8, .f32⟩
  | .hbm, ⟨107, _⟩ => ⟨S_, .f32⟩
  | .hbm, ⟨108, _⟩ => ⟨S8, .f32⟩
  | .hbm, ⟨109, _⟩ => ⟨S8, .f32⟩
  | .hbm, ⟨110, _⟩ => ⟨S8, .f32⟩
  | .hbm, ⟨111, _⟩ => ⟨S8, .f32⟩
  | .hbm, ⟨112, _⟩ => ⟨S8, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S1, .f32⟩
  | .hbm, ⟨122, _⟩ => ⟨S1, .f32⟩
  | .hbm, ⟨123, _⟩ => ⟨S2, .f32⟩
  | .local _ .vmem, ⟨0, _⟩ => ⟨S1x20000x64, .f32⟩
  | .local _ .vmem, ⟨1, _⟩ => ⟨S1x20000x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | _, _ => ⟨S8x100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_c_7 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_cst_0 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_cst_1 : Ref sig .tc := ⟨.hbm, 56, rfl⟩
abbrev main_call0_call0_v8 : Ref sig .tc := ⟨.hbm, 57, rfl⟩
abbrev main_call0_call0_cst_2 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_cst_3 : Ref sig .tc := ⟨.hbm, 61, rfl⟩
abbrev main_call0_call0_v11 : Ref sig .tc := ⟨.hbm, 62, rfl⟩
abbrev main_call0_call0_cst_4 : Ref sig .tc := ⟨.hbm, 63, rfl⟩
abbrev main_call0_call0_call0_v0 : Ref sig .tc := ⟨.hbm, 64, rfl⟩
abbrev main_call0_v0 : Ref sig .tc := ⟨.hbm, 65, rfl⟩
abbrev main_v26 : Ref sig .tc := ⟨.hbm, 66, rfl⟩
abbrev main_cst_8 : Ref sig .tc := ⟨.hbm, 67, rfl⟩
abbrev main_cst_9 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_call1_cst : Ref sig .tc := ⟨.hbm, 81, rfl⟩
abbrev main_call1_v0 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_call2_cst : Ref sig .tc := ⟨.hbm, 88, rfl⟩
abbrev main_call2_v0 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_10 : Ref sig .tc := ⟨.hbm, 97, rfl⟩
abbrev main_v51 : Ref sig .tc := ⟨.hbm, 98, rfl⟩
abbrev main_v52 : Ref sig .tc := ⟨.hbm, 99, rfl⟩
abbrev main_cst_11 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_12 : Ref sig .tc := ⟨.hbm, 104, rfl⟩
abbrev main_v56 : Ref sig .tc := ⟨.hbm, 105, rfl⟩
abbrev main_v57 : Ref sig .tc := ⟨.hbm, 106, rfl⟩
abbrev main_cst_13 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_14 : Ref sig .tc := ⟨.hbm, 113, rfl⟩
abbrev main_v63 : Ref sig .tc := ⟨.hbm, 114, rfl⟩
abbrev main_cst_15 : Ref sig .tc := ⟨.hbm, 115, rfl⟩
abbrev main_v64 : Ref sig .tc := ⟨.hbm, 116, rfl⟩
abbrev main_cst_16 : Ref sig .tc := ⟨.hbm, 117, rfl⟩
abbrev main_v65 : Ref sig .tc := ⟨.hbm, 118, rfl⟩
abbrev main_cst_17 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v27 : BitVec 1 := Scalar.cmpi .eq arg1 c4_i32
  let v28 : BitVec 32 := Scalar.extui v27
  let c0_i32_17 : BitVec 32 := 0#32
  let v29 : BitVec 1 := Scalar.cmpi .ne v28 c0_i32_17
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x20000x64_S1x20000x64_0_0_0 : ∀ a, (![0, 0, 0] : Fin 3 → Nat) a + S1x20000x64.size a ≤ S1x20000x64.size a
  h_S1x20000x64 : 0 < S1x20000x64.numel
  shapeCasts_S1x20000x64_S20000x64 : S1x20000x64.ShapeCasts S20000x64
  reduces_S20000x64_S64 : S20000x64.Reduces [0] S64
  shapeCasts_S64_S1x64 : S64.ShapeCasts S1x64
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  shapeCasts_S8x1x64_S8x64 : S8x1x64.ShapeCasts S8x64
  bcast_S_S8x64 : S_.BroadcastsInDim S8x64 (![] : Fin 0 → Fin S8x64.rank)
  bcast_S_S100000 : S_.BroadcastsInDim S100000 (![] : Fin 0 → Fin S100000.rank)
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S100000_S_d0 : S100000.ReducesTo [0] S_
  h_S_ : 0 < S_.numel
  bcast_S_S1 : S_.BroadcastsInDim S1 (![] : Fin 0 → Fin S1.rank)
  bcast_S1_S100000_0 : S1.BroadcastsInDim S100000 (![0] : Fin 1 → Fin S100000.rank)
  concatenates_S1_S1_S1_S1_S4_d0 : Shape.Concatenates [S1, S1, S1, S1] S4 0
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  concatenates_S8x64_S8x64_S8x64_S8x4_S8x196_d1 : Shape.Concatenates [S8x64, S8x64, S8x64, S8x4] S8x196 1
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  bcast_S_S8x32 : S_.BroadcastsInDim S8x32 (![] : Fin 0 → Fin S8x32.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  shapeCasts_S8x1_S8 : S8x1.ShapeCasts S8
  bcast_S_S8 : S_.BroadcastsInDim S8 (![] : Fin 0 → Fin S8.rank)
  reducesTo_S8_S_d0 : S8.ReducesTo [0] S_
  concatenates_S1_S1_S2_d0 : Shape.Concatenates [S1, S1] S2 0
  scatter_S100000_S3200000x1_S3200000_n_0_0_1_wf : ScatterDims.WF S100000 S3200000x1 S3200000 [] [0] [0] 1
  dot_S8x196_S196x64_S8x64_1_0_0_1_n_n_wf : DotDims.WF S8x196 S196x64 S8x64 [1] [0] [0] [1] [] []
  dot_S8x64_S64x32_S8x32_1_0_0_1_n_n_wf : DotDims.WF S8x64 S64x32 S8x32 [1] [0] [0] [1] [] []
  dot_S8x32_S32x1_S8x1_1_0_0_1_n_n_wf : DotDims.WF S8x32 S32x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x64.size a ≤ S8x100000x64.size a
  hwx0_0 : ∀ i : grid0.Coords, EltTy.bits .f32 = 32 ∨ (Rect.block (s := S8x100000x64) S1x20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S8x1x64.size a
  hwx0_1 : ∀ i : grid0.Coords, EltTy.bits .f32 = 32 ∨ (Rect.block (s := S8x1x64) S1x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S8x1x64.size a
  hwx0_2 : ∀ i : grid0.Coords, EltTy.bits .f32 = 32 ∨ (Rect.block (s := S8x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S8x1x64.size a
  hwx0_3 : ∀ i : grid0.Coords, EltTy.bits .f32 = 32 ∨ (Rect.block (s := S8x1x64) S1x1x64.size (cc0_transform_3 i) (hinb0_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S8x196_S196x64_S8x64_1_0_0_1_n_n : DotDims S8x196 S196x64 S8x64 where
  lhsContracting := [1]
  rhsContracting := [0]
  lhsNonContracting := [0]
  rhsNonContracting := [1]
  lhsBatch := []
  rhsBatch := []
  wf := dot_S8x196_S196x64_S8x64_1_0_0_1_n_n_wf
def dot_S8x64_S64x32_S8x32_1_0_0_1_n_n : DotDims S8x64 S64x32 S8x32 where
  lhsContracting := [1]
  rhsContracting := [0]
  lhsNonContracting := [0]
  rhsNonContracting := [1]
  lhsBatch := []
  rhsBatch := []
  wf := dot_S8x64_S64x32_S8x32_1_0_0_1_n_n_wf
def dot_S8x32_S32x1_S8x1_1_0_0_1_n_n : DotDims S8x32 S32x1 S8x1 where
  lhsContracting := [1]
  rhsContracting := [0]
  lhsNonContracting := [0]
  rhsNonContracting := [1]
  lhsBatch := []
  rhsBatch := []
  wf := dot_S8x32_S32x1_S8x1_1_0_0_1_n_n_wf

abbrev win0_0 : Pipeline.Window sig grid0 :=
  Pipeline.Window.ofSpec (Memref.whole main_arg0) S1x20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun i => !(k0_cond2 i == 1#1) | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x100000x64 : Shape := ⟨3, ![8, 100000, 64]⟩
abbrev S2x3200000 : Shape := ⟨2, ![2, 3200000]⟩
abbrev S196x64 : Shape := ⟨2, ![196, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S8x64 : Shape := ⟨2, ![8, 64]⟩
abbrev S8x1x64 : Shape := ⟨3, ![8, 1, 64]⟩
abbrev S100000 : Shape := ⟨1, ![100000]⟩
abbrev S1x3200000 : Shape := ⟨2, ![1, 3200000]⟩
abbrev S3200000 : Shape := ⟨1, ![3200000]⟩
abbrev S3200000x1 : Shape := ⟨2, ![3200000, 1]⟩
abbrev S4 : Shape := ⟨1, ![4]⟩
abbrev S1x4 : Shape := ⟨2, ![1, 4]⟩
abbrev S8x4 : Shape := ⟨2, ![8, 4]⟩
abbrev S8x196 : Shape := ⟨2, ![8, 196]⟩
abbrev S1x64 : Shape := ⟨2, ![1, 64]⟩
abbrev S8x32 : Shape := ⟨2, ![8, 32]⟩
abbrev S1x32 : Shape := ⟨2, ![1, 32]⟩
abbrev S8x1 : Shape := ⟨2, ![8, 1]⟩
abbrev S1x1 : Shape := ⟨2, ![1, 1]⟩
abbrev S8 : Shape := ⟨1, ![8]⟩
abbrev S2 : Shape := ⟨1, ![2]⟩

abbrev nBuf : Space → Nat
  | .hbm => 137
  | .vmem => 0
  | .smem => 0
  | _ => 0

abbrev hbmTy0_0 (i : Nat) : BufTy := match i % 128 with
  | 0 => ⟨S8x100000x64, .f32⟩
  | 1 => ⟨S2x3200000, .i32⟩
  | 2 => ⟨S196x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S_, .f32⟩
  | 9 => ⟨S8x64, .f32⟩
  | 10 => ⟨S_, .f32⟩
  | 11 => ⟨S8x64, .f32⟩
  | 12 => ⟨S8x64, .f32⟩
  | 13 => ⟨S_, .f32⟩
  | 14 => ⟨S8x64, .f32⟩
  | 15 => ⟨S_, .i32⟩
  | 16 => ⟨S_, .f32⟩
  | 17 => ⟨S8x64, .f32⟩
  | 18 => ⟨S8x1x64, .f32⟩
  | 19 => ⟨S_, .f32⟩
  | 20 => ⟨S8x1x64, .f32⟩
  | 21 => ⟨S8x1x64, .f32⟩
  | 22 => ⟨S8x100000x64, .f32⟩
  | 23 => ⟨S8x100000x64, .f32⟩
  | 24 => ⟨S8x100000x64, .f32⟩
  | 25 => ⟨S_, .f32⟩
  | 26 => ⟨S_, .f32⟩
  | 27 => ⟨S_, .f32⟩
  | 28 => ⟨S_, .f32⟩
  | 29 => ⟨S8x64, .f32⟩
  | 30 => ⟨S8x64, .f32⟩
  | 31 => ⟨S8x64, .f32⟩
  | 32 => ⟨S_, .f32⟩
  | 33 => ⟨S_, .i1⟩
  | 34 => ⟨S_, .f32⟩
  | 35 => ⟨S_, .f32⟩
  | 36 => ⟨S8x64, .f32⟩
  | 37 => ⟨S8x64, .f32⟩
  | 38 => ⟨S8x64, .f32⟩
  | 39 => ⟨S_, .f32⟩
  | 40 => ⟨S100000, .f32⟩
  | 41 => ⟨S1x3200000, .i32⟩
  | 42 => ⟨S3200000, .i32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S_, .f32⟩
  | 52 => ⟨S3200000, .f32⟩
  | 53 => ⟨S100000, .f32⟩
  | 54 => ⟨S_, .f32⟩
  | 55 => ⟨S_, .f32⟩
  | 56 => ⟨S_, .f32⟩
  | 57 => ⟨S_, .f32⟩
  | 58 => ⟨S_, .i32⟩
  | 59 => ⟨S_, .f32⟩
  | 60 => ⟨S_, .f32⟩
  | 61 => ⟨S1, .f32⟩
  | 62 => ⟨S_, .f32⟩
  | 63 => ⟨S1, .f32⟩
  | 64 => ⟨S1, .f32⟩
  | 65 => ⟨S100000, .f32⟩
  | 66 => ⟨S100000, .f32⟩
  | 67 => ⟨S100000, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .i1⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1, .f32⟩
  | 83 => ⟨S1, .f32⟩
  | 84 => ⟨S1, .f32⟩
  | 85 => ⟨S1, .f32⟩
  | 86 => ⟨S4, .f32⟩
  | 87 => ⟨S1x4, .f32⟩
  | 88 => ⟨S8x4, .f32⟩
  | 89 => ⟨S8x196, .f32⟩
  | 90 => ⟨S8x64, .f32⟩
  | 91 => ⟨S1x64, .f32⟩
  | 92 => ⟨S8x64, .f32⟩
  | 93 => ⟨S8x64, .f32⟩
  | 94 => ⟨S_, .f32⟩
  | 95 => ⟨S8x64, .f32⟩
  | 96 => ⟨S8x64, .f32⟩
  | 97 => ⟨S8x32, .f32⟩
  | 98 => ⟨S1x32, .f32⟩
  | 99 => ⟨S8x32, .f32⟩
  | 100 => ⟨S8x32, .f32⟩
  | 101 => ⟨S_, .f32⟩
  | 102 => ⟨S8x32, .f32⟩
  | 103 => ⟨S8x32, .f32⟩
  | 104 => ⟨S8x1, .f32⟩
  | 105 => ⟨S1x1, .f32⟩
  | 106 => ⟨S8x1, .f32⟩
  | 107 => ⟨S8x1, .f32⟩
  | 108 => ⟨S8x1, .f32⟩
  | 109 => ⟨S8x1, .f32⟩
  | 110 => ⟨S_, .f32⟩
  | 111 => ⟨S8x1, .f32⟩
  | 112 => ⟨S8x1, .f32⟩
  | 113 => ⟨S_, .f32⟩
  | 114 => ⟨S8x1, .f32⟩
  | 115 => ⟨S8x1, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S8, .f32⟩
  | 124 => ⟨S8, .f32⟩
  | 125 => ⟨S8, .f32⟩
  | 126 => ⟨S_, .f32⟩
  | 127 => ⟨S_, .f32⟩
  | _ => ⟨S8x100000x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S1, .f32⟩
  | 7 => ⟨S1, .f32⟩
  | 8 => ⟨S2, .f32⟩
  | _ => ⟨S8x100000x64, .f32⟩

abbrev hbmTy (i : Nat) : BufTy := match i / 128 with
  | 0 => hbmTy0_0 i
  | 1 => hbmTy0_1 i
  | _ => ⟨S8x100000x64, .f32⟩

abbrev bufTy : (tb : Table) → Fin (tcTables nBuf tb) → BufTy
  | .hbm, ⟨i, _⟩ => hbmTy i
  | _, _ => ⟨S8x100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_c : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_cst_0 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_cst_1 : Ref sig .tc := ⟨.hbm, 26, rfl⟩
abbrev main_call0_call0_v8 : Ref sig .tc := ⟨.hbm, 27, rfl⟩
abbrev main_call0_call0_cst_2 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_call0_cst_3 : Ref sig .tc := ⟨.hbm, 32, rfl⟩
abbrev main_call0_call0_v12 : Ref sig .tc := ⟨.hbm, 33, rfl⟩
abbrev main_call0_call0_cst_4 : Ref sig .tc := ⟨.hbm, 34, rfl⟩
abbrev main_call0_call0_call0_v0 : Ref sig .tc := ⟨.hbm, 35, rfl⟩
abbrev main_call0_call0_call0_v1 : Ref sig .tc := ⟨.hbm, 36, rfl⟩
abbrev main_call0_v0 : Ref sig .tc := ⟨.hbm, 37, rfl⟩
abbrev main_v4 : Ref sig .tc := ⟨.hbm, 38, rfl⟩
abbrev main_cst_2 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_c_3 : Ref sig .tc := ⟨.hbm, 43, rfl⟩
abbrev main_v8 : Ref sig .tc := ⟨.hbm, 44, rfl⟩
abbrev main_v9 : Ref sig .tc := ⟨.hbm, 45, rfl⟩
abbrev main_c_4 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst_5 : Ref sig .tc := ⟨.hbm, 51, rfl⟩
abbrev main_v14 : Ref sig .tc := ⟨.hbm, 52, rfl⟩
abbrev main_v15 : Ref sig .tc := ⟨.hbm, 53, rfl⟩
abbrev main_cst_6 : Ref sig .tc := ⟨.hbm, 54, rfl⟩
abbrev main_v16 : Ref sig .tc := ⟨.hbm, 55, rfl⟩
abbrev main_cst_7 : Ref sig .tc := ⟨.hbm, 56, rfl⟩
abbrev main_v17 : Ref sig .tc := ⟨.hbm, 57, rfl⟩
abbrev main_c_8 : Ref sig .tc := ⟨.hbm, 58, rfl⟩
abbrev main_call1_call0_cst : Ref sig .tc := ⟨.hbm, 59, rfl⟩
abbrev main_call1_call0_v0 : Ref sig .tc := ⟨.hbm, 60, rfl⟩
abbrev main_call1_call0_v1 : Ref sig .tc := ⟨.hbm, 61, rfl⟩
abbrev main_call1_call0_cst_0 : Ref sig .tc := ⟨.hbm, 62, rfl⟩
abbrev main_call1_call0_v2 : Ref sig .tc := ⟨.hbm, 63, rfl⟩
abbrev main_call1_call0_v3 : Ref sig .tc := ⟨.hbm, 64, rfl⟩
abbrev main_call1_call0_v4 : Ref sig .tc := ⟨.hbm, 65, rfl⟩
abbrev main_call1_call0_v5 : Ref sig .tc := ⟨.hbm, 66, rfl⟩
abbrev main_call1_call0_v6 : Ref sig .tc := ⟨.hbm, 67, rfl⟩
abbrev main_call1_call0_v7 : Ref sig .tc := ⟨.hbm, 68, rfl⟩
abbrev main_call1_call0_cst_1 : Ref sig .tc := ⟨.hbm, 69, rfl⟩
abbrev main_call1_call0_v8 : Ref sig .tc := ⟨.hbm, 70, rfl⟩
abbrev main_call1_call0_cst_2 : Ref sig .tc := ⟨.hbm, 71, rfl⟩
abbrev main_call1_call0_v9 : Ref sig .tc := ⟨.hbm, 72, rfl⟩
abbrev main_call1_call0_v10 : Ref sig .tc := ⟨.hbm, 73, rfl⟩
abbrev main_call1_call0_cst_3 : Ref sig .tc := ⟨.hbm, 74, rfl⟩
abbrev main_call1_call0_v11 : Ref sig .tc := ⟨.hbm, 75, rfl⟩
abbrev main_call1_call0_cst_4 : Ref sig .tc := ⟨.hbm, 76, rfl⟩
abbrev main_call1_call0_call0_v0 : Ref sig .tc := ⟨.hbm, 77, rfl⟩
abbrev main_call1_v0 : Ref sig .tc := ⟨.hbm, 78, rfl⟩
abbrev main_v18 : Ref sig .tc := ⟨.hbm, 79, rfl⟩
abbrev main_cst_9 : Ref sig .tc := ⟨.hbm, 80, rfl⟩
abbrev main_cst_10 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_call2_cst : Ref sig .tc := ⟨.hbm, 94, rfl⟩
abbrev main_call2_v0 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_call3_cst : Ref sig .tc := ⟨.hbm, 101, rfl⟩
abbrev main_call3_v0 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_cst_11 : Ref sig .tc := ⟨.hbm, 110, rfl⟩
abbrev main_v43 : Ref sig .tc := ⟨.hbm, 111, rfl⟩
abbrev main_v44 : Ref sig .tc := ⟨.hbm, 112, rfl⟩
abbrev main_cst_12 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_cst_13 : Ref sig .tc := ⟨.hbm, 117, rfl⟩
abbrev main_v48 : Ref sig .tc := ⟨.hbm, 118, rfl⟩
abbrev main_v49 : Ref sig .tc := ⟨.hbm, 119, rfl⟩
abbrev main_cst_14 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_cst_15 : Ref sig .tc := ⟨.hbm, 126, rfl⟩
abbrev main_v55 : Ref sig .tc := ⟨.hbm, 127, rfl⟩
abbrev main_cst_16 : Ref sig .tc := ⟨.hbm, 128, rfl⟩
abbrev main_v56 : Ref sig .tc := ⟨.hbm, 129, rfl⟩
abbrev main_cst_17 : Ref sig .tc := ⟨.hbm, 130, rfl⟩
abbrev main_v57 : Ref sig .tc := ⟨.hbm, 131, rfl⟩
abbrev main_cst_18 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩

abbrev nD : Nat := 1
abbrev τ : Topo := Topo.v7x

variable {F : FTy → Type} [FloatOps F]

class Facts₀ : Prop where
  reducesTo_S8x100000x64_S8x64_d1 : S8x100000x64.ReducesTo [1] S8x64
  h_S_ : 0 < S_.numel
  bcast_S_S8x64 : S_.BroadcastsInDim S8x64 (![] : Fin 0 → Fin S8x64.rank)
  bcast_S8x64_S8x1x64_0_2 : S8x64.BroadcastsInDim S8x1x64 (![0, 2] : Fin 2 → Fin S8x1x64.rank)
  bcast_S_S8x1x64 : S_.BroadcastsInDim S8x1x64 (![] : Fin 0 → Fin S8x1x64.rank)
  bcast_S8x1x64_S8x100000x64_0_1_2 : S8x1x64.BroadcastsInDim S8x100000x64 (![0, 1, 2] : Fin 3 → Fin S8x100000x64.rank)
  bcast_S_S100000 : S_.BroadcastsInDim S100000 (![] : Fin 0 → Fin S100000.rank)
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S100000_S_d0 : S100000.ReducesTo [0] S_
  bcast_S_S1 : S_.BroadcastsInDim S1 (![] : Fin 0 → Fin S1.rank)
  bcast_S1_S100000_0 : S1.BroadcastsInDim S100000 (![0] : Fin 1 → Fin S100000.rank)
  concatenates_S1_S1_S1_S1_S4_d0 : Shape.Concatenates [S1, S1, S1, S1] S4 0
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  concatenates_S8x64_S8x64_S8x64_S8x4_S8x196_d1 : Shape.Concatenates [S8x64, S8x64, S8x64, S8x4] S8x196 1
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  bcast_S_S8x32 : S_.BroadcastsInDim S8x32 (![] : Fin 0 → Fin S8x32.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  shapeCasts_S8x1_S8 : S8x1.ShapeCasts S8
  bcast_S_S8 : S_.BroadcastsInDim S8 (![] : Fin 0 → Fin S8.rank)
  reducesTo_S8_S_d0 : S8.ReducesTo [0] S_
  concatenates_S1_S1_S2_d0 : Shape.Concatenates [S1, S1] S2 0
  scatter_S100000_S3200000x1_S3200000_n_0_0_1_wf : ScatterDims.WF S100000 S3200000x1 S3200000 [] [0] [0] 1
  dot_S8x196_S196x64_S8x64_1_0_0_1_n_n_wf : DotDims.WF S8x196 S196x64 S8x64 [1] [0] [0] [1] [] []
  dot_S8x64_S64x32_S8x32_1_0_0_1_n_n_wf : DotDims.WF S8x64 S64x32 S8x32 [1] [0] [0] [1] [] []
  dot_S8x32_S32x1_S8x1_1_0_0_1_n_n_wf : DotDims.WF S8x32 S32x1 S8x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S8x196_S196x64_S8x64_1_0_0_1_n_n : DotDims S8x196 S196x64 S8x64 where
  lhsContracting := [1]
  rhsContracting := [0]
  lhsNonContracting := [0]
  rhsNonContracting := [1]
  lhsBatch := []
  rhsBatch := []
  wf := dot_S8x196_S196x64_S8x64_1_0_0_1_n_n_wf
def dot_S8x64_S64x32_S8x32_1_0_0_1_n_n : DotDims S8x64 S64x32 S8x32 where
  lhsContracting := [1]
  rhsContracting := [0]
  lhsNonContracting := [0]
  rhsNonContracting := [1]
  lhsBatch := []
  rhsBatch := []
  wf := dot_S8x64_S64x32_S8x32_1_0_0_1_n_n_wf
def dot_S8x32_S32x1_S8x1_1_0_0_1_n_n : DotDims S8x32 S32x1 S8x1 where
  lhsContracting := [1]
  rhsContracting := [0]
  lhsNonContracting := [0]
  rhsNonContracting := [1]
  lhsBatch := []
  rhsBatch := []
  wf := dot_S8x32_S32x1_S8x1_1_0_0_1_n_n_wf

class Facts : Prop extends Facts₀ where

variable [Facts]
-- ==== Proof.KB.Base.lean ====
/-
  The program's main function is one pooled-statistics region followed by nine stretches of host operations and
  nothing before it: the buffers' contents when the region is entered are the launch memory's.
-/
import proofs.«138509_j5093831213700_1_alg».proof.Proof.Gen.Kernel.Launch
import proofs.«138509_j5093831213700_1_alg».proof.Proof.Gen.Kernel.Skeleton
import proofs.«138509_j5093831213700_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the region, stretch by stretch, in program order. -/
abbrev opss : List (List (HloOp τ sig (Elt F))) :=
  [hostOps1, hostOps1_1, hostOps1_2, hostOps1_3, hostOps1_4, hostOps1_5, hostOps1_6, hostOps1_7, hostOps1_8]

/-- The core's buffer contents when the region is entered: no host operation runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

end Cert.Kernel.Hand

end
-- ==== Proof.KB.Shared.lean ====
/-
  What the three runs of the pooling body share. The grid is 8 batch elements by 5 row tiles, walked row-major, so a
  point's tile number is its position modulo 5: the body resets its three running rows (column sum, column sum of
  squares, column maximum) at tile 0 and copies them into the three output blocks at tile 4; at every other point an
  output window is idle and is not written back.
-/
import proofs.«138509_j5093831213700_1_alg».proof.Proof.KB.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    entry contents and whose body leaves the block in place: the window is fetched at every point and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the batch element's first tile": the first conditional's scalar chain. -/
abbrev cond0_0 (i : grid0.Coords) : Prop := (Scalar.cmpi .ne (Scalar.extui (Scalar.cmpi .eq (BitVec.ofNat 32 (i 1).val) 0#32)) 0#32) = 1#1
/-- It holds at the points whose position is 0 modulo 5. -/
theorem hcond0_0 : ∀ t : Fin cfg0.N, cond0_0 (grid0.coords t) ↔ t.val % 5 = 0 :=
  (by decide +kernel : ∀ t : Fin grid0.N, cond0_0 (grid0.coords t) ↔ t.val % 5 = 0)

/-- "This is the batch element's last tile": the second conditional's condition. -/
abbrev cond0_1 (i : grid0.Coords) : Prop := k0_cond2 i = 1#1
/-- It holds at the points whose position is 4 modulo 5. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_1 : ∀ t : Fin cfg0.N, ¬cond0_1 (grid0.coords t) → (cfg0.win 1).flush t = false := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- One staging buffer of each output window, through which its contents are stated. -/
abbrev VO0_1 : View sig .tc .vmem S1x1x64 .f32 := (Memref.whole cc0_stg1_0 : Memref sig .tc .vmem S1x1x64 .f32).view
abbrev VO0_2 : View sig .tc .vmem S1x1x64 .f32 := (Memref.whole cc0_stg2_0 : Memref sig .tc .vmem S1x1x64 .f32).view
abbrev VO0_3 : View sig .tc .vmem S1x1x64 .f32 := (Memref.whole cc0_stg3_0 : Memref sig .tc .vmem S1x1x64 .f32).view
/-- Each window's current staging memref at a point, as the pipeline passes it, and its wholeness. -/
abbrev ms0_0 (t : Fin cfg0.N) : Memref sig .tc .vmem S1x20000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
/-- The three running rows: whole scoped buffers of the kernel's own. -/
abbrev scM0_0 : Memref sig .tc .vmem S1x64 .f32 := Memref.whole cc0_scratch0
abbrev scM0_1 : Memref sig .tc .vmem S1x64 .f32 := Memref.whole cc0_scratch1
abbrev scM0_2 : Memref sig .tc .vmem S1x64 .f32 := Memref.whole cc0_scratch2
abbrev VS0_0 : View sig .tc .vmem S1x64 .f32 := scM0_0.view
abbrev VS0_1 : View sig .tc .vmem S1x64 .f32 := scM0_1.view
abbrev VS0_2 : View sig .tc .vmem S1x64 .f32 := scM0_2.view

/-- The class invariant with the three running rows as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KB.RunA.lean ====
/-
  The pooling body at a batch element's FIRST tile: the three running rows are reset (zero, zero, minus infinity) and
  then take the tile's column sums, column sums of squares and column maxima; the three output blocks are not touched.
-/
import proofs.«138509_j5093831213700_1_alg».proof.Proof.KB.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a first tile: what the body's stores leave in each running row, as pieces (last first), with the proof that
    the body runs from the input block at x0, the outputs' buffers at any contents (handed back as they were) and the
    running rows at anything, to the continuation holding the running rows with those pieces written. -/
noncomputable def kernelRun0_A (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) :
    Σ' (LS0 : List (View.Piece (Elt F) S1x64 .f32)) (LS1 : List (View.Piece (Elt F) S1x64 .f32)), { LS2 : List (View.Piece (Elt F) S1x64 .f32) //
      ∀ (xi1 xi2 xi3 : Vec F S1x1x64 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8) K } := by
  refine ⟨?_, ?_, ?_, fun xi1 xi2 xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KB.RunB.lean ====
/-
  The pooling body at a tile that is neither a batch element's first nor its last: each running row takes the tile's
  contribution over what the point before left in it; the three output blocks are not touched.
-/
import proofs.«138509_j5093831213700_1_alg».proof.Proof.KB.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a middle tile: the pieces each running row ends with, with the proof that the body runs from the input block at
    x0, the outputs' buffers at any contents (handed back as they were) and the running rows at xs0, xs1, xs2. -/
noncomputable def kernelRun0_B (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) :
    Σ' (LS0 : List (View.Piece (Elt F) S1x64 .f32)) (LS1 : List (View.Piece (Elt F) S1x64 .f32)), { LS2 : List (View.Piece (Elt F) S1x64 .f32) //
      ∀ (xi1 xi2 xi3 : Vec F S1x1x64 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8) K } := by
  refine ⟨?_, ?_, ?_, fun xi1 xi2 xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KB.RunC.lean ====
/-
  The pooling body at a batch element's LAST tile: each running row takes the tile's contribution over what the point
  before left in it, and is then copied, re-laid from one row of 64 to a 1 by 1 by 64 block, into its output block.
-/
import proofs.«138509_j5093831213700_1_alg».proof.Proof.KB.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a last tile: the pieces each output block and each running row ends with, with the proof that the body runs from
    the input block at x0, the outputs' buffers at anything and the running rows at xs0, xs1, xs2. -/
noncomputable def kernelRun0_C (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) :
    Σ' (L1 : List (View.Piece (Elt F) S1x1x64 .f32)) (L2 : List (View.Piece (Elt F) S1x1x64 .f32)) (L3 : List (View.Piece (Elt F) S1x1x64 .f32)) (LS0 : List (View.Piece (Elt F) S1x64 .f32)) (LS1 : List (View.Piece (Elt F) S1x64 .f32)), { LS2 : List (View.Piece (Elt F) S1x64 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8) K } := by
  refine ⟨?_, ?_, ?_, ?_, ?_, ?_, fun E K => ?run⟩
  case run =>
    simp only [cc0__pool_kernel_eq_skeleton]; unfold cc0__pool_kernel_skel
    unfold owns
    iintro ⟨⟨%f0, %hf0, H0⟩, ⟨%d1, %f1, -, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [HS0]; · iexists _; iexact HS0
    isplitl [HS1]; · iexists _; iexact HS1
    iexists _; iexact HS2

end Cert.Kernel.Hand

end
-- ==== Proof.KB.Frame.lean ====
/-
  The frame of the pooled-statistics region: what the three running rows and the three output blocks hold after each
  grid point, the region's invariant (the running rows at those contents), the proof data, and the body obligation.
  A point's position modulo 5 is its tile number: at tile 0 the rows restart from the tile alone, at tiles 1 to 3 they
  continue from the point before, and at tile 4 they continue and are copied out.
-/
import proofs.«138509_j5093831213700_1_alg».proof.Proof.KB.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first tile the pieces for running row 0 cover it. -/
theorem scoverA_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) (y : S1x64.Idx) :
    ∃ pc ∈ (kernelRun0_A c i arg2 harg2 arg3 harg3 arg4 harg4 arg5 harg5 arg6 harg6 arg7 harg7 arg8 harg8 hc0 hc1 x0).1, y ∈ pc.1.set :=
  View.cover_of_tiledL (kernelRun0_A c i arg2 harg2 arg3 harg3 arg4 harg4 arg5 harg5 arg6 harg6 arg7 harg7 arg8 harg8 hc0 hc1 x0).1 S1x64.size (by sl_kernel_rfl) y

/-- What a first tile leaves in running row 0: its pieces read back. -/
def soutA_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) : Vec F S1x64 .f32 :=
  VS0_0.read (Elt F) (VS0_0.writes (Elt F) VS0_0.junk (kernelRun0_A c i arg2 harg2 arg3 harg3 arg4 harg4 arg5 harg5 arg6 harg6 arg7 harg7 arg8 harg8 hc0 hc1 x0).1)

/-- At a first tile the pieces for running row 1 cover it. -/
theorem scoverA_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) (y : S1x64.Idx) :
    ∃ pc ∈ (kernelRun0_A c i arg2 harg2 arg3 harg3 arg4 harg4 arg5 harg5 arg6 harg6 arg7 harg7 arg8 harg8 hc0 hc1 x0).2.1, y ∈ pc.1.set :=
  View.cover_of_tiledL (kernelRun0_A c i arg2 harg2 arg3 harg3 arg4 harg4 arg5 harg5 arg6 harg6 arg7 harg7 arg8 harg8 hc0 hc1 x0).2.1 S1x64.size (by sl_kernel_rfl) y

/-- What a first tile leaves in running row 1: its pieces read back. -/
def soutA_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) : Vec F S1x64 .f32 :=
  VS0_1.read (Elt F) (VS0_1.writes (Elt F) VS0_1.junk (kernelRun0_A c i arg2 harg2 arg3 harg3 arg4 harg4 arg5 harg5 arg6 harg6 arg7 harg7 arg8 harg8 hc0 hc1 x0).2.1)

/-- At a first tile the pieces for running row 2 cover it. -/
theorem scoverA_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) (y : S1x64.Idx) :
    ∃ pc ∈ (kernelRun0_A c i arg2 harg2 arg3 harg3 arg4 harg4 arg5 harg5 arg6 harg6 arg7 harg7 arg8 harg8 hc0 hc1 x0).2.2.1, y ∈ pc.1.set :=
  View.cover_of_tiledL (kernelRun0_A c i arg2 harg2 arg3 harg3 arg4 harg4 arg5 harg5 arg6 harg6 arg7 harg7 arg8 harg8 hc0 hc1 x0).2.2.1 S1x64.size (by sl_kernel_rfl) y

/-- What a first tile leaves in running row 2: its pieces read back. -/
def soutA_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) : Vec F S1x64 .f32 :=
  VS0_2.read (Elt F) (VS0_2.writes (Elt F) VS0_2.junk (kernelRun0_A c i arg2 harg2 arg3 harg3 arg4 harg4 arg5 harg5 arg6 harg6 arg7 harg7 arg8 harg8 hc0 hc1 x0).2.2.1)

/-- At a middle tile the pieces for running row 0 cover it. -/
theorem scoverB_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 hc0 hc1 x0 xs0 xs1 xs2).1, y ∈ pc.1.set :=
  View.cover_of_tiledL (kernelRun0_B c i arg2 harg2 arg3 harg3 arg4 harg4 arg5 harg5 arg6 harg6 arg7 harg7 arg8 harg8 hc0 hc1 x0 xs0 xs1 xs2).1 S1x64.size (by sl_kernel_rfl) y

/-- What a middle tile leaves in running row 0: its pieces read back. -/
def soutB_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) : Vec F S1x64 .f32 :=
  VS0_0.read (Elt F) (VS0_0.writes (Elt F) VS0_0.junk (kernelRun0_B c i arg2 harg2 arg3 harg3 arg4 harg4 arg5 harg5 arg6 harg6 arg7 harg7 arg8 harg8 hc0 hc1 x0 xs0 xs1 xs2).1)

/-- At a middle tile the pieces for running row 1 cover it. -/
theorem scoverB_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 hc0 hc1 x0 xs0 xs1 xs2).2.1, y ∈ pc.1.set :=
  View.cover_of_tiledL (kernelRun0_B c i arg2 harg2 arg3 harg3 arg4 harg4 arg5 harg5 arg6 harg6 arg7 harg7 arg8 harg8 hc0 hc1 x0 xs0 xs1 xs2).2.1 S1x64.size (by sl_kernel_rfl) y

/-- What a middle tile leaves in running row 1: its pieces read back. -/
def soutB_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) : Vec F S1x64 .f32 :=
  VS0_1.read (Elt F) (VS0_1.writes (Elt F) VS0_1.junk (kernelRun0_B c i arg2 harg2 arg3 harg3 arg4 harg4 arg5 harg5 arg6 harg6 arg7 harg7 arg8 harg8 hc0 hc1 x0 xs0 xs1 xs2).2.1)

/-- At a middle tile the pieces for running row 2 cover it. -/
theorem scoverB_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 hc0 hc1 x0 xs0 xs1 xs2).2.2.1, y ∈ pc.1.set :=
  View.cover_of_tiledL (kernelRun0_B c i arg2 harg2 arg3 harg3 arg4 harg4 arg5 harg5 arg6 harg6 arg7 harg7 arg8 harg8 hc0 hc1 x0 xs0 xs1 xs2).2.2.1 S1x64.size (by sl_kernel_rfl) y

/-- What a middle tile leaves in running row 2: its pieces read back. -/
def soutB_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) : Vec F S1x64 .f32 :=
  VS0_2.read (Elt F) (VS0_2.writes (Elt F) VS0_2.junk (kernelRun0_B c i arg2 harg2 arg3 harg3 arg4 harg4 arg5 harg5 arg6 harg6 arg7 harg7 arg8 harg8 hc0 hc1 x0 xs0 xs1 xs2).2.2.1)

/-- At a last tile the pieces for running row 0 cover it. -/
theorem scoverC_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 hc0 hc1 x0 xs0 xs1 xs2).2.2.2.1, y ∈ pc.1.set :=
  View.cover_of_tiledL (kernelRun0_C c i arg2 harg2 arg3 harg3 arg4 harg4 arg5 harg5 arg6 harg6 arg7 harg7 arg8 harg8 hc0 hc1 x0 xs0 xs1 xs2).2.2.2.1 S1x64.size (by sl_kernel_rfl) y

/-- What a last tile leaves in running row 0: its pieces read back. -/
def soutC_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x64 .f32 :=
  VS0_0.read (Elt F) (VS0_0.writes (Elt F) VS0_0.junk (kernelRun0_C c i arg2 harg2 arg3 harg3 arg4 harg4 arg5 harg5 arg6 harg6 arg7 harg7 arg8 harg8 hc0 hc1 x0 xs0 xs1 xs2).2.2.2.1)

/-- At a last tile the pieces for running row 1 cover it. -/
theorem scoverC_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 hc0 hc1 x0 xs0 xs1 xs2).2.2.2.2.1, y ∈ pc.1.set :=
  View.cover_of_tiledL (kernelRun0_C c i arg2 harg2 arg3 harg3 arg4 harg4 arg5 harg5 arg6 harg6 arg7 harg7 arg8 harg8 hc0 hc1 x0 xs0 xs1 xs2).2.2.2.2.1 S1x64.size (by sl_kernel_rfl) y

/-- What a last tile leaves in running row 1: its pieces read back. -/
def soutC_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x64 .f32 :=
  VS0_1.read (Elt F) (VS0_1.writes (Elt F) VS0_1.junk (kernelRun0_C c i arg2 harg2 arg3 harg3 arg4 harg4 arg5 harg5 arg6 harg6 arg7 harg7 arg8 harg8 hc0 hc1 x0 xs0 xs1 xs2).2.2.2.2.1)

/-- At a last tile the pieces for running row 2 cover it. -/
theorem scoverC_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 hc0 hc1 x0 xs0 xs1 xs2).2.2.2.2.2.1, y ∈ pc.1.set :=
  View.cover_of_tiledL (kernelRun0_C c i arg2 harg2 arg3 harg3 arg4 harg4 arg5 harg5 arg6 harg6 arg7 harg7 arg8 harg8 hc0 hc1 x0 xs0 xs1 xs2).2.2.2.2.2.1 S1x64.size (by sl_kernel_rfl) y

/-- What a last tile leaves in running row 2: its pieces read back. -/
def soutC_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x64 .f32 :=
  VS0_2.read (Elt F) (VS0_2.writes (Elt F) VS0_2.junk (kernelRun0_C c i arg2 harg2 arg3 harg3 arg4 harg4 arg5 harg5 arg6 harg6 arg7 harg7 arg8 harg8 hc0 hc1 x0 xs0 xs1 xs2).2.2.2.2.2.1)

/-- At a last tile the pieces for output block 1 cover it. -/
theorem coverC_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x1x64.Idx) :
    ∃ pc ∈ (kernelRun0_C c i arg2 harg2 arg3 harg3 arg4 harg4 arg5 harg5 arg6 harg6 arg7 harg7 arg8 harg8 hc0 hc1 x0 xs0 xs1 xs2).1, y ∈ pc.1.set :=
  View.cover_of_tiledL (kernelRun0_C c i arg2 harg2 arg3 harg3 arg4 harg4 arg5 harg5 arg6 harg6 arg7 harg7 arg8 harg8 hc0 hc1 x0 xs0 xs1 xs2).1 S1x1x64.size (by sl_kernel_rfl) y

/-- What a last tile leaves in output block 1: its pieces read back. -/
def outC_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x1x64 .f32 :=
  VO0_1.read (Elt F) (VO0_1.writes (Elt F) VO0_1.junk (kernelRun0_C c i arg2 harg2 arg3 harg3 arg4 harg4 arg5 harg5 arg6 harg6 arg7 harg7 arg8 harg8 hc0 hc1 x0 xs0 xs1 xs2).1)

/-- At a last tile the pieces for output block 2 cover it. -/
theorem coverC_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x1x64.Idx) :
    ∃ pc ∈ (kernelRun0_C c i arg2 harg2 arg3 harg3 arg4 harg4 arg5 harg5 arg6 harg6 arg7 harg7 arg8 harg8 hc0 hc1 x0 xs0 xs1 xs2).2.1, y ∈ pc.1.set :=
  View.cover_of_tiledL (kernelRun0_C c i arg2 harg2 arg3 harg3 arg4 harg4 arg5 harg5 arg6 harg6 arg7 harg7 arg8 harg8 hc0 hc1 x0 xs0 xs1 xs2).2.1 S1x1x64.size (by sl_kernel_rfl) y

/-- What a last tile leaves in output block 2: its pieces read back. -/
def outC_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x1x64 .f32 :=
  VO0_2.read (Elt F) (VO0_2.writes (Elt F) VO0_2.junk (kernelRun0_C c i arg2 harg2 arg3 harg3 arg4 harg4 arg5 harg5 arg6 harg6 arg7 harg7 arg8 harg8 hc0 hc1 x0 xs0 xs1 xs2).2.1)

/-- At a last tile the pieces for output block 3 cover it. -/
theorem coverC_3 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x1x64.Idx) :
    ∃ pc ∈ (kernelRun0_C c i arg2 harg2 arg3 harg3 arg4 harg4 arg5 harg5 arg6 harg6 arg7 harg7 arg8 harg8 hc0 hc1 x0 xs0 xs1 xs2).2.2.1, y ∈ pc.1.set :=
  View.cover_of_tiledL (kernelRun0_C c i arg2 harg2 arg3 harg3 arg4 harg4 arg5 harg5 arg6 harg6 arg7 harg7 arg8 harg8 hc0 hc1 x0 xs0 xs1 xs2).2.2.1 S1x1x64.size (by sl_kernel_rfl) y

/-- What a last tile leaves in output block 3: its pieces read back. -/
def outC_3 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x1x64 .f32 :=
  VO0_3.read (Elt F) (VO0_3.writes (Elt F) VO0_3.junk (kernelRun0_C c i arg2 harg2 arg3 harg3 arg4 harg4 arg5 harg5 arg6 harg6 arg7 harg7 arg8 harg8 hc0 hc1 x0 xs0 xs1 xs2).2.2.1)

/-! ## Point by point -/

/-- The three running rows after a first tile. -/
def scA (c : Dev nD) (t : Fin cfg0.N) (h0 : t.val % 5 = 0) (h1 : ¬t.val % 5 = 4) : Vec F S1x64 .f32 × Vec F S1x64 .f32 × Vec F S1x64 .f32 :=
  (soutA_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t), soutA_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t), soutA_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t))

/-- The three running rows after a middle tile, over what the point before left. -/
def scB (c : Dev nD) (t : Fin cfg0.N) (h0 : ¬t.val % 5 = 0) (h1 : ¬t.val % 5 = 4) (xs : Vec F S1x64 .f32 × Vec F S1x64 .f32 × Vec F S1x64 .f32) : Vec F S1x64 .f32 × Vec F S1x64 .f32 × Vec F S1x64 .f32 :=
  (soutB_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2, soutB_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2, soutB_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2)

/-- The three running rows after a last tile, over what the point before left. -/
def scC (c : Dev nD) (t : Fin cfg0.N) (h0 : ¬t.val % 5 = 0) (h1 : t.val % 5 = 4) (xs : Vec F S1x64 .f32 × Vec F S1x64 .f32 × Vec F S1x64 .f32) : Vec F S1x64 .f32 × Vec F S1x64 .f32 × Vec F S1x64 .f32 :=
  (soutC_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2, soutC_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2, soutC_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2)

/-- The three output blocks after a last tile. -/
def outC (c : Dev nD) (t : Fin cfg0.N) (h0 : ¬t.val % 5 = 0) (h1 : t.val % 5 = 4) (xs : Vec F S1x64 .f32 × Vec F S1x64 .f32 × Vec F S1x64 .f32) : Vec F S1x1x64 .f32 × Vec F S1x1x64 .f32 × Vec F S1x1x64 .f32 :=
  (outC_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2, outC_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2, outC_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2)

/-- THE ACCUMULATION: the three running rows after the body at position n. -/
def scAt0 (c : Dev nD) : (n : ℕ) → n < cfg0.N → Vec F S1x64 .f32 × Vec F S1x64 .f32 × Vec F S1x64 .f32
  | 0, hn => scA m c ⟨0, hn⟩ (Nat.zero_mod _) (by show ¬(0 % 5 = 4); decide)
  | n + 1, hn =>
    if h0 : (n + 1) % 5 = 0 then scA m c ⟨n + 1, hn⟩ h0 (by show ¬((n + 1) % 5 = 4); omega)
    else if h1 : (n + 1) % 5 = 4 then scC m c ⟨n + 1, hn⟩ h0 h1 (scAt0 c n (Nat.lt_of_succ_lt hn))
    else scB m c ⟨n + 1, hn⟩ h0 h1 (scAt0 c n (Nat.lt_of_succ_lt hn))

/-- What the point before left in the running rows. -/
abbrev scPrev (c : Dev nD) (t : Fin cfg0.N) : Vec F S1x64 .f32 × Vec F S1x64 .f32 × Vec F S1x64 .f32 :=
  scAt0 m c (t.val - 1) (Nat.lt_of_le_of_lt (Nat.sub_le _ _) t.isLt)

theorem scAt0_A (c : Dev nD) (t : Fin cfg0.N) (h0 : t.val % 5 = 0) (h1 : ¬t.val % 5 = 4) :
    scAt0 m c t.val t.isLt = scA m c t h0 h1 := by
  obtain ⟨n, hn⟩ := t
  cases n with
  | zero => exact rfl
  | succ n => exact (dif_pos h0).trans rfl

theorem scAt0_B (c : Dev nD) (t : Fin cfg0.N) (h0 : ¬t.val % 5 = 0) (h1 : ¬t.val % 5 = 4) :
    scAt0 m c t.val t.isLt = scB m c t h0 h1 (scPrev m c t) := by
  obtain ⟨n, hn⟩ := t
  cases n with
  | zero => exact absurd (Nat.zero_mod _) h0
  | succ n => exact (dif_neg h0).trans ((dif_neg h1).trans rfl)

theorem scAt0_C (c : Dev nD) (t : Fin cfg0.N) (h0 : ¬t.val % 5 = 0) (h1 : t.val % 5 = 4) :
    scAt0 m c t.val t.isLt = scC m c t h0 h1 (scPrev m c t) := by
  obtain ⟨n, hn⟩ := t
  cases n with
  | zero => exact absurd (Nat.zero_mod _) h0
  | succ n => exact (dif_neg h0).trans ((dif_pos h1).trans rfl)

/-- The three output blocks' staging buffers after the body at point t: written at a last tile; elsewhere the window
    is idle and not written back, and nothing consults the value. -/
def outAt0 (c : Dev nD) (t : Fin cfg0.N) : Vec F S1x1x64 .f32 × Vec F S1x1x64 .f32 × Vec F S1x1x64 .f32 :=
  if h1 : t.val % 5 = 4 then outC m c t (fun h => by omega) h1 (scPrev m c t)
  else (VO0_1.read (Elt F) VO0_1.junk, VO0_2.read (Elt F) VO0_2.junk, VO0_3.read (Elt F) VO0_3.junk)

theorem outAt0_C (c : Dev nD) (t : Fin cfg0.N) (h0 : ¬t.val % 5 = 0) (h1 : t.val % 5 = 4) :
    outAt0 m c t = outC m c t h0 h1 (scPrev m c t) := dif_pos h1

/-! ## The invariant -/

/-- Before position n: at the start the class invariant (the rows at anything); afterwards the three running rows at
    what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt0 m c (n - 1) (by omega)).1) ∗ owns (c : Thread nD τ) scM0_1 fullShare ((scAt0 m c (n - 1) (by omega)).2.1) ∗ owns (c : Thread nD τ) scM0_2 fullShare ((scAt0 m c (n - 1) (by omega)).2.2)) ∗ (∃ r, prngReg c r)) := by
  cases n with
  | zero => exact absurd rfl hz
  | succ n => rfl

/-! ## The proof data -/

/-- The proof data of the region on core c: the arrays as the region finds them; after the body at point t the input's
    buffer at its block and the outputs' at outAt0; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outAt0 m c t).1
    | ⟨2, _⟩ => (outAt0 m c t).2.1
    | ⟨3, _⟩ => (outAt0 m c t).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outAt0 m c t).1 := by dsimp only [dats]
theorem after0_2 (c : Dev nD) (t : Fin cfg0.N) : (dats m 0 c).after 2 t = (outAt0 m c t).2.1 := by dsimp only [dats]
theorem after0_3 (c : Dev nD) (t : Fin cfg0.N) : (dats m 0 c).after 3 t = (outAt0 m c t).2.2 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the input's memref holds its block; the position modulo 5 says which case the point is in;
    the invariant hands the body the running rows at what the point before left (at anything at the very first point)
    and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  have hN : t.val < 40 := lt_of_lt_of_eq t.isLt (show cfg0.N = 40 from N_0)
  by_cases h1 : t.val % 5 = 4
  · have h0 : ¬t.val % 5 = 0 := by omega
    have hz : t.val ≠ 0 := by omega
    rw [show (dats m 0 c).leavesExact 1 t = owns (c : Thread nD τ) (ms0_1 t) fullShare ((dats m 0 c).after 1 t) from by
      unfold Dat.leavesExact; rw [liveAt0_1 t ((hcond0_1 t).mpr h1)], after0_1]
    rw [show (dats m 0 c).leavesExact 2 t = owns (c : Thread nD τ) (ms0_2 t) fullShare ((dats m 0 c).after 2 t) from by
      unfold Dat.leavesExact; rw [liveAt0_2 t ((hcond0_1 t).mpr h1)], after0_2]
    rw [show (dats m 0 c).leavesExact 3 t = owns (c : Thread nD τ) (ms0_3 t) fullShare ((dats m 0 c).after 3 t) from by
      unfold Dat.leavesExact; rw [liveAt0_3 t ((hcond0_1 t).mpr h1)], after0_3]
    rw [scAt0_C m c t h0 h1, outAt0_C m c t h0 h1]
    unfold scC outC soutC_0 soutC_1 soutC_2 outC_1 outC_2 outC_3; (try dsimp only)
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRun0_C c (grid0.coords t) _ _ _ _ _ _ _ _ _ _ _ _ _ _ (fun h => h0 ((hcond0_0 t).mp h)) ((hcond0_1 t).mpr h1) (iblk m c 0 t) _ _ _).2.2.2.2.2.2 Set.univ _)
    isplitl [H0]; · iexact H0
    isplitl [H1]; · iexists _; iexact H1
    isplitl [H2]; · iexists _; iexact H2
    isplitl [H3]; · iexists _; iexact H3
    isplitl [HS0]; · iexact HS0
    isplitl [HS1]; · iexact HS1
    isplitl [HS2]; · iexact HS2
    iintro ⟨H0, ⟨%e1, H1⟩, ⟨%e2, H2⟩, ⟨%e3, H3⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scoverC_0 c _ _ _ _ _ _ _ _ _ _ _ _ _ _ _ _ _ _ _ _ _)
        isplitl [HS1]
        · unfold owns; iexists _; isplitr
          swap; · iexact HS1
          ipureintro; exact View.read_writes_of_cover _ _ _ _ _ (scoverC_1 c _ _ _ _ _ _ _ _ _ _ _ _ _ _ _ _ _ _ _ _ _)
        unfold owns; iexists _; isplitr
        swap; · iexact HS2
        ipureintro; exact View.read_writes_of_cover _ _ _ _ _ (scoverC_2 c _ _ _ _ _ _ _ _ _ _ _ _ _ _ _ _ _ _ _ _ _)
      iexact Hg
    isplitl [Ho]; · iexact Ho
    isplitl [H0]; · iexact H0
    isplitl [H1]
    · unfold owns; iexists _; isplitr
      swap; · iexact H1
      ipureintro; exact View.read_writes_of_cover _ _ _ _ _ (coverC_1 c _ _ _ _ _ _ _ _ _ _ _ _ _ _ _ _ _ _ _ _ _)
    isplitl [H2]
    · unfold owns; iexists _; isplitr
      swap; · iexact H2
      ipureintro; exact View.read_writes_of_cover _ _ _ _ _ (coverC_2 c _ _ _ _ _ _ _ _ _ _ _ _ _ _ _ _ _ _ _ _ _)
    unfold owns; iexists _; isplitr
    swap; · iexact H3
    ipureintro; exact View.read_writes_of_cover _ _ _ _ _ (coverC_3 c _ _ _ _ _ _ _ _ _ _ _ _ _ _ _ _ _ _ _ _ _)
  · by_cases h0 : t.val % 5 = 0
    · rw [Dat.leavesExact_idle (dats m 0 c) 1 t (idleAt0_1 t (fun h => h1 ((hcond0_1 t).mp h))) (noFlush0_1 t (fun h => h1 ((hcond0_1 t).mp h)))]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [scAt0_A m c t h0 h1]
      unfold scA soutA_0 soutA_1 soutA_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t)).2.2.2 _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 c _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _)
            unfold owns; iexists _; isplitr
            swap; · iexact HS2
            ipureintro; exact View.read_writes_of_cover _ _ _ _ _ (scoverA_2 c _ _ _ _ _ _ _ _ _ _ _ _ _ _ _ _ _ _)
          iexact Hg
        isplitl [Ho]; · iexact Ho
        isplitl [H0]; · iexact H0
        isplitl [H1]; · iexists _; iexact H1
        isplitl [H2]; · iexists _; iexact H2
        iexists _; iexact H3
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t)).2.2.2 _ _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 c _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _)
            unfold owns; iexists _; isplitr
            swap; · iexact HS2
            ipureintro; exact View.read_writes_of_cover _ _ _ _ _ (scoverA_2 c _ _ _ _ _ _ _ _ _ _ _ _ _ _ _ _ _ _)
          iexact Hg
        isplitl [Ho]; · iexact Ho
        isplitl [H0]; · iexact H0
        isplitl [H1]; · iexists _; iexact H1
        isplitl [H2]; · iexists _; iexact H2
        iexists _; iexact H3
    · have hz : t.val ≠ 0 := fun h => h0 (by rw [h])
      rw [Dat.leavesExact_idle (dats m 0 c) 1 t (idleAt0_1 t (fun h => h1 ((hcond0_1 t).mp h))) (noFlush0_1 t (fun h => h1 ((hcond0_1 t).mp h)))]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [scAt0_B m c t h0 h1]
      unfold scB soutB_0 soutB_1 soutB_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk m c 0 t) _ _ _).2.2.2 _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 c _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _)
          unfold owns; iexists _; isplitr
          swap; · iexact HS2
          ipureintro; exact View.read_writes_of_cover _ _ _ _ _ (scoverB_2 c _ _ _ _ _ _ _ _ _ _ _ _ _ _ _ _ _ _ _ _ _)
        iexact Hg
      isplitl [Ho]; · iexact Ho
      isplitl [H0]; · iexact H0
      isplitl [H1]; · iexists _; iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the rows' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 40 := N_0; omega)

end Cert.Kernel.Hand

end
-- ==== Proof.KB.Stats.lean ====
/-
  The three pooled statistics as the program's host operations form them from the region's three output arrays
  (column sums S, column sums of squares Q, column maxima M, each 8 by 1 by 64): the mean S / 100000, the maximum M, and
  the unbiased standard deviation sqrt ((Q - S * S / 100000) / 99999).
-/
import proofs.«138509_j5093831213700_1_alg».proof.Kernel
import proofs.«138509_j5093831213700_1_alg».proof.Proof.Gen.Kernel

noncomputable section

namespace Cert.Kernel.Hand

open Idealize.ShloMosaic Cert.Kernel
open Cert.Kernel.Facts₀ Cert.Kernel.Facts

variable {F : FTy → Type} [FloatOps F]

/-- The column means: the sums divided by the row count. -/
def kMean (S : FVec F S8x1x64 .f32) : FVec F S8x64 .f32 :=
  Host.divf (shapeCast S8x64 S shapeCasts_S8x1x64_S8x64) (broadcastInDim S8x64 ![] bcast_S_S8x64 (constant S_ .f32 0x47C35000#32))

/-- The column maxima, re-laid. -/
def kMax (M : FVec F S8x1x64 .f32) : FVec F S8x64 .f32 :=
  shapeCast S8x64 M shapeCasts_S8x1x64_S8x64

/-- The column standard deviations from the sums and the sums of squares. -/
def kStd (S Q : FVec F S8x1x64 .f32) : FVec F S8x64 .f32 :=
  Host.sqrt (Host.divf
    (subf (shapeCast S8x64 Q shapeCasts_S8x1x64_S8x64)
      (Host.divf (mulf (shapeCast S8x64 S shapeCasts_S8x1x64_S8x64) (shapeCast S8x64 S shapeCasts_S8x1x64_S8x64))
        (broadcastInDim S8x64 ![] bcast_S_S8x64 (constant S_ .f32 0x47C35000#32))))
    (broadcastInDim S8x64 ![] bcast_S_S8x64 (constant S_ .f32 0x47C34F80#32)))

end Cert.Kernel.Hand

end
-- ==== Proof.KB.Tail.lean ====
/-
  The main function around its one region: the nine stretches of host operations after the region allocate nothing,
  touch only unscoped device buffers, and write neither a window's array nor an argument; hence the arguments end as
  the launch memory held them, and the result buffer holds one pure term in the region's three output arrays and the
  seven remaining arguments.
-/
import proofs.«138509_j5093831213700_1_alg».proof.Proof.KB.Base
import proofs.«138509_j5093831213700_1_alg».proof.Proof.KB.Stats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function reduces to its region continued by the nine stretches -/

/-- With no host operation before the region, the main function is the region's entry followed by the chain of
    the nine stretches; the buffers are held at the launch contents when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [] opss (by simp only [List.Forall])
    (by simp only [List.Forall]) main_chain

/-! ## The stretches touch unscoped device buffers only -/

/-- Membership in the list of stretches, stretch by stretch. -/
theorem mem_opss {ops : List (HloOp τ sig (Elt F))} (h : ops ∈ (opss (F := F))) :
    ops = hostOps1 ∨ ops = hostOps1_1 ∨ ops = hostOps1_2 ∨ ops = hostOps1_3 ∨ ops = hostOps1_4 ∨ ops = hostOps1_5
      ∨ ops = hostOps1_6 ∨ ops = hostOps1_7 ∨ ops = hostOps1_8 := by
  simpa only [opss, List.mem_cons, List.mem_nil_iff, or_false] using h

/-- A property every operation of each of the nine stretches has, every operation after the region has. -/
theorem forall_opss {p : HloOp τ sig (Elt F) → Prop}
    (h0 : (hostOps1 (F := F)).Forall p) (h1 : (hostOps1_1 (F := F)).Forall p) (h2 : (hostOps1_2 (F := F)).Forall p)
    (h3 : (hostOps1_3 (F := F)).Forall p) (h4 : (hostOps1_4 (F := F)).Forall p) (h5 : (hostOps1_5 (F := F)).Forall p)
    (h6 : (hostOps1_6 (F := F)).Forall p) (h7 : (hostOps1_7 (F := F)).Forall p) (h8 : (hostOps1_8 (F := F)).Forall p) :
    ∀ ops ∈ (opss (F := F)), ∀ op ∈ ops, p op := by
  intro ops hops op hop
  rcases mem_opss hops with rfl | rfl | rfl | rfl | rfl | rfl | rfl | rfl | rfl
  · exact List.forall_iff_forall_mem.mp h0 op hop
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop
  · exact List.forall_iff_forall_mem.mp h6 op hop
  · exact List.forall_iff_forall_mem.mp h7 op hop
  · exact List.forall_iff_forall_mem.mp h8 op hop

/-- Every operation after the region touches TensorCore references only. -/
theorem opss_tc : ∀ ops ∈ (opss (F := F)), ∀ op ∈ ops, op.bufs ⊆ StableHlo.tcRefs τ sig :=
  forall_opss hostOps1_sub hostOps1_1_sub hostOps1_2_sub hostOps1_3_sub hostOps1_4_sub hostOps1_5_sub hostOps1_6_sub
    hostOps1_7_sub hostOps1_8_sub

/-- The operations after the region touch the pipeline's arrays and the bypassing buffers only: nothing is prefetched,
    so these are all the unscoped TensorCore references. -/
theorem sfx_sub : ∀ ops ∈ (opss (F := F)), ∀ op ∈ ops, op.bufs ⊆ Pipeline.tailRefs sig Pipeline.Prefetch.none spec0 := by
  rw [Pipeline.tailRefs_none spec0 launch0.win.arr_unscoped]
  exact fun ops hops op hop => Pipeline.sub_ucRefs op (opss_tc ops hops op hop)

/-! ## They allocate nothing -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

theorem sfx_fresh : ∀ ops ∈ (opss (F := F)), ∀ op ∈ ops, op.fresh = ∅ :=
  forall_opss hostOps1_fresh hostOps1_1_fresh hostOps1_2_fresh hostOps1_3_fresh hostOps1_4_fresh hostOps1_5_fresh
    hostOps1_6_fresh hostOps1_7_fresh hostOps1_8_fresh

/-! ## They write neither a window's array nor an argument -/

/-- The buffers no operation after the region writes: the eight arguments (the first of them window 0's array) and the
    region's three output arrays. -/
abbrev kept : List (Ref sig .tc) :=
  [main_arg0, main_arg1, main_arg2, main_arg3, main_arg4, main_arg5, main_arg6, main_arg7, main_v0_0, main_v0_1, main_v0_2]

/-- The operation writes none of the buffers listed. -/
def Keeps (L : List (Ref sig .tc)) (op : HloOp τ sig (Elt F)) : Prop := ∀ r ∈ L, Proc.devRef (τ := τ) .tc r ∉ op.writes

/-- An operation whose one written buffer is a reference outside the list keeps the list's. -/
theorem keeps_of_writes (L : List (Ref sig .tc)) (op : HloOp τ sig (Elt F)) (y : Ref sig .tc)
    (h : op.writes = {Proc.devRef .tc y}) (hy : y ∉ L) : Keeps L op := by
  intro r hr hw
  rw [h, Finset.mem_singleton] at hw
  exact hy (Proc.devRef_injective _ hw ▸ hr)

theorem hostOps1_keeps : (hostOps1 : List (HloOp τ sig (Elt F))).Forall (Keeps kept) := by
  simp only [List.Forall]
  repeat' apply And.intro
  all_goals exact keeps_of_writes _ _ _ rfl (by decide)
theorem hostOps1_1_keeps : (hostOps1_1 : List (HloOp τ sig (Elt F))).Forall (Keeps kept) := by
  simp only [List.Forall]
  repeat' apply And.intro
  all_goals exact keeps_of_writes _ _ _ rfl (by decide)
theorem hostOps1_2_keeps : (hostOps1_2 : List (HloOp τ sig (Elt F))).Forall (Keeps kept) := by
  simp only [List.Forall]
  repeat' apply And.intro
  all_goals exact keeps_of_writes _ _ _ rfl (by decide)
theorem hostOps1_3_keeps : (hostOps1_3 : List (HloOp τ sig (Elt F))).Forall (Keeps kept) := by
  simp only [List.Forall]
  repeat' apply And.intro
  all_goals exact keeps_of_writes _ _ _ rfl (by decide)
theorem hostOps1_4_keeps : (hostOps1_4 : List (HloOp τ sig (Elt F))).Forall (Keeps kept) := by
  simp only [List.Forall]
  repeat' apply And.intro
  all_goals exact keeps_of_writes _ _ _ rfl (by decide)
theorem hostOps1_5_keeps : (hostOps1_5 : List (HloOp τ sig (Elt F))).Forall (Keeps kept) := by
  simp only [List.Forall]
  repeat' apply And.intro
  all_goals exact keeps_of_writes _ _ _ rfl (by decide)
theorem hostOps1_6_keeps : (hostOps1_6 : List (HloOp τ sig (Elt F))).Forall (Keeps kept) := by
  simp only [List.Forall]
  repeat' apply And.intro
  all_goals exact keeps_of_writes _ _ _ rfl (by decide)
theorem hostOps1_7_keeps : (hostOps1_7 : List (HloOp τ sig (Elt F))).Forall (Keeps kept) := by
  simp only [List.Forall]
  exact keeps_of_writes _ _ _ rfl (by decide)
theorem hostOps1_8_keeps : (hostOps1_8 : List (HloOp τ sig (Elt F))).Forall (Keeps kept) := by
  simp only [List.Forall]
  repeat' apply And.intro
  all_goals exact keeps_of_writes _ _ _ rfl (by decide)

/-- No operation after the region writes a kept buffer. -/
theorem opss_keeps : ∀ ops ∈ (opss (F := F)), ∀ op ∈ ops, Keeps kept op :=
  forall_opss hostOps1_keeps hostOps1_1_keeps hostOps1_2_keeps hostOps1_3_keeps hostOps1_4_keeps hostOps1_5_keeps
    hostOps1_6_keeps hostOps1_7_keeps hostOps1_8_keeps

/-- Each window's array is a kept buffer. -/
theorem arrRef_mem_kept : ∀ w : Fin 4, Pipeline.arrRef spec0 w ∈ kept := by decide

/-- In particular they write no array of the pipeline. -/
theorem sfx_keeps : ∀ ops ∈ (opss (F := F)), ∀ op ∈ ops, ∀ w, Proc.devRef .tc (Pipeline.arrRef spec0 w) ∉ op.writes :=
  fun ops hops op hop w => opss_keeps ops hops op hop _ (arrRef_mem_kept w)

/-! ## The frame: the arguments end as the launch memory held them -/

/-- A kept buffer that is no window's array holds, after the nine stretches, what it held when the region was
    entered: no operation writes it, and the region's exit contents differ from the entry contents at the arrays only. -/
theorem afterTail_kept (dats : (p : Fin 1) → (c : Dev nD) → Dat τ (Elt F) Unit ℕ (UR sig nD τ) ℕ (cfgs p) c)
    (c : Dev nD) (b : Ref sig .tc) (hb : b ∈ kept) (hne : ∀ w, Pipeline.arrRef spec0 w ≠ b) :
    Pipeline.afterTail₀ cfgs dats 0 (V0 m) (opss (F := F)) c b = V m c b := by
  unfold Pipeline.afterTail₀
  rw [StableHlo.after_of_forall_not_mem _ _ (fun op hop => ?_), Pipeline.withArrays_of_ne _ c _ _ b hne]
  obtain ⟨ops, hops, hop'⟩ := List.mem_flatten.mp hop
  exact opss_keeps ops hops op hop' b hb

/-- A final memory satisfying the frame run's post holds every argument as the launch memory did: window 0's array is
    an input, so it ends at its entry contents; each other argument bypasses the region and no later operation writes it. -/
theorem frame_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) (opss (F := F))) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats 0 c).arrAt_in 0 rfl _).trans ((hA c 0).trans (V_main_arg0 m c))),
   ((h c).2 main_arg1 (Pipeline.mem_restRefs_of _ rfl (by decide))).trans
      ((afterTail_kept m dats c main_arg1 (by decide) (by decide)).trans (V_main_arg1 m c)),
   ((h c).2 main_arg2 (Pipeline.mem_restRefs_of _ rfl (by decide))).trans
      ((afterTail_kept m dats c main_arg2 (by decide) (by decide)).trans (V_main_arg2 m c)),
   ((h c).2 main_arg3 (Pipeline.mem_restRefs_of _ rfl (by decide))).trans
      ((afterTail_kept m dats c main_arg3 (by decide) (by decide)).trans (V_main_arg3 m c)),
   ((h c).2 main_arg4 (Pipeline.mem_restRefs_of _ rfl (by decide))).trans
      ((afterTail_kept m dats c main_arg4 (by decide) (by decide)).trans (V_main_arg4 m c)),
   ((h c).2 main_arg5 (Pipeline.mem_restRefs_of _ rfl (by decide))).trans
      ((afterTail_kept m dats c main_arg5 (by decide) (by decide)).trans (V_main_arg5 m c)),
   ((h c).2 main_arg6 (Pipeline.mem_restRefs_of _ rfl (by decide))).trans
      ((afterTail_kept m dats c main_arg6 (by decide) (by decide)).trans (V_main_arg6 m c)),
   ((h c).2 main_arg7 (Pipeline.mem_restRefs_of _ rfl (by decide))).trans
      ((afterTail_kept m dats c main_arg7 (by decide) (by decide)).trans (V_main_arg7 m c))⟩

/-- The same memory holds, at the result buffer, what the nine stretches leave there: the result buffer bypasses
    the region. -/
theorem result_post (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) (opss (F := F))) r) (c : Dev nD) :
    r.2.mem ((c.tc : Thread nD τ).loc main_v69) = Pipeline.afterTail₀ cfgs dats 0 (V0 m) (opss (F := F)) c main_v69 :=
  (h c).2 main_v69 (Pipeline.mem_restRefs_of _ rfl (by decide))

/-- The frame claim's post from a frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) (opss (F := F))))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => frame_post m dats hA r h c) h

/-! ## The result as one pure term

The operations after the region, read as functions, each definition's body the program's operations in the program's
order: the degree statistics of the edge list, the features side by side, the three layers, the score and the two
means. (What the region's three output arrays give — the per-graph mean, maximum and standard deviation — is `kMean`,
`kMax`, `kStd`.) -/

section Pure

/-- Row 1 of the edge list (the targets), as a vector. -/
def kRow1 (e : IVec S2x3200000 32) : IVec S3200000 32 :=
  shapeCast S3200000 (extractStridedSlice S1x3200000 ![1, 0] e slices_S2x3200000_S1x3200000_1_0) shapeCasts_S1x3200000_S3200000

/-- The targets, a negative one wrapped by adding the number of nodes. -/
def kTargets (e : IVec S2x3200000 32) : IVec S3200000 32 :=
  select (cmpi .slt (kRow1 e) (broadcastInDim S3200000 ![] bcast_S_S3200000 (constantI S_ 32 0#32)))
    (addi (kRow1 e) (broadcastInDim S3200000 ![] bcast_S_S3200000 (constantI S_ 32 100000#32)))
    (kRow1 e)

/-- The in-degree of every node: ones added into zeros at the targets. -/
def kDeg (e : IVec S2x3200000 32) : FVec F S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 (kTargets e))
    (broadcastInDim S3200000 ![] bcast_S_S3200000 (constant S_ .f32 0x3F800000#32))

/-- The mean in-degree. -/
def kDegMean (e : IVec S2x3200000 32) : FVec F S_ .f32 :=
  Host.divf (Host.reduceAdd (kDeg e) (constant S_ .f32 0x00000000#32) reducesTo_S100000_S_d0 h_S_) (constant S_ .f32 0x47C35000#32)

/-- The in-degrees centred: minus the mean taken through a one-element tensor and repeated. -/
def kDegCentred (e : IVec S2x3200000 32) : FVec F S100000 .f32 :=
  subf (kDeg e) (broadcastInDim S100000 ![0] bcast_S1_S100000_0
    (Host.divf
      (broadcastInDim S1 ![] bcast_S_S1 (Host.reduceAdd (kDeg e) (constant S_ .f32 0x00000000#32) reducesTo_S100000_S_d0 h_S_))
      (broadcastInDim S1 ![] bcast_S_S1 (constant S_ .f32 0x47C35000#32))))

/-- The unbiased standard deviation of the in-degrees (a not-a-number were the divisor `1e5 − 1` not positive). -/
def kDegStd (e : IVec S2x3200000 32) : FVec F S_ .f32 :=
  Host.sqrt
    (select (cmpf .ogt (subf (constant S_ .f32 0x47C35000#32) (sitofp .f32 (constantI S_ 32 1#32)) : FVec F S_ .f32) (constant S_ .f32 0x00000000#32))
      (Host.divf
        (Host.reduceAdd (mulf (kDegCentred e) (kDegCentred e)) (constant S_ .f32 0x00000000#32) reducesTo_S100000_S_d0 h_S_)
        (subf (constant S_ .f32 0x47C35000#32) (sitofp .f32 (constantI S_ 32 1#32))))
      (id (constant S_ .f32 0x7FC00000#32)))

/-- Four one-element tensors side by side. -/
def kFour (a b c d : FVec F S1 .f32) : FVec F S4 .f32 :=
  concatenate S4 0 [⟨S1, a⟩, ⟨S1, b⟩, ⟨S1, c⟩, ⟨S1, d⟩] concatenates_S1_S1_S1_S1_S4_d0

/-- The four structural features — mean in-degree, its deviation, and the two literals — one row, repeated for the
    eight graphs. -/
def kStruct (e : IVec S2x3200000 32) : FVec F S8x4 .f32 :=
  broadcastInDim S8x4 ![0, 1] bcast_S1x4_S8x4_0_1 (broadcastInDim S1x4 ![1] bcast_S4_S1x4_1
    (kFour (broadcastInDim S1 ![] bcast_S_S1 (kDegMean e)) (broadcastInDim S1 ![] bcast_S_S1 (kDegStd e))
      (broadcastInDim S1 ![] bcast_S_S1 (constant S_ .f32 0x39A7C61A#32)) (broadcastInDim S1 ![] bcast_S_S1 (constant S_ .f32 0x3F935D96#32))))

/-- The 196 features of each graph: mean, maximum, deviation, structure, side by side. -/
def kFeat (mean mx std : FVec F S8x64 .f32) (s : FVec F S8x4 .f32) : FVec F S8x196 .f32 :=
  concatenate S8x196 1 [⟨S8x64, mean⟩, ⟨S8x64, mx⟩, ⟨S8x64, std⟩, ⟨S8x4, s⟩] concatenates_S8x64_S8x64_S8x64_S8x4_S8x196_d1

/-- The first dense layer, `max(z·W1 + b1, 0)`. -/
def kHidden1 (z : FVec F S8x196 .f32) (W1 : FVec F S196x64 .f32) (b1 : FVec F S64 .f32) : FVec F S8x64 .f32 :=
  maximumf
    (addf (Host.dotGeneral dot_S8x196_S196x64_S8x64_1_0_0_1_n_n none z W1)
      (broadcastInDim S8x64 ![0, 1] bcast_S1x64_S8x64_0_1 (broadcastInDim S1x64 ![1] bcast_S64_S1x64_1 b1)))
    (broadcastInDim S8x64 ![] bcast_S_S8x64 (constant S_ .f32 0x00000000#32))

/-- The second dense layer, `max(h·W2 + b2, 0)`. -/
def kHidden2 (h : FVec F S8x64 .f32) (W2 : FVec F S64x32 .f32) (b2 : FVec F S32 .f32) : FVec F S8x32 .f32 :=
  maximumf
    (addf (Host.dotGeneral dot_S8x64_S64x32_S8x32_1_0_0_1_n_n none h W2)
      (broadcastInDim S8x32 ![0, 1] bcast_S1x32_S8x32_0_1 (broadcastInDim S1x32 ![1] bcast_S32_S1x32_1 b2)))
    (broadcastInDim S8x32 ![] bcast_S_S8x32 (constant S_ .f32 0x00000000#32))

/-- The third layer through the logistic function, `1 / (1 + exp (−(h·W3 + b3)))`, one number per graph. -/
def kProb (h : FVec F S8x32 .f32) (W3 : FVec F S32x1 .f32) (b3 : FVec F S1 .f32) : FVec F S8 .f32 :=
  shapeCast S8
    (Host.divf (broadcastInDim S8x1 ![] bcast_S_S8x1 (constant S_ .f32 0x3F800000#32))
      (addf (broadcastInDim S8x1 ![] bcast_S_S8x1 (constant S_ .f32 0x3F800000#32))
        (Host.exp (Host.negf
          (addf (Host.dotGeneral dot_S8x32_S32x1_S8x1_1_0_0_1_n_n none h W3)
            (broadcastInDim S8x1 ![0, 1] bcast_S1x1_S8x1_0_1 (broadcastInDim S1x1 ![1] bcast_S1_S1x1_1 b3)))))))
    shapeCasts_S8x1_S8

/-- The score `3 + 47·p`. -/
def kScore (p : FVec F S8 .f32) : FVec F S8 .f32 :=
  addf (broadcastInDim S8 ![] bcast_S_S8 (constant S_ .f32 0x40400000#32))
    (mulf p (broadcastInDim S8 ![] bcast_S_S8 (constant S_ .f32 0x423C0000#32)))

/-- The mean over the eight graphs of `k + (round k − k)` for the score `k`, and the mean of `p`, side by side. -/
def kOut (p : FVec F S8 .f32) : FVec F S2 .f32 :=
  concatenate S2 0
    [⟨S1, broadcastInDim S1 ![] bcast_S_S1
        (Host.divf
          (Host.reduceAdd (addf (kScore p) (subf (Host.roundeven (kScore p)) (kScore p))) (constant S_ .f32 0x00000000#32) reducesTo_S8_S_d0 h_S_)
          (constant S_ .f32 0x41000000#32))⟩,
     ⟨S1, broadcastInDim S1 ![] bcast_S_S1
        (Host.divf (Host.reduceAdd p (constant S_ .f32 0x00000000#32) reducesTo_S8_S_d0 h_S_) (constant S_ .f32 0x41000000#32))⟩]
    concatenates_S1_S1_S2_d0

/-- Everything downstream of the three pooled statistics: the structural features of the edge list beside them, the
    three dense layers, the logistic function, and the two means. -/
def common (mean mx std : FVec F S8x64 .f32) (e : IVec S2x3200000 32) (W1 : FVec F S196x64 .f32) (b1 : FVec F S64 .f32)
    (W2 : FVec F S64x32 .f32) (b2 : FVec F S32 .f32) (W3 : FVec F S32x1 .f32) (b3 : FVec F S1 .f32) : FVec F S2 .f32 :=
  kOut (kProb (kHidden2 (kHidden1 (kFeat mean mx std (kStruct e)) W1 b1) W2 b2) W3 b3)

end Pure

/-! ### The stretches one by one, from any contents -/

/-- Two lines run one after the other leave what the second leaves from what the first left. -/
theorem after_append (l₁ l₂ : List (HloOp τ sig (Elt F))) (G : Valuation τ sig (Elt F)) :
    StableHlo.after (l₁ ++ l₂) G = StableHlo.after l₂ (StableHlo.after l₁ G) := by
  induction l₁ generalizing G with
  | nil => rfl
  | cons op l ih => simp only [List.cons_append, StableHlo.after_cons, ih]

/-- A line whose operations keep the listed buffers leaves each of them as it was. -/
theorem after_keeps {L : List (Ref sig .tc)} {ops : List (HloOp τ sig (Elt F))} (h : ops.Forall (Keeps L))
    (G : Valuation τ sig (Elt F)) {r : Ref sig .tc} (hr : r ∈ L) :
    StableHlo.after ops G (Proc.devRef .tc r) = G (Proc.devRef .tc r) :=
  StableHlo.after_of_forall_not_mem ops G fun op hop => List.forall_iff_forall_mem.mp h op hop r hr

section Stretches

variable (G : Valuation τ sig (Elt F))

/-! The first stretch: the pooled blocks from the region's output arrays, the in-degrees and their mean. -/

theorem s0_v5 : StableHlo.after hostOps1 G (Proc.devRef .tc main_v5) = kMean (G (Proc.devRef .tc main_v0_0)) := by
  simp only [hostOps1]; after_results_simp; rfl
theorem s0_v3 : StableHlo.after hostOps1 G (Proc.devRef .tc main_v3) = kMax (G (Proc.devRef .tc main_v0_2)) := by
  simp only [hostOps1]; after_results_simp; rfl
theorem s0_v12 : StableHlo.after hostOps1 G (Proc.devRef .tc main_v12) = kStd (G (Proc.devRef .tc main_v0_0)) (G (Proc.devRef .tc main_v0_1)) := by
  simp only [hostOps1]; after_results_simp; rfl
theorem s0_v23 : StableHlo.after hostOps1 G (Proc.devRef .tc main_v23) = kDeg (G (Proc.devRef .tc main_arg1)) := by
  simp only [hostOps1]; after_results_simp; rfl
theorem s0_v25 : StableHlo.after hostOps1 G (Proc.devRef .tc main_v25) = kDegMean (G (Proc.devRef .tc main_arg1)) := by
  simp only [hostOps1]; after_results_simp; rfl
theorem s0_c7 : StableHlo.after hostOps1 G (Proc.devRef .tc main_c_7) = constantI S_ 32 1#32 := by
  simp only [hostOps1]; after_results_simp

/-! The second stretch: the deviation of the in-degrees, when it finds them and the delta degrees of freedom in
    place; it writes only the buffers of its own call. -/

theorem s1_v26 (e : IVec S2x3200000 32) (h23 : G (Proc.devRef .tc main_v23) = kDeg e)
    (hc : G (Proc.devRef .tc main_c_7) = constantI S_ 32 1#32) :
    StableHlo.after hostOps1_1 G (Proc.devRef .tc main_v26) = kDegStd e := by
  simp only [hostOps1_1]; after_results_simp; rw [h23, hc]; rfl

theorem hostOps1_1_keeps' : (hostOps1_1 : List (HloOp τ sig (Elt F))).Forall (Keeps [main_v5, main_v3, main_v12, main_v25]) := by
  simp only [List.Forall]
  repeat' apply And.intro
  all_goals exact keeps_of_writes _ _ _ rfl (by decide)

/-! The third stretch: the features side by side, times the first weight matrix, plus its bias. -/

theorem s2_v38_raw : StableHlo.after hostOps1_2 G (Proc.devRef .tc main_v38)
    = addf (Host.dotGeneral dot_S8x196_S196x64_S8x64_1_0_0_1_n_n none
          (kFeat (G (Proc.devRef .tc main_v5)) (G (Proc.devRef .tc main_v3)) (G (Proc.devRef .tc main_v12))
            (broadcastInDim S8x4 ![0, 1] bcast_S1x4_S8x4_0_1 (broadcastInDim S1x4 ![1] bcast_S4_S1x4_1
              (kFour (broadcastInDim S1 ![] bcast_S_S1 (G (Proc.devRef .tc main_v25))) (broadcastInDim S1 ![] bcast_S_S1 (G (Proc.devRef .tc main_v26)))
                (broadcastInDim S1 ![] bcast_S_S1 (constant S_ .f32 0x39A7C61A#32))
                (broadcastInDim S1 ![] bcast_S_S1 (constant S_ .f32 0x3F935D96#32))))))
          (G (Proc.devRef .tc main_arg2)))
        (broadcastInDim S8x64 ![0, 1] bcast_S1x64_S8x64_0_1 (broadcastInDim S1x64 ![1] bcast_S64_S1x64_1 (G (Proc.devRef .tc main_arg3)))) := by
  simp only [hostOps1_2]; after_results; rfl

theorem s2_v38 (e : IVec S2x3200000 32) (mean mx std : FVec F S8x64 .f32)
    (h5 : G (Proc.devRef .tc main_v5) = mean) (h3 : G (Proc.devRef .tc main_v3) = mx) (h12 : G (Proc.devRef .tc main_v12) = std)
    (h25 : G (Proc.devRef .tc main_v25) = kDegMean e) (h26 : G (Proc.devRef .tc main_v26) = kDegStd e) :
    StableHlo.after hostOps1_2 G (Proc.devRef .tc main_v38)
      = addf (Host.dotGeneral dot_S8x196_S196x64_S8x64_1_0_0_1_n_n none (kFeat mean mx std (kStruct e)) (G (Proc.devRef .tc main_arg2)))
          (broadcastInDim S8x64 ![0, 1] bcast_S1x64_S8x64_0_1 (broadcastInDim S1x64 ![1] bcast_S64_S1x64_1 (G (Proc.devRef .tc main_arg3)))) := by
  rw [s2_v38_raw, h5, h3, h12, h25, h26]; rfl

/-! The clamps and the second layer. -/

theorem s3_v39 (z : FVec F S8x196 .f32) (W1 : FVec F S196x64 .f32) (b1 : FVec F S64 .f32)
    (h38 : G (Proc.devRef .tc main_v38) = addf (Host.dotGeneral dot_S8x196_S196x64_S8x64_1_0_0_1_n_n none z W1)
      (broadcastInDim S8x64 ![0, 1] bcast_S1x64_S8x64_0_1 (broadcastInDim S1x64 ![1] bcast_S64_S1x64_1 b1))) :
    StableHlo.after hostOps1_3 G (Proc.devRef .tc main_v39) = kHidden1 z W1 b1 := by
  simp only [hostOps1_3]; after_results_simp; rw [h38]; rfl
theorem s4_v43 : StableHlo.after hostOps1_4 G (Proc.devRef .tc main_v43)
    = addf (Host.dotGeneral dot_S8x64_S64x32_S8x32_1_0_0_1_n_n none (G (Proc.devRef .tc main_v39)) (G (Proc.devRef .tc main_arg4)))
        (broadcastInDim S8x32 ![0, 1] bcast_S1x32_S8x32_0_1 (broadcastInDim S1x32 ![1] bcast_S32_S1x32_1 (G (Proc.devRef .tc main_arg5)))) := by
  simp only [hostOps1_4]; after_results_simp
theorem s5_v44 (h : FVec F S8x64 .f32) (W2 : FVec F S64x32 .f32) (b2 : FVec F S32 .f32)
    (h43 : G (Proc.devRef .tc main_v43) = addf (Host.dotGeneral dot_S8x64_S64x32_S8x32_1_0_0_1_n_n none h W2)
      (broadcastInDim S8x32 ![0, 1] bcast_S1x32_S8x32_0_1 (broadcastInDim S1x32 ![1] bcast_S32_S1x32_1 b2))) :
    StableHlo.after hostOps1_5 G (Proc.devRef .tc main_v44) = kHidden2 h W2 b2 := by
  simp only [hostOps1_5]; after_results_simp; rw [h43]; rfl

/-! The third layer with the logistic function, and the score. -/

theorem s6_v55 : StableHlo.after hostOps1_6 G (Proc.devRef .tc main_v55)
    = kProb (G (Proc.devRef .tc main_v44)) (G (Proc.devRef .tc main_arg6)) (G (Proc.devRef .tc main_arg7)) := by
  simp only [hostOps1_6]; after_results_simp; rfl
theorem s6_v59 : StableHlo.after hostOps1_6 G (Proc.devRef .tc main_v59)
    = kScore (kProb (G (Proc.devRef .tc main_v44)) (G (Proc.devRef .tc main_arg6)) (G (Proc.devRef .tc main_arg7))) := by
  simp only [hostOps1_6]; after_results_simp; rfl

/-! The rounding, which writes its own result only. -/

theorem s7_v60 : StableHlo.after hostOps1_7 G (Proc.devRef .tc main_v60) = Host.roundeven (G (Proc.devRef .tc main_v59)) := by
  simp only [hostOps1_7]; after_results_simp; rfl
theorem hostOps1_7_keeps' : (hostOps1_7 : List (HloOp τ sig (Elt F))).Forall (Keeps [main_v59, main_v55]) := by
  simp only [List.Forall]
  exact keeps_of_writes _ _ _ rfl (by decide)

/-! The last stretch: the two means side by side, when it finds the probabilities, the scores and the rounded scores
    in place. -/

theorem s8_v69 (p : FVec F S8 .f32) (h55 : G (Proc.devRef .tc main_v55) = p) (h59 : G (Proc.devRef .tc main_v59) = kScore p)
    (h60 : G (Proc.devRef .tc main_v60) = Host.roundeven (kScore p)) :
    StableHlo.after hostOps1_8 G (Proc.devRef .tc main_v69) = kOut p := by
  simp only [hostOps1_8]; after_results; rw [h55, h59, h60]; rfl

end Stretches

/-! ### The region's exit contents at the buffers the stretches read -/

section Exit

variable (c : Dev nD) (V : Valuation τ sig (Elt F)) (A : (w : Fin 4) → Buf (Elt F) ((spec0 w).arr.view.loc (c.tc : Thread nD τ)))

theorem exit_v0_0 : Pipeline.withArrays spec0 c V A (Proc.devRef .tc main_v0_0) = A 1 :=
  Pipeline.withArrays_arr spec0 launch0.win.arr_inj c V A 1
theorem exit_v0_1 : Pipeline.withArrays spec0 c V A (Proc.devRef .tc main_v0_1) = A 2 :=
  Pipeline.withArrays_arr spec0 launch0.win.arr_inj c V A 2
theorem exit_v0_2 : Pipeline.withArrays spec0 c V A (Proc.devRef .tc main_v0_2) = A 3 :=
  Pipeline.withArrays_arr spec0 launch0.win.arr_inj c V A 3
/-- A buffer that is no window's array leaves the region as it entered it. -/
theorem exit_rest {r : Ref sig .tc} (hr : ∀ w, Pipeline.arrRef spec0 w ≠ r) :
    Pipeline.withArrays spec0 c V A (Proc.devRef .tc r) = V (Proc.devRef .tc r) :=
  Pipeline.withArrays_of_ne spec0 c V A r hr

end Exit

/-! ### The stretches composed

`G1 W … G9 W` are the contents after the first one … nine stretches from contents `W`; each buffer a later stretch
reads is followed from the stretch that writes it. -/

section Composed

variable (W : Valuation τ sig (Elt F))

def G1 : Valuation τ sig (Elt F) := StableHlo.after hostOps1 W
def G2 : Valuation τ sig (Elt F) := StableHlo.after hostOps1_1 (G1 W)
def G3 : Valuation τ sig (Elt F) := StableHlo.after hostOps1_2 (G2 W)
def G4 : Valuation τ sig (Elt F) := StableHlo.after hostOps1_3 (G3 W)
def G5 : Valuation τ sig (Elt F) := StableHlo.after hostOps1_4 (G4 W)
def G6 : Valuation τ sig (Elt F) := StableHlo.after hostOps1_5 (G5 W)
def G7 : Valuation τ sig (Elt F) := StableHlo.after hostOps1_6 (G6 W)
def G8 : Valuation τ sig (Elt F) := StableHlo.after hostOps1_7 (G7 W)
def G9 : Valuation τ sig (Elt F) := StableHlo.after hostOps1_8 (G8 W)

/-- The nine stretches, run from `W`, leave `G9 W`. -/
theorem after_flatten : StableHlo.after (opss (F := F)).flatten W = G9 W := by
  simp only [opss, List.flatten_cons, List.flatten_nil, List.append_nil, after_append]
  rfl

-- from here on the fold over a line is rewritten by the stretches' equations only, never computed
attribute [local irreducible] StableHlo.after

/-! The kept buffers pass through. -/

theorem G1_kept {r : Ref sig .tc} (hr : r ∈ kept) : G1 W (Proc.devRef .tc r) = W (Proc.devRef .tc r) :=
  after_keeps hostOps1_keeps W hr
theorem G2_kept {r : Ref sig .tc} (hr : r ∈ kept) : G2 W (Proc.devRef .tc r) = W (Proc.devRef .tc r) :=
  (after_keeps hostOps1_1_keeps (G1 W) hr).trans (G1_kept W hr)
theorem G3_kept {r : Ref sig .tc} (hr : r ∈ kept) : G3 W (Proc.devRef .tc r) = W (Proc.devRef .tc r) :=
  (after_keeps hostOps1_2_keeps (G2 W) hr).trans (G2_kept W hr)
theorem G4_kept {r : Ref sig .tc} (hr : r ∈ kept) : G4 W (Proc.devRef .tc r) = W (Proc.devRef .tc r) :=
  (after_keeps hostOps1_3_keeps (G3 W) hr).trans (G3_kept W hr)
theorem G5_kept {r : Ref sig .tc} (hr : r ∈ kept) : G5 W (Proc.devRef .tc r) = W (Proc.devRef .tc r) :=
  (after_keeps hostOps1_4_keeps (G4 W) hr).trans (G4_kept W hr)
theorem G6_kept {r : Ref sig .tc} (hr : r ∈ kept) : G6 W (Proc.devRef .tc r) = W (Proc.devRef .tc r) :=
  (after_keeps hostOps1_5_keeps (G5 W) hr).trans (G5_kept W hr)

/-! After the first stretch. -/

theorem G1_v5 : G1 W (Proc.devRef .tc main_v5) = kMean (W (Proc.devRef .tc main_v0_0)) := s0_v5 W
theorem G1_v3 : G1 W (Proc.devRef .tc main_v3) = kMax (W (Proc.devRef .tc main_v0_2)) := s0_v3 W
theorem G1_v12 : G1 W (Proc.devRef .tc main_v12) = kStd (W (Proc.devRef .tc main_v0_0)) (W (Proc.devRef .tc main_v0_1)) := s0_v12 W
theorem G1_v23 : G1 W (Proc.devRef .tc main_v23) = kDeg (W (Proc.devRef .tc main_arg1)) := s0_v23 W
theorem G1_v25 : G1 W (Proc.devRef .tc main_v25) = kDegMean (W (Proc.devRef .tc main_arg1)) := s0_v25 W
theorem G1_c7 : G1 W (Proc.devRef .tc main_c_7) = constantI S_ 32 1#32 := s0_c7 W

/-! After the second. -/

theorem G2_v26 : G2 W (Proc.devRef .tc main_v26) = kDegStd (W (Proc.devRef .tc main_arg1)) := s1_v26 (G1 W) _ (G1_v23 W) (G1_c7 W)
theorem G2_v5 : G2 W (Proc.devRef .tc main_v5) = kMean (W (Proc.devRef .tc main_v0_0)) :=
  (after_keeps hostOps1_1_keeps' (G1 W) (r := main_v5) (by decide)).trans (G1_v5 W)
theorem G2_v3 : G2 W (Proc.devRef .tc main_v3) = kMax (W (Proc.devRef .tc main_v0_2)) :=
  (after_keeps hostOps1_1_keeps' (G1 W) (r := main_v3) (by decide)).trans (G1_v3 W)
theorem G2_v12 : G2 W (Proc.devRef .tc main_v12) = kStd (W (Proc.devRef .tc main_v0_0)) (W (Proc.devRef .tc main_v0_1)) :=
  (after_keeps hostOps1_1_keeps' (G1 W) (r := main_v12) (by decide)).trans (G1_v12 W)
theorem G2_v25 : G2 W (Proc.devRef .tc main_v25) = kDegMean (W (Proc.devRef .tc main_arg1)) :=
  (after_keeps hostOps1_1_keeps' (G1 W) (r := main_v25) (by decide)).trans (G1_v25 W)

/-! The layers. -/

theorem G4_v39 : G4 W (Proc.devRef .tc main_v39) = kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3)) := by
  refine s3_v39 (G3 W) _ _ _ ((s2_v38 (G2 W) _ _ _ _ (G2_v5 W) (G2_v3 W) (G2_v12 W) (G2_v25 W) (G2_v26 W)).trans ?_)
  rw [G2_kept W (r := main_arg2) (by decide), G2_kept W (r := main_arg3) (by decide)]
theorem G6_v44 : G6 W (Proc.devRef .tc main_v44) = kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5)) := by
  refine s5_v44 (G5 W) _ _ _ ((s4_v43 (G4 W)).trans ?_)
  rw [G4_v39 W, G4_kept W (r := main_arg4) (by decide), G4_kept W (r := main_arg5) (by decide)]
theorem G7_v55 : G7 W (Proc.devRef .tc main_v55) = kProb (kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5))) (W (Proc.devRef .tc main_arg6)) (W (Proc.devRef .tc main_arg7)) := by
  refine (s6_v55 (G6 W)).trans ?_
  rw [G6_v44 W, G6_kept W (r := main_arg6) (by decide), G6_kept W (r := main_arg7) (by decide)]
theorem G7_v59 : G7 W (Proc.devRef .tc main_v59) = kScore (kProb (kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5))) (W (Proc.devRef .tc main_arg6)) (W (Proc.devRef .tc main_arg7))) :=
  (s6_v59 (G6 W)).trans (congrArg kScore ((s6_v55 (G6 W)).symm.trans (G7_v55 W)))

/-! The rounding and the two means. -/

theorem G8_v55 : G8 W (Proc.devRef .tc main_v55) = kProb (kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5))) (W (Proc.devRef .tc main_arg6)) (W (Proc.devRef .tc main_arg7)) :=
  (after_keeps hostOps1_7_keeps' (G7 W) (r := main_v55) (by decide)).trans (G7_v55 W)
theorem G8_v59 : G8 W (Proc.devRef .tc main_v59) = kScore (kProb (kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5))) (W (Proc.devRef .tc main_arg6)) (W (Proc.devRef .tc main_arg7))) :=
  (after_keeps hostOps1_7_keeps' (G7 W) (r := main_v59) (by decide)).trans (G7_v59 W)
theorem G8_v60 : G8 W (Proc.devRef .tc main_v60) = Host.roundeven (kScore (kProb (kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5))) (W (Proc.devRef .tc main_arg6)) (W (Proc.devRef .tc main_arg7)))) :=
  (s7_v60 (G7 W)).trans (congrArg Host.roundeven (G7_v59 W))
theorem G9_v69 : G9 W (Proc.devRef .tc main_v69)
    = common (kMean (W (Proc.devRef .tc main_v0_0))) (kMax (W (Proc.devRef .tc main_v0_2))) (kStd (W (Proc.devRef .tc main_v0_0)) (W (Proc.devRef .tc main_v0_1))) (W (Proc.devRef .tc main_arg1)) (W (Proc.devRef .tc main_arg2)) (W (Proc.devRef .tc main_arg3)) (W (Proc.devRef .tc main_arg4)) (W (Proc.devRef .tc main_arg5))
        (W (Proc.devRef .tc main_arg6)) (W (Proc.devRef .tc main_arg7)) :=
  s8_v69 (G8 W) _ (G8_v55 W) (G8_v59 W) (G8_v60 W)

end Composed

/-! ### The result -/

/-- The result buffer after the nine stretches: the common term at the pooled blocks the region's three output
    arrays give and at the launch contents of the other seven arguments. -/
theorem result_eq (dats : (p : Fin 1) → (c : Dev nD) → Dat τ (Elt F) Unit ℕ (UR sig nD τ) ℕ (cfgs p) c) (c : Dev nD) :
    Pipeline.afterTail₀ cfgs dats 0 (V0 m) (opss (F := F)) c main_v69
      = common (kMean ((dats 0 c).arrAt 1 cfg0.N)) (kMax ((dats 0 c).arrAt 3 cfg0.N))
          (kStd ((dats 0 c).arrAt 1 cfg0.N) ((dats 0 c).arrAt 2 cfg0.N))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  unfold Pipeline.afterTail₀
  rw [after_flatten, G9_v69, exit_v0_0, exit_v0_1, exit_v0_2,
    exit_rest (r := main_arg1) _ _ _ (by decide), exit_rest (r := main_arg2) _ _ _ (by decide),
    exit_rest (r := main_arg3) _ _ _ (by decide), exit_rest (r := main_arg4) _ _ _ (by decide),
    exit_rest (r := main_arg5) _ _ _ (by decide), exit_rest (r := main_arg6) _ _ _ (by decide),
    exit_rest (r := main_arg7) _ _ _ (by decide)]
  rfl

end Cert.Kernel.Hand

end
-- ==== Proof.KB.Run.lean ====
/-
  The run of the whole program and its frame: the pooled-statistics region launched with the tracking invariant,
  continued by the nine stretches of host operations, none of which writes an array the region stages or an argument.
-/
import proofs.«138509_j5093831213700_1_alg».proof.Proof.KB.Frame
import proofs.«138509_j5093831213700_1_alg».proof.Proof.KB.Tail

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the main function terminates, and the final
    state has every array of the region at what the proof data compute and every other unscoped buffer as the host
    operations after the region leave it. -/
theorem run_main : θ_run defs (onTc (τ := τ) (main (F := F))) (s₀ m ρ) (Pipeline.FramePost cfgs (dats m) 0 (Pipeline.afterTail₀ cfgs (dats m) 0 (V0 m) (opss (F := F)))) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hin := hin m) (hout := hout m)

/-- The frame: the program runs to the end, faults nowhere and leaves its eight argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KI.Base.lean ====
/-
  The program's main function is one pooled-statistics region followed by nine stretches of host operations and
  nothing before it: the buffers' contents when the region is entered are the launch memory's.
-/
import proofs.«138509_j5093831213700_1_alg».proof.Proof.Gen.KernelIdeal.Launch
import proofs.«138509_j5093831213700_1_alg».proof.Proof.Gen.KernelIdeal.Skeleton
import proofs.«138509_j5093831213700_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the region, stretch by stretch, in program order. -/
abbrev opss : List (List (HloOp τ sig (Elt F))) :=
  [hostOps1, hostOps1_1, hostOps1_2, hostOps1_3, hostOps1_4, hostOps1_5, hostOps1_6, hostOps1_7, hostOps1_8]

/-- The core's buffer contents when the region is entered: no host operation runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

end Cert.KernelIdeal.Hand

end
-- ==== Proof.KI.Shared.lean ====
/-
  What the three runs of the pooling body share. The grid is 8 batch elements by 5 row tiles, walked row-major, so a
  point's tile number is its position modulo 5: the body resets its three running rows (column sum, column sum of
  squares, column maximum) at tile 0 and copies them into the three output blocks at tile 4; at every other point an
  output window is idle and is not written back.
-/
import proofs.«138509_j5093831213700_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    entry contents and whose body leaves the block in place: the window is fetched at every point and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the batch element's first tile": the first conditional's scalar chain. -/
abbrev cond0_0 (i : grid0.Coords) : Prop := (Scalar.cmpi .ne (Scalar.extui (Scalar.cmpi .eq (BitVec.ofNat 32 (i 1).val) 0#32)) 0#32) = 1#1
/-- It holds at the points whose position is 0 modulo 5. -/
theorem hcond0_0 : ∀ t : Fin cfg0.N, cond0_0 (grid0.coords t) ↔ t.val % 5 = 0 :=
  (by decide +kernel : ∀ t : Fin grid0.N, cond0_0 (grid0.coords t) ↔ t.val % 5 = 0)

/-- "This is the batch element's last tile": the second conditional's condition. -/
abbrev cond0_1 (i : grid0.Coords) : Prop := k0_cond2 i = 1#1
/-- It holds at the points whose position is 4 modulo 5. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_1 : ∀ t : Fin cfg0.N, ¬cond0_1 (grid0.coords t) → (cfg0.win 1).flush t = false := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- One staging buffer of each output window, through which its contents are stated. -/
abbrev VO0_1 : View sig .tc .vmem S1x1x64 .f32 := (Memref.whole cc0_stg1_0 : Memref sig .tc .vmem S1x1x64 .f32).view
abbrev VO0_2 : View sig .tc .vmem S1x1x64 .f32 := (Memref.whole cc0_stg2_0 : Memref sig .tc .vmem S1x1x64 .f32).view
abbrev VO0_3 : View sig .tc .vmem S1x1x64 .f32 := (Memref.whole cc0_stg3_0 : Memref sig .tc .vmem S1x1x64 .f32).view
/-- Each window's current staging memref at a point, as the pipeline passes it, and its wholeness. -/
abbrev ms0_0 (t : Fin cfg0.N) : Memref sig .tc .vmem S1x20000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
/-- The three running rows: whole scoped buffers of the kernel's own. -/
abbrev scM0_0 : Memref sig .tc .vmem S1x64 .f32 := Memref.whole cc0_scratch0
abbrev scM0_1 : Memref sig .tc .vmem S1x64 .f32 := Memref.whole cc0_scratch1
abbrev scM0_2 : Memref sig .tc .vmem S1x64 .f32 := Memref.whole cc0_scratch2
abbrev VS0_0 : View sig .tc .vmem S1x64 .f32 := scM0_0.view
abbrev VS0_1 : View sig .tc .vmem S1x64 .f32 := scM0_1.view
abbrev VS0_2 : View sig .tc .vmem S1x64 .f32 := scM0_2.view

/-- The class invariant with the three running rows as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KI.RunA.lean ====
/-
  The pooling body at a batch element's FIRST tile: the three running rows are reset (zero, zero, minus infinity) and
  then take the tile's column sums, column sums of squares and column maxima; the three output blocks are not touched.
-/
import proofs.«138509_j5093831213700_1_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a first tile: what the body's stores leave in each running row, as pieces (last first), with the proof that
    the body runs from the input block at x0, the outputs' buffers at any contents (handed back as they were) and the
    running rows at anything, to the continuation holding the running rows with those pieces written. -/
noncomputable def kernelRun0_A (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) :
    Σ' (LS0 : List (View.Piece (Elt F) S1x64 .f32)) (LS1 : List (View.Piece (Elt F) S1x64 .f32)), { LS2 : List (View.Piece (Elt F) S1x64 .f32) //
      ∀ (xi1 xi2 xi3 : Vec F S1x1x64 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8) K } := by
  refine ⟨?_, ?_, ?_, fun xi1 xi2 xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.RunB.lean ====
/-
  The pooling body at a tile that is neither a batch element's first nor its last: each running row takes the tile's
  contribution over what the point before left in it; the three output blocks are not touched.
-/
import proofs.«138509_j5093831213700_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a middle tile: the pieces each running row ends with, with the proof that the body runs from the input block at
    x0, the outputs' buffers at any contents (handed back as they were) and the running rows at xs0, xs1, xs2. -/
noncomputable def kernelRun0_B (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) :
    Σ' (LS0 : List (View.Piece (Elt F) S1x64 .f32)) (LS1 : List (View.Piece (Elt F) S1x64 .f32)), { LS2 : List (View.Piece (Elt F) S1x64 .f32) //
      ∀ (xi1 xi2 xi3 : Vec F S1x1x64 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8) K } := by
  refine ⟨?_, ?_, ?_, fun xi1 xi2 xi3 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.RunC.lean ====
/-
  The pooling body at a batch element's LAST tile: each running row takes the tile's contribution over what the point
  before left in it, and is then copied, re-laid from one row of 64 to a 1 by 1 by 64 block, into its output block.
-/
import proofs.«138509_j5093831213700_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a last tile: the pieces each output block and each running row ends with, with the proof that the body runs from
    the input block at x0, the outputs' buffers at anything and the running rows at xs0, xs1, xs2. -/
noncomputable def kernelRun0_C (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) :
    Σ' (L1 : List (View.Piece (Elt F) S1x1x64 .f32)) (L2 : List (View.Piece (Elt F) S1x1x64 .f32)) (L3 : List (View.Piece (Elt F) S1x1x64 .f32)) (LS0 : List (View.Piece (Elt F) S1x64 .f32)) (LS1 : List (View.Piece (Elt F) S1x64 .f32)), { LS2 : List (View.Piece (Elt F) S1x64 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8) K } := by
  refine ⟨?_, ?_, ?_, ?_, ?_, ?_, fun E K => ?run⟩
  case run =>
    simp only [cc0__pool_kernel_eq_skeleton]; unfold cc0__pool_kernel_skel
    unfold owns
    iintro ⟨⟨%f0, %hf0, H0⟩, ⟨%d1, %f1, -, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [HS0]; · iexists _; iexact HS0
    isplitl [HS1]; · iexists _; iexact HS1
    iexists _; iexact HS2

end Cert.KernelIdeal.Hand

end
-- ==== Proof.KI.Frame.lean ====
/-
  The frame of the pooled-statistics region: what the three running rows and the three output blocks hold after each
  grid point, the region's invariant (the running rows at those contents), the proof data, and the body obligation.
  A point's position modulo 5 is its tile number: at tile 0 the rows restart from the tile alone, at tiles 1 to 3 they
  continue from the point before, and at tile 4 they continue and are copied out.
-/
import proofs.«138509_j5093831213700_1_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first tile the pieces for running row 0 cover it. -/
theorem scoverA_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) (y : S1x64.Idx) :
    ∃ pc ∈ (kernelRun0_A c i arg2 harg2 arg3 harg3 arg4 harg4 arg5 harg5 arg6 harg6 arg7 harg7 arg8 harg8 hc0 hc1 x0).1, y ∈ pc.1.set :=
  View.cover_of_tiledL (kernelRun0_A c i arg2 harg2 arg3 harg3 arg4 harg4 arg5 harg5 arg6 harg6 arg7 harg7 arg8 harg8 hc0 hc1 x0).1 S1x64.size (by sl_kernel_rfl) y

/-- What a first tile leaves in running row 0: its pieces read back. -/
def soutA_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) : Vec F S1x64 .f32 :=
  VS0_0.read (Elt F) (VS0_0.writes (Elt F) VS0_0.junk (kernelRun0_A c i arg2 harg2 arg3 harg3 arg4 harg4 arg5 harg5 arg6 harg6 arg7 harg7 arg8 harg8 hc0 hc1 x0).1)

/-- At a first tile the pieces for running row 1 cover it. -/
theorem scoverA_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) (y : S1x64.Idx) :
    ∃ pc ∈ (kernelRun0_A c i arg2 harg2 arg3 harg3 arg4 harg4 arg5 harg5 arg6 harg6 arg7 harg7 arg8 harg8 hc0 hc1 x0).2.1, y ∈ pc.1.set :=
  View.cover_of_tiledL (kernelRun0_A c i arg2 harg2 arg3 harg3 arg4 harg4 arg5 harg5 arg6 harg6 arg7 harg7 arg8 harg8 hc0 hc1 x0).2.1 S1x64.size (by sl_kernel_rfl) y

/-- What a first tile leaves in running row 1: its pieces read back. -/
def soutA_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) : Vec F S1x64 .f32 :=
  VS0_1.read (Elt F) (VS0_1.writes (Elt F) VS0_1.junk (kernelRun0_A c i arg2 harg2 arg3 harg3 arg4 harg4 arg5 harg5 arg6 harg6 arg7 harg7 arg8 harg8 hc0 hc1 x0).2.1)

/-- At a first tile the pieces for running row 2 cover it. -/
theorem scoverA_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) (y : S1x64.Idx) :
    ∃ pc ∈ (kernelRun0_A c i arg2 harg2 arg3 harg3 arg4 harg4 arg5 harg5 arg6 harg6 arg7 harg7 arg8 harg8 hc0 hc1 x0).2.2.1, y ∈ pc.1.set :=
  View.cover_of_tiledL (kernelRun0_A c i arg2 harg2 arg3 harg3 arg4 harg4 arg5 harg5 arg6 harg6 arg7 harg7 arg8 harg8 hc0 hc1 x0).2.2.1 S1x64.size (by sl_kernel_rfl) y

/-- What a first tile leaves in running row 2: its pieces read back. -/
def soutA_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) : Vec F S1x64 .f32 :=
  VS0_2.read (Elt F) (VS0_2.writes (Elt F) VS0_2.junk (kernelRun0_A c i arg2 harg2 arg3 harg3 arg4 harg4 arg5 harg5 arg6 harg6 arg7 harg7 arg8 harg8 hc0 hc1 x0).2.2.1)

/-- At a middle tile the pieces for running row 0 cover it. -/
theorem scoverB_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 hc0 hc1 x0 xs0 xs1 xs2).1, y ∈ pc.1.set :=
  View.cover_of_tiledL (kernelRun0_B c i arg2 harg2 arg3 harg3 arg4 harg4 arg5 harg5 arg6 harg6 arg7 harg7 arg8 harg8 hc0 hc1 x0 xs0 xs1 xs2).1 S1x64.size (by sl_kernel_rfl) y

/-- What a middle tile leaves in running row 0: its pieces read back. -/
def soutB_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) : Vec F S1x64 .f32 :=
  VS0_0.read (Elt F) (VS0_0.writes (Elt F) VS0_0.junk (kernelRun0_B c i arg2 harg2 arg3 harg3 arg4 harg4 arg5 harg5 arg6 harg6 arg7 harg7 arg8 harg8 hc0 hc1 x0 xs0 xs1 xs2).1)

/-- At a middle tile the pieces for running row 1 cover it. -/
theorem scoverB_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 hc0 hc1 x0 xs0 xs1 xs2).2.1, y ∈ pc.1.set :=
  View.cover_of_tiledL (kernelRun0_B c i arg2 harg2 arg3 harg3 arg4 harg4 arg5 harg5 arg6 harg6 arg7 harg7 arg8 harg8 hc0 hc1 x0 xs0 xs1 xs2).2.1 S1x64.size (by sl_kernel_rfl) y

/-- What a middle tile leaves in running row 1: its pieces read back. -/
def soutB_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) : Vec F S1x64 .f32 :=
  VS0_1.read (Elt F) (VS0_1.writes (Elt F) VS0_1.junk (kernelRun0_B c i arg2 harg2 arg3 harg3 arg4 harg4 arg5 harg5 arg6 harg6 arg7 harg7 arg8 harg8 hc0 hc1 x0 xs0 xs1 xs2).2.1)

/-- At a middle tile the pieces for running row 2 cover it. -/
theorem scoverB_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 hc0 hc1 x0 xs0 xs1 xs2).2.2.1, y ∈ pc.1.set :=
  View.cover_of_tiledL (kernelRun0_B c i arg2 harg2 arg3 harg3 arg4 harg4 arg5 harg5 arg6 harg6 arg7 harg7 arg8 harg8 hc0 hc1 x0 xs0 xs1 xs2).2.2.1 S1x64.size (by sl_kernel_rfl) y

/-- What a middle tile leaves in running row 2: its pieces read back. -/
def soutB_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) : Vec F S1x64 .f32 :=
  VS0_2.read (Elt F) (VS0_2.writes (Elt F) VS0_2.junk (kernelRun0_B c i arg2 harg2 arg3 harg3 arg4 harg4 arg5 harg5 arg6 harg6 arg7 harg7 arg8 harg8 hc0 hc1 x0 xs0 xs1 xs2).2.2.1)

/-- At a last tile the pieces for running row 0 cover it. -/
theorem scoverC_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 hc0 hc1 x0 xs0 xs1 xs2).2.2.2.1, y ∈ pc.1.set :=
  View.cover_of_tiledL (kernelRun0_C c i arg2 harg2 arg3 harg3 arg4 harg4 arg5 harg5 arg6 harg6 arg7 harg7 arg8 harg8 hc0 hc1 x0 xs0 xs1 xs2).2.2.2.1 S1x64.size (by sl_kernel_rfl) y

/-- What a last tile leaves in running row 0: its pieces read back. -/
def soutC_0 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x64 .f32 :=
  VS0_0.read (Elt F) (VS0_0.writes (Elt F) VS0_0.junk (kernelRun0_C c i arg2 harg2 arg3 harg3 arg4 harg4 arg5 harg5 arg6 harg6 arg7 harg7 arg8 harg8 hc0 hc1 x0 xs0 xs1 xs2).2.2.2.1)

/-- At a last tile the pieces for running row 1 cover it. -/
theorem scoverC_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 hc0 hc1 x0 xs0 xs1 xs2).2.2.2.2.1, y ∈ pc.1.set :=
  View.cover_of_tiledL (kernelRun0_C c i arg2 harg2 arg3 harg3 arg4 harg4 arg5 harg5 arg6 harg6 arg7 harg7 arg8 harg8 hc0 hc1 x0 xs0 xs1 xs2).2.2.2.2.1 S1x64.size (by sl_kernel_rfl) y

/-- What a last tile leaves in running row 1: its pieces read back. -/
def soutC_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x64 .f32 :=
  VS0_1.read (Elt F) (VS0_1.writes (Elt F) VS0_1.junk (kernelRun0_C c i arg2 harg2 arg3 harg3 arg4 harg4 arg5 harg5 arg6 harg6 arg7 harg7 arg8 harg8 hc0 hc1 x0 xs0 xs1 xs2).2.2.2.2.1)

/-- At a last tile the pieces for running row 2 cover it. -/
theorem scoverC_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 hc0 hc1 x0 xs0 xs1 xs2).2.2.2.2.2.1, y ∈ pc.1.set :=
  View.cover_of_tiledL (kernelRun0_C c i arg2 harg2 arg3 harg3 arg4 harg4 arg5 harg5 arg6 harg6 arg7 harg7 arg8 harg8 hc0 hc1 x0 xs0 xs1 xs2).2.2.2.2.2.1 S1x64.size (by sl_kernel_rfl) y

/-- What a last tile leaves in running row 2: its pieces read back. -/
def soutC_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x64 .f32 :=
  VS0_2.read (Elt F) (VS0_2.writes (Elt F) VS0_2.junk (kernelRun0_C c i arg2 harg2 arg3 harg3 arg4 harg4 arg5 harg5 arg6 harg6 arg7 harg7 arg8 harg8 hc0 hc1 x0 xs0 xs1 xs2).2.2.2.2.2.1)

/-- At a last tile the pieces for output block 1 cover it. -/
theorem coverC_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x1x64.Idx) :
    ∃ pc ∈ (kernelRun0_C c i arg2 harg2 arg3 harg3 arg4 harg4 arg5 harg5 arg6 harg6 arg7 harg7 arg8 harg8 hc0 hc1 x0 xs0 xs1 xs2).1, y ∈ pc.1.set :=
  View.cover_of_tiledL (kernelRun0_C c i arg2 harg2 arg3 harg3 arg4 harg4 arg5 harg5 arg6 harg6 arg7 harg7 arg8 harg8 hc0 hc1 x0 xs0 xs1 xs2).1 S1x1x64.size (by sl_kernel_rfl) y

/-- What a last tile leaves in output block 1: its pieces read back. -/
def outC_1 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x1x64 .f32 :=
  VO0_1.read (Elt F) (VO0_1.writes (Elt F) VO0_1.junk (kernelRun0_C c i arg2 harg2 arg3 harg3 arg4 harg4 arg5 harg5 arg6 harg6 arg7 harg7 arg8 harg8 hc0 hc1 x0 xs0 xs1 xs2).1)

/-- At a last tile the pieces for output block 2 cover it. -/
theorem coverC_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x1x64.Idx) :
    ∃ pc ∈ (kernelRun0_C c i arg2 harg2 arg3 harg3 arg4 harg4 arg5 harg5 arg6 harg6 arg7 harg7 arg8 harg8 hc0 hc1 x0 xs0 xs1 xs2).2.1, y ∈ pc.1.set :=
  View.cover_of_tiledL (kernelRun0_C c i arg2 harg2 arg3 harg3 arg4 harg4 arg5 harg5 arg6 harg6 arg7 harg7 arg8 harg8 hc0 hc1 x0 xs0 xs1 xs2).2.1 S1x1x64.size (by sl_kernel_rfl) y

/-- What a last tile leaves in output block 2: its pieces read back. -/
def outC_2 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x1x64 .f32 :=
  VO0_2.read (Elt F) (VO0_2.writes (Elt F) VO0_2.junk (kernelRun0_C c i arg2 harg2 arg3 harg3 arg4 harg4 arg5 harg5 arg6 harg6 arg7 harg7 arg8 harg8 hc0 hc1 x0 xs0 xs1 xs2).2.1)

/-- At a last tile the pieces for output block 3 cover it. -/
theorem coverC_3 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) (y : S1x1x64.Idx) :
    ∃ pc ∈ (kernelRun0_C c i arg2 harg2 arg3 harg3 arg4 harg4 arg5 harg5 arg6 harg6 arg7 harg7 arg8 harg8 hc0 hc1 x0 xs0 xs1 xs2).2.2.1, y ∈ pc.1.set :=
  View.cover_of_tiledL (kernelRun0_C c i arg2 harg2 arg3 harg3 arg4 harg4 arg5 harg5 arg6 harg6 arg7 harg7 arg8 harg8 hc0 hc1 x0 xs0 xs1 xs2).2.2.1 S1x1x64.size (by sl_kernel_rfl) y

/-- What a last tile leaves in output block 3: its pieces read back. -/
def outC_3 (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) : Vec F S1x1x64 .f32 :=
  VO0_3.read (Elt F) (VO0_3.writes (Elt F) VO0_3.junk (kernelRun0_C c i arg2 harg2 arg3 harg3 arg4 harg4 arg5 harg5 arg6 harg6 arg7 harg7 arg8 harg8 hc0 hc1 x0 xs0 xs1 xs2).2.2.1)

/-! ## Point by point -/

/-- The three running rows after a first tile. -/
def scA (c : Dev nD) (t : Fin cfg0.N) (h0 : t.val % 5 = 0) (h1 : ¬t.val % 5 = 4) : Vec F S1x64 .f32 × Vec F S1x64 .f32 × Vec F S1x64 .f32 :=
  (soutA_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t), soutA_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t), soutA_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t))

/-- The three running rows after a middle tile, over what the point before left. -/
def scB (c : Dev nD) (t : Fin cfg0.N) (h0 : ¬t.val % 5 = 0) (h1 : ¬t.val % 5 = 4) (xs : Vec F S1x64 .f32 × Vec F S1x64 .f32 × Vec F S1x64 .f32) : Vec F S1x64 .f32 × Vec F S1x64 .f32 × Vec F S1x64 .f32 :=
  (soutB_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2, soutB_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2, soutB_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2)

/-- The three running rows after a last tile, over what the point before left. -/
def scC (c : Dev nD) (t : Fin cfg0.N) (h0 : ¬t.val % 5 = 0) (h1 : t.val % 5 = 4) (xs : Vec F S1x64 .f32 × Vec F S1x64 .f32 × Vec F S1x64 .f32) : Vec F S1x64 .f32 × Vec F S1x64 .f32 × Vec F S1x64 .f32 :=
  (soutC_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2, soutC_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2, soutC_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2)

/-- The three output blocks after a last tile. -/
def outC (c : Dev nD) (t : Fin cfg0.N) (h0 : ¬t.val % 5 = 0) (h1 : t.val % 5 = 4) (xs : Vec F S1x64 .f32 × Vec F S1x64 .f32 × Vec F S1x64 .f32) : Vec F S1x1x64 .f32 × Vec F S1x1x64 .f32 × Vec F S1x1x64 .f32 :=
  (outC_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2, outC_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2, outC_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2)

/-- THE ACCUMULATION: the three running rows after the body at position n. -/
def scAt0 (c : Dev nD) : (n : ℕ) → n < cfg0.N → Vec F S1x64 .f32 × Vec F S1x64 .f32 × Vec F S1x64 .f32
  | 0, hn => scA m c ⟨0, hn⟩ (Nat.zero_mod _) (by show ¬(0 % 5 = 4); decide)
  | n + 1, hn =>
    if h0 : (n + 1) % 5 = 0 then scA m c ⟨n + 1, hn⟩ h0 (by show ¬((n + 1) % 5 = 4); omega)
    else if h1 : (n + 1) % 5 = 4 then scC m c ⟨n + 1, hn⟩ h0 h1 (scAt0 c n (Nat.lt_of_succ_lt hn))
    else scB m c ⟨n + 1, hn⟩ h0 h1 (scAt0 c n (Nat.lt_of_succ_lt hn))

/-- What the point before left in the running rows. -/
abbrev scPrev (c : Dev nD) (t : Fin cfg0.N) : Vec F S1x64 .f32 × Vec F S1x64 .f32 × Vec F S1x64 .f32 :=
  scAt0 m c (t.val - 1) (Nat.lt_of_le_of_lt (Nat.sub_le _ _) t.isLt)

theorem scAt0_A (c : Dev nD) (t : Fin cfg0.N) (h0 : t.val % 5 = 0) (h1 : ¬t.val % 5 = 4) :
    scAt0 m c t.val t.isLt = scA m c t h0 h1 := by
  obtain ⟨n, hn⟩ := t
  cases n with
  | zero => exact rfl
  | succ n => exact (dif_pos h0).trans rfl

theorem scAt0_B (c : Dev nD) (t : Fin cfg0.N) (h0 : ¬t.val % 5 = 0) (h1 : ¬t.val % 5 = 4) :
    scAt0 m c t.val t.isLt = scB m c t h0 h1 (scPrev m c t) := by
  obtain ⟨n, hn⟩ := t
  cases n with
  | zero => exact absurd (Nat.zero_mod _) h0
  | succ n => exact (dif_neg h0).trans ((dif_neg h1).trans rfl)

theorem scAt0_C (c : Dev nD) (t : Fin cfg0.N) (h0 : ¬t.val % 5 = 0) (h1 : t.val % 5 = 4) :
    scAt0 m c t.val t.isLt = scC m c t h0 h1 (scPrev m c t) := by
  obtain ⟨n, hn⟩ := t
  cases n with
  | zero => exact absurd (Nat.zero_mod _) h0
  | succ n => exact (dif_neg h0).trans ((dif_pos h1).trans rfl)

/-- The three output blocks' staging buffers after the body at point t: written at a last tile; elsewhere the window
    is idle and not written back, and nothing consults the value. -/
def outAt0 (c : Dev nD) (t : Fin cfg0.N) : Vec F S1x1x64 .f32 × Vec F S1x1x64 .f32 × Vec F S1x1x64 .f32 :=
  if h1 : t.val % 5 = 4 then outC m c t (fun h => by omega) h1 (scPrev m c t)
  else (VO0_1.read (Elt F) VO0_1.junk, VO0_2.read (Elt F) VO0_2.junk, VO0_3.read (Elt F) VO0_3.junk)

theorem outAt0_C (c : Dev nD) (t : Fin cfg0.N) (h0 : ¬t.val % 5 = 0) (h1 : t.val % 5 = 4) :
    outAt0 m c t = outC m c t h0 h1 (scPrev m c t) := dif_pos h1

/-! ## The invariant -/

/-- Before position n: at the start the class invariant (the rows at anything); afterwards the three running rows at
    what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt0 m c (n - 1) (by omega)).1) ∗ owns (c : Thread nD τ) scM0_1 fullShare ((scAt0 m c (n - 1) (by omega)).2.1) ∗ owns (c : Thread nD τ) scM0_2 fullShare ((scAt0 m c (n - 1) (by omega)).2.2)) ∗ (∃ r, prngReg c r)) := by
  cases n with
  | zero => exact absurd rfl hz
  | succ n => rfl

/-! ## The proof data -/

/-- The proof data of the region on core c: the arrays as the region finds them; after the body at point t the input's
    buffer at its block and the outputs' at outAt0; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outAt0 m c t).1
    | ⟨2, _⟩ => (outAt0 m c t).2.1
    | ⟨3, _⟩ => (outAt0 m c t).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outAt0 m c t).1 := by dsimp only [dats]
theorem after0_2 (c : Dev nD) (t : Fin cfg0.N) : (dats m 0 c).after 2 t = (outAt0 m c t).2.1 := by dsimp only [dats]
theorem after0_3 (c : Dev nD) (t : Fin cfg0.N) : (dats m 0 c).after 3 t = (outAt0 m c t).2.2 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the input's memref holds its block; the position modulo 5 says which case the point is in;
    the invariant hands the body the running rows at what the point before left (at anything at the very first point)
    and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  have hN : t.val < 40 := lt_of_lt_of_eq t.isLt (show cfg0.N = 40 from N_0)
  by_cases h1 : t.val % 5 = 4
  · have h0 : ¬t.val % 5 = 0 := by omega
    have hz : t.val ≠ 0 := by omega
    rw [show (dats m 0 c).leavesExact 1 t = owns (c : Thread nD τ) (ms0_1 t) fullShare ((dats m 0 c).after 1 t) from by
      unfold Dat.leavesExact; rw [liveAt0_1 t ((hcond0_1 t).mpr h1)], after0_1]
    rw [show (dats m 0 c).leavesExact 2 t = owns (c : Thread nD τ) (ms0_2 t) fullShare ((dats m 0 c).after 2 t) from by
      unfold Dat.leavesExact; rw [liveAt0_2 t ((hcond0_1 t).mpr h1)], after0_2]
    rw [show (dats m 0 c).leavesExact 3 t = owns (c : Thread nD τ) (ms0_3 t) fullShare ((dats m 0 c).after 3 t) from by
      unfold Dat.leavesExact; rw [liveAt0_3 t ((hcond0_1 t).mpr h1)], after0_3]
    rw [scAt0_C m c t h0 h1, outAt0_C m c t h0 h1]
    unfold scC outC soutC_0 soutC_1 soutC_2 outC_1 outC_2 outC_3; (try dsimp only)
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRun0_C c (grid0.coords t) _ _ _ _ _ _ _ _ _ _ _ _ _ _ (fun h => h0 ((hcond0_0 t).mp h)) ((hcond0_1 t).mpr h1) (iblk m c 0 t) _ _ _).2.2.2.2.2.2 Set.univ _)
    isplitl [H0]; · iexact H0
    isplitl [H1]; · iexists _; iexact H1
    isplitl [H2]; · iexists _; iexact H2
    isplitl [H3]; · iexists _; iexact H3
    isplitl [HS0]; · iexact HS0
    isplitl [HS1]; · iexact HS1
    isplitl [HS2]; · iexact HS2
    iintro ⟨H0, ⟨%e1, H1⟩, ⟨%e2, H2⟩, ⟨%e3, H3⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scoverC_0 c _ _ _ _ _ _ _ _ _ _ _ _ _ _ _ _ _ _ _ _ _)
        isplitl [HS1]
        · unfold owns; iexists _; isplitr
          swap; · iexact HS1
          ipureintro; exact View.read_writes_of_cover _ _ _ _ _ (scoverC_1 c _ _ _ _ _ _ _ _ _ _ _ _ _ _ _ _ _ _ _ _ _)
        unfold owns; iexists _; isplitr
        swap; · iexact HS2
        ipureintro; exact View.read_writes_of_cover _ _ _ _ _ (scoverC_2 c _ _ _ _ _ _ _ _ _ _ _ _ _ _ _ _ _ _ _ _ _)
      iexact Hg
    isplitl [Ho]; · iexact Ho
    isplitl [H0]; · iexact H0
    isplitl [H1]
    · unfold owns; iexists _; isplitr
      swap; · iexact H1
      ipureintro; exact View.read_writes_of_cover _ _ _ _ _ (coverC_1 c _ _ _ _ _ _ _ _ _ _ _ _ _ _ _ _ _ _ _ _ _)
    isplitl [H2]
    · unfold owns; iexists _; isplitr
      swap; · iexact H2
      ipureintro; exact View.read_writes_of_cover _ _ _ _ _ (coverC_2 c _ _ _ _ _ _ _ _ _ _ _ _ _ _ _ _ _ _ _ _ _)
    unfold owns; iexists _; isplitr
    swap; · iexact H3
    ipureintro; exact View.read_writes_of_cover _ _ _ _ _ (coverC_3 c _ _ _ _ _ _ _ _ _ _ _ _ _ _ _ _ _ _ _ _ _)
  · by_cases h0 : t.val % 5 = 0
    · rw [Dat.leavesExact_idle (dats m 0 c) 1 t (idleAt0_1 t (fun h => h1 ((hcond0_1 t).mp h))) (noFlush0_1 t (fun h => h1 ((hcond0_1 t).mp h)))]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [scAt0_A m c t h0 h1]
      unfold scA soutA_0 soutA_1 soutA_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t)).2.2.2 _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 c _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _)
            unfold owns; iexists _; isplitr
            swap; · iexact HS2
            ipureintro; exact View.read_writes_of_cover _ _ _ _ _ (scoverA_2 c _ _ _ _ _ _ _ _ _ _ _ _ _ _ _ _ _ _)
          iexact Hg
        isplitl [Ho]; · iexact Ho
        isplitl [H0]; · iexact H0
        isplitl [H1]; · iexists _; iexact H1
        isplitl [H2]; · iexists _; iexact H2
        iexists _; iexact H3
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t)).2.2.2 _ _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 c _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _)
            unfold owns; iexists _; isplitr
            swap; · iexact HS2
            ipureintro; exact View.read_writes_of_cover _ _ _ _ _ (scoverA_2 c _ _ _ _ _ _ _ _ _ _ _ _ _ _ _ _ _ _)
          iexact Hg
        isplitl [Ho]; · iexact Ho
        isplitl [H0]; · iexact H0
        isplitl [H1]; · iexists _; iexact H1
        isplitl [H2]; · iexists _; iexact H2
        iexists _; iexact H3
    · have hz : t.val ≠ 0 := fun h => h0 (by rw [h])
      rw [Dat.leavesExact_idle (dats m 0 c) 1 t (idleAt0_1 t (fun h => h1 ((hcond0_1 t).mp h))) (noFlush0_1 t (fun h => h1 ((hcond0_1 t).mp h)))]
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [scAt0_B m c t h0 h1]
      unfold scB soutB_0 soutB_1 soutB_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk m c 0 t) _ _ _).2.2.2 _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 c _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _)
          unfold owns; iexists _; isplitr
          swap; · iexact HS2
          ipureintro; exact View.read_writes_of_cover _ _ _ _ _ (scoverB_2 c _ _ _ _ _ _ _ _ _ _ _ _ _ _ _ _ _ _ _ _ _)
        iexact Hg
      isplitl [Ho]; · iexact Ho
      isplitl [H0]; · iexact H0
      isplitl [H1]; · iexists _; iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the rows' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 40 := N_0; omega)

end Cert.KernelIdeal.Hand

end
-- ==== Proof.KI.Stats.lean ====
/-
  The three pooled statistics as the program's host operations form them from the region's three output arrays
  (column sums S, column sums of squares Q, column maxima M, each 8 by 1 by 64): the mean S / 100000, the maximum M, and
  the unbiased standard deviation sqrt ((Q - S * S / 100000) / 99999).
-/
import proofs.«138509_j5093831213700_1_alg».proof.KernelIdeal
import proofs.«138509_j5093831213700_1_alg».proof.Proof.Gen.KernelIdeal

noncomputable section

namespace Cert.KernelIdeal.Hand

open Idealize.ShloMosaic Cert.KernelIdeal
open Cert.KernelIdeal.Facts₀ Cert.KernelIdeal.Facts

variable {F : FTy → Type} [FloatOps F]

/-- The column means: the sums divided by the row count. -/
def kMean (S : FVec F S8x1x64 .f32) : FVec F S8x64 .f32 :=
  Host.divf (shapeCast S8x64 S shapeCasts_S8x1x64_S8x64) (broadcastInDim S8x64 ![] bcast_S_S8x64 (constant S_ .f32 0x47C35000#32))

/-- The column maxima, re-laid. -/
def kMax (M : FVec F S8x1x64 .f32) : FVec F S8x64 .f32 :=
  shapeCast S8x64 M shapeCasts_S8x1x64_S8x64

/-- The column standard deviations from the sums and the sums of squares. -/
def kStd (S Q : FVec F S8x1x64 .f32) : FVec F S8x64 .f32 :=
  Host.sqrt (Host.divf
    (subf (shapeCast S8x64 Q shapeCasts_S8x1x64_S8x64)
      (Host.divf (mulf (shapeCast S8x64 S shapeCasts_S8x1x64_S8x64) (shapeCast S8x64 S shapeCasts_S8x1x64_S8x64))
        (broadcastInDim S8x64 ![] bcast_S_S8x64 (constant S_ .f32 0x47C35000#32))))
    (broadcastInDim S8x64 ![] bcast_S_S8x64 (constant S_ .f32 0x47C34F80#32)))

end Cert.KernelIdeal.Hand

end
-- ==== Proof.KI.Tail.lean ====
/-
  The main function around its one region: the nine stretches of host operations after the region allocate nothing,
  touch only unscoped device buffers, and write neither a window's array nor an argument; hence the arguments end as
  the launch memory held them, and the result buffer holds one pure term in the region's three output arrays and the
  seven remaining arguments.
-/
import proofs.«138509_j5093831213700_1_alg».proof.Proof.KI.Base
import proofs.«138509_j5093831213700_1_alg».proof.Proof.KI.Stats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function reduces to its region continued by the nine stretches -/

/-- With no host operation before the region, the main function is the region's entry followed by the chain of
    the nine stretches; the buffers are held at the launch contents when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [] opss (by simp only [List.Forall])
    (by simp only [List.Forall]) main_chain

/-! ## The stretches touch unscoped device buffers only -/

/-- Membership in the list of stretches, stretch by stretch. -/
theorem mem_opss {ops : List (HloOp τ sig (Elt F))} (h : ops ∈ (opss (F := F))) :
    ops = hostOps1 ∨ ops = hostOps1_1 ∨ ops = hostOps1_2 ∨ ops = hostOps1_3 ∨ ops = hostOps1_4 ∨ ops = hostOps1_5
      ∨ ops = hostOps1_6 ∨ ops = hostOps1_7 ∨ ops = hostOps1_8 := by
  simpa only [opss, List.mem_cons, List.mem_nil_iff, or_false] using h

/-- A property every operation of each of the nine stretches has, every operation after the region has. -/
theorem forall_opss {p : HloOp τ sig (Elt F) → Prop}
    (h0 : (hostOps1 (F := F)).Forall p) (h1 : (hostOps1_1 (F := F)).Forall p) (h2 : (hostOps1_2 (F := F)).Forall p)
    (h3 : (hostOps1_3 (F := F)).Forall p) (h4 : (hostOps1_4 (F := F)).Forall p) (h5 : (hostOps1_5 (F := F)).Forall p)
    (h6 : (hostOps1_6 (F := F)).Forall p) (h7 : (hostOps1_7 (F := F)).Forall p) (h8 : (hostOps1_8 (F := F)).Forall p) :
    ∀ ops ∈ (opss (F := F)), ∀ op ∈ ops, p op := by
  intro ops hops op hop
  rcases mem_opss hops with rfl | rfl | rfl | rfl | rfl | rfl | rfl | rfl | rfl
  · exact List.forall_iff_forall_mem.mp h0 op hop
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop
  · exact List.forall_iff_forall_mem.mp h6 op hop
  · exact List.forall_iff_forall_mem.mp h7 op hop
  · exact List.forall_iff_forall_mem.mp h8 op hop

/-- Every operation after the region touches TensorCore references only. -/
theorem opss_tc : ∀ ops ∈ (opss (F := F)), ∀ op ∈ ops, op.bufs ⊆ StableHlo.tcRefs τ sig :=
  forall_opss hostOps1_sub hostOps1_1_sub hostOps1_2_sub hostOps1_3_sub hostOps1_4_sub hostOps1_5_sub hostOps1_6_sub
    hostOps1_7_sub hostOps1_8_sub

/-- The operations after the region touch the pipeline's arrays and the bypassing buffers only: nothing is prefetched,
    so these are all the unscoped TensorCore references. -/
theorem sfx_sub : ∀ ops ∈ (opss (F := F)), ∀ op ∈ ops, op.bufs ⊆ Pipeline.tailRefs sig Pipeline.Prefetch.none spec0 := by
  rw [Pipeline.tailRefs_none spec0 launch0.win.arr_unscoped]
  exact fun ops hops op hop => Pipeline.sub_ucRefs op (opss_tc ops hops op hop)

/-! ## They allocate nothing -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

theorem sfx_fresh : ∀ ops ∈ (opss (F := F)), ∀ op ∈ ops, op.fresh = ∅ :=
  forall_opss hostOps1_fresh hostOps1_1_fresh hostOps1_2_fresh hostOps1_3_fresh hostOps1_4_fresh hostOps1_5_fresh
    hostOps1_6_fresh hostOps1_7_fresh hostOps1_8_fresh

/-! ## They write neither a window's array nor an argument -/

/-- The buffers no operation after the region writes: the eight arguments (the first of them window 0's array) and the
    region's three output arrays. -/
abbrev kept : List (Ref sig .tc) :=
  [main_arg0, main_arg1, main_arg2, main_arg3, main_arg4, main_arg5, main_arg6, main_arg7, main_v0_0, main_v0_1, main_v0_2]

/-- The operation writes none of the buffers listed. -/
def Keeps (L : List (Ref sig .tc)) (op : HloOp τ sig (Elt F)) : Prop := ∀ r ∈ L, Proc.devRef (τ := τ) .tc r ∉ op.writes

/-- An operation whose one written buffer is a reference outside the list keeps the list's. -/
theorem keeps_of_writes (L : List (Ref sig .tc)) (op : HloOp τ sig (Elt F)) (y : Ref sig .tc)
    (h : op.writes = {Proc.devRef .tc y}) (hy : y ∉ L) : Keeps L op := by
  intro r hr hw
  rw [h, Finset.mem_singleton] at hw
  exact hy (Proc.devRef_injective _ hw ▸ hr)

theorem hostOps1_keeps : (hostOps1 : List (HloOp τ sig (Elt F))).Forall (Keeps kept) := by
  simp only [List.Forall]
  repeat' apply And.intro
  all_goals exact keeps_of_writes _ _ _ rfl (by decide)
theorem hostOps1_1_keeps : (hostOps1_1 : List (HloOp τ sig (Elt F))).Forall (Keeps kept) := by
  simp only [List.Forall]
  repeat' apply And.intro
  all_goals exact keeps_of_writes _ _ _ rfl (by decide)
theorem hostOps1_2_keeps : (hostOps1_2 : List (HloOp τ sig (Elt F))).Forall (Keeps kept) := by
  simp only [List.Forall]
  repeat' apply And.intro
  all_goals exact keeps_of_writes _ _ _ rfl (by decide)
theorem hostOps1_3_keeps : (hostOps1_3 : List (HloOp τ sig (Elt F))).Forall (Keeps kept) := by
  simp only [List.Forall]
  repeat' apply And.intro
  all_goals exact keeps_of_writes _ _ _ rfl (by decide)
theorem hostOps1_4_keeps : (hostOps1_4 : List (HloOp τ sig (Elt F))).Forall (Keeps kept) := by
  simp only [List.Forall]
  repeat' apply And.intro
  all_goals exact keeps_of_writes _ _ _ rfl (by decide)
theorem hostOps1_5_keeps : (hostOps1_5 : List (HloOp τ sig (Elt F))).Forall (Keeps kept) := by
  simp only [List.Forall]
  repeat' apply And.intro
  all_goals exact keeps_of_writes _ _ _ rfl (by decide)
theorem hostOps1_6_keeps : (hostOps1_6 : List (HloOp τ sig (Elt F))).Forall (Keeps kept) := by
  simp only [List.Forall]
  repeat' apply And.intro
  all_goals exact keeps_of_writes _ _ _ rfl (by decide)
theorem hostOps1_7_keeps : (hostOps1_7 : List (HloOp τ sig (Elt F))).Forall (Keeps kept) := by
  simp only [List.Forall]
  exact keeps_of_writes _ _ _ rfl (by decide)
theorem hostOps1_8_keeps : (hostOps1_8 : List (HloOp τ sig (Elt F))).Forall (Keeps kept) := by
  simp only [List.Forall]
  repeat' apply And.intro
  all_goals exact keeps_of_writes _ _ _ rfl (by decide)

/-- No operation after the region writes a kept buffer. -/
theorem opss_keeps : ∀ ops ∈ (opss (F := F)), ∀ op ∈ ops, Keeps kept op :=
  forall_opss hostOps1_keeps hostOps1_1_keeps hostOps1_2_keeps hostOps1_3_keeps hostOps1_4_keeps hostOps1_5_keeps
    hostOps1_6_keeps hostOps1_7_keeps hostOps1_8_keeps

/-- Each window's array is a kept buffer. -/
theorem arrRef_mem_kept : ∀ w : Fin 4, Pipeline.arrRef spec0 w ∈ kept := by decide

/-- In particular they write no array of the pipeline. -/
theorem sfx_keeps : ∀ ops ∈ (opss (F := F)), ∀ op ∈ ops, ∀ w, Proc.devRef .tc (Pipeline.arrRef spec0 w) ∉ op.writes :=
  fun ops hops op hop w => opss_keeps ops hops op hop _ (arrRef_mem_kept w)

/-! ## The frame: the arguments end as the launch memory held them -/

/-- A kept buffer that is no window's array holds, after the nine stretches, what it held when the region was
    entered: no operation writes it, and the region's exit contents differ from the entry contents at the arrays only. -/
theorem afterTail_kept (dats : (p : Fin 1) → (c : Dev nD) → Dat τ (Elt F) Unit ℕ (UR sig nD τ) ℕ (cfgs p) c)
    (c : Dev nD) (b : Ref sig .tc) (hb : b ∈ kept) (hne : ∀ w, Pipeline.arrRef spec0 w ≠ b) :
    Pipeline.afterTail₀ cfgs dats 0 (V0 m) (opss (F := F)) c b = V m c b := by
  unfold Pipeline.afterTail₀
  rw [StableHlo.after_of_forall_not_mem _ _ (fun op hop => ?_), Pipeline.withArrays_of_ne _ c _ _ b hne]
  obtain ⟨ops, hops, hop'⟩ := List.mem_flatten.mp hop
  exact opss_keeps ops hops op hop' b hb

/-- A final memory satisfying the frame run's post holds every argument as the launch memory did: window 0's array is
    an input, so it ends at its entry contents; each other argument bypasses the region and no later operation writes it. -/
theorem frame_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) (opss (F := F))) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats 0 c).arrAt_in 0 rfl _).trans ((hA c 0).trans (V_main_arg0 m c))),
   ((h c).2 main_arg1 (Pipeline.mem_restRefs_of _ rfl (by decide))).trans
      ((afterTail_kept m dats c main_arg1 (by decide) (by decide)).trans (V_main_arg1 m c)),
   ((h c).2 main_arg2 (Pipeline.mem_restRefs_of _ rfl (by decide))).trans
      ((afterTail_kept m dats c main_arg2 (by decide) (by decide)).trans (V_main_arg2 m c)),
   ((h c).2 main_arg3 (Pipeline.mem_restRefs_of _ rfl (by decide))).trans
      ((afterTail_kept m dats c main_arg3 (by decide) (by decide)).trans (V_main_arg3 m c)),
   ((h c).2 main_arg4 (Pipeline.mem_restRefs_of _ rfl (by decide))).trans
      ((afterTail_kept m dats c main_arg4 (by decide) (by decide)).trans (V_main_arg4 m c)),
   ((h c).2 main_arg5 (Pipeline.mem_restRefs_of _ rfl (by decide))).trans
      ((afterTail_kept m dats c main_arg5 (by decide) (by decide)).trans (V_main_arg5 m c)),
   ((h c).2 main_arg6 (Pipeline.mem_restRefs_of _ rfl (by decide))).trans
      ((afterTail_kept m dats c main_arg6 (by decide) (by decide)).trans (V_main_arg6 m c)),
   ((h c).2 main_arg7 (Pipeline.mem_restRefs_of _ rfl (by decide))).trans
      ((afterTail_kept m dats c main_arg7 (by decide) (by decide)).trans (V_main_arg7 m c))⟩

/-- The same memory holds, at the result buffer, what the nine stretches leave there: the result buffer bypasses
    the region. -/
theorem result_post (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) (opss (F := F))) r) (c : Dev nD) :
    r.2.mem ((c.tc : Thread nD τ).loc main_v69) = Pipeline.afterTail₀ cfgs dats 0 (V0 m) (opss (F := F)) c main_v69 :=
  (h c).2 main_v69 (Pipeline.mem_restRefs_of _ rfl (by decide))

/-- The frame claim's post from a frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) (opss (F := F))))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => frame_post m dats hA r h c) h

/-! ## The result as one pure term

The operations after the region, read as functions, each definition's body the program's operations in the program's
order: the degree statistics of the edge list, the features side by side, the three layers, the score and the two
means. (What the region's three output arrays give — the per-graph mean, maximum and standard deviation — is `kMean`,
`kMax`, `kStd`.) -/

section Pure

/-- Row 1 of the edge list (the targets), as a vector. -/
def kRow1 (e : IVec S2x3200000 32) : IVec S3200000 32 :=
  shapeCast S3200000 (extractStridedSlice S1x3200000 ![1, 0] e slices_S2x3200000_S1x3200000_1_0) shapeCasts_S1x3200000_S3200000

/-- The targets, a negative one wrapped by adding the number of nodes. -/
def kTargets (e : IVec S2x3200000 32) : IVec S3200000 32 :=
  select (cmpi .slt (kRow1 e) (broadcastInDim S3200000 ![] bcast_S_S3200000 (constantI S_ 32 0#32)))
    (addi (kRow1 e) (broadcastInDim S3200000 ![] bcast_S_S3200000 (constantI S_ 32 100000#32)))
    (kRow1 e)

/-- The in-degree of every node: ones added into zeros at the targets. -/
def kDeg (e : IVec S2x3200000 32) : FVec F S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 (kTargets e))
    (broadcastInDim S3200000 ![] bcast_S_S3200000 (constant S_ .f32 0x3F800000#32))

/-- The mean in-degree. -/
def kDegMean (e : IVec S2x3200000 32) : FVec F S_ .f32 :=
  Host.divf (Host.reduceAdd (kDeg e) (constant S_ .f32 0x00000000#32) reducesTo_S100000_S_d0 h_S_) (constant S_ .f32 0x47C35000#32)

/-- The in-degrees centred: minus the mean taken through a one-element tensor and repeated. -/
def kDegCentred (e : IVec S2x3200000 32) : FVec F S100000 .f32 :=
  subf (kDeg e) (broadcastInDim S100000 ![0] bcast_S1_S100000_0
    (Host.divf
      (broadcastInDim S1 ![] bcast_S_S1 (Host.reduceAdd (kDeg e) (constant S_ .f32 0x00000000#32) reducesTo_S100000_S_d0 h_S_))
      (broadcastInDim S1 ![] bcast_S_S1 (constant S_ .f32 0x47C35000#32))))

/-- The unbiased standard deviation of the in-degrees (a not-a-number were the divisor `1e5 − 1` not positive). -/
def kDegStd (e : IVec S2x3200000 32) : FVec F S_ .f32 :=
  Host.sqrt
    (select (cmpf .ogt (subf (constant S_ .f32 0x47C35000#32) (sitofp .f32 (constantI S_ 32 1#32)) : FVec F S_ .f32) (constant S_ .f32 0x00000000#32))
      (Host.divf
        (Host.reduceAdd (mulf (kDegCentred e) (kDegCentred e)) (constant S_ .f32 0x00000000#32) reducesTo_S100000_S_d0 h_S_)
        (subf (constant S_ .f32 0x47C35000#32) (sitofp .f32 (constantI S_ 32 1#32))))
      (id (constant S_ .f32 0x7FC00000#32)))

/-- Four one-element tensors side by side. -/
def kFour (a b c d : FVec F S1 .f32) : FVec F S4 .f32 :=
  concatenate S4 0 [⟨S1, a⟩, ⟨S1, b⟩, ⟨S1, c⟩, ⟨S1, d⟩] concatenates_S1_S1_S1_S1_S4_d0

/-- The four structural features — mean in-degree, its deviation, and the two literals — one row, repeated for the
    eight graphs. -/
def kStruct (e : IVec S2x3200000 32) : FVec F S8x4 .f32 :=
  broadcastInDim S8x4 ![0, 1] bcast_S1x4_S8x4_0_1 (broadcastInDim S1x4 ![1] bcast_S4_S1x4_1
    (kFour (broadcastInDim S1 ![] bcast_S_S1 (kDegMean e)) (broadcastInDim S1 ![] bcast_S_S1 (kDegStd e))
      (broadcastInDim S1 ![] bcast_S_S1 (constant S_ .f32 0x39A7C61A#32)) (broadcastInDim S1 ![] bcast_S_S1 (constant S_ .f32 0x3F935D96#32))))

/-- The 196 features of each graph: mean, maximum, deviation, structure, side by side. -/
def kFeat (mean mx std : FVec F S8x64 .f32) (s : FVec F S8x4 .f32) : FVec F S8x196 .f32 :=
  concatenate S8x196 1 [⟨S8x64, mean⟩, ⟨S8x64, mx⟩, ⟨S8x64, std⟩, ⟨S8x4, s⟩] concatenates_S8x64_S8x64_S8x64_S8x4_S8x196_d1

/-- The first dense layer, `max(z·W1 + b1, 0)`. -/
def kHidden1 (z : FVec F S8x196 .f32) (W1 : FVec F S196x64 .f32) (b1 : FVec F S64 .f32) : FVec F S8x64 .f32 :=
  maximumf
    (addf (Host.dotGeneral dot_S8x196_S196x64_S8x64_1_0_0_1_n_n none z W1)
      (broadcastInDim S8x64 ![0, 1] bcast_S1x64_S8x64_0_1 (broadcastInDim S1x64 ![1] bcast_S64_S1x64_1 b1)))
    (broadcastInDim S8x64 ![] bcast_S_S8x64 (constant S_ .f32 0x00000000#32))

/-- The second dense layer, `max(h·W2 + b2, 0)`. -/
def kHidden2 (h : FVec F S8x64 .f32) (W2 : FVec F S64x32 .f32) (b2 : FVec F S32 .f32) : FVec F S8x32 .f32 :=
  maximumf
    (addf (Host.dotGeneral dot_S8x64_S64x32_S8x32_1_0_0_1_n_n none h W2)
      (broadcastInDim S8x32 ![0, 1] bcast_S1x32_S8x32_0_1 (broadcastInDim S1x32 ![1] bcast_S32_S1x32_1 b2)))
    (broadcastInDim S8x32 ![] bcast_S_S8x32 (constant S_ .f32 0x00000000#32))

/-- The third layer through the logistic function, `1 / (1 + exp (−(h·W3 + b3)))`, one number per graph. -/
def kProb (h : FVec F S8x32 .f32) (W3 : FVec F S32x1 .f32) (b3 : FVec F S1 .f32) : FVec F S8 .f32 :=
  shapeCast S8
    (Host.divf (broadcastInDim S8x1 ![] bcast_S_S8x1 (constant S_ .f32 0x3F800000#32))
      (addf (broadcastInDim S8x1 ![] bcast_S_S8x1 (constant S_ .f32 0x3F800000#32))
        (Host.exp (Host.negf
          (addf (Host.dotGeneral dot_S8x32_S32x1_S8x1_1_0_0_1_n_n none h W3)
            (broadcastInDim S8x1 ![0, 1] bcast_S1x1_S8x1_0_1 (broadcastInDim S1x1 ![1] bcast_S1_S1x1_1 b3)))))))
    shapeCasts_S8x1_S8

/-- The score `3 + 47·p`. -/
def kScore (p : FVec F S8 .f32) : FVec F S8 .f32 :=
  addf (broadcastInDim S8 ![] bcast_S_S8 (constant S_ .f32 0x40400000#32))
    (mulf p (broadcastInDim S8 ![] bcast_S_S8 (constant S_ .f32 0x423C0000#32)))

/-- The mean over the eight graphs of `k + (round k − k)` for the score `k`, and the mean of `p`, side by side. -/
def kOut (p : FVec F S8 .f32) : FVec F S2 .f32 :=
  concatenate S2 0
    [⟨S1, broadcastInDim S1 ![] bcast_S_S1
        (Host.divf
          (Host.reduceAdd (addf (kScore p) (subf (Host.roundeven (kScore p)) (kScore p))) (constant S_ .f32 0x00000000#32) reducesTo_S8_S_d0 h_S_)
          (constant S_ .f32 0x41000000#32))⟩,
     ⟨S1, broadcastInDim S1 ![] bcast_S_S1
        (Host.divf (Host.reduceAdd p (constant S_ .f32 0x00000000#32) reducesTo_S8_S_d0 h_S_) (constant S_ .f32 0x41000000#32))⟩]
    concatenates_S1_S1_S2_d0

/-- Everything downstream of the three pooled statistics: the structural features of the edge list beside them, the
    three dense layers, the logistic function, and the two means. -/
def common (mean mx std : FVec F S8x64 .f32) (e : IVec S2x3200000 32) (W1 : FVec F S196x64 .f32) (b1 : FVec F S64 .f32)
    (W2 : FVec F S64x32 .f32) (b2 : FVec F S32 .f32) (W3 : FVec F S32x1 .f32) (b3 : FVec F S1 .f32) : FVec F S2 .f32 :=
  kOut (kProb (kHidden2 (kHidden1 (kFeat mean mx std (kStruct e)) W1 b1) W2 b2) W3 b3)

end Pure

/-! ### The stretches one by one, from any contents -/

/-- Two lines run one after the other leave what the second leaves from what the first left. -/
theorem after_append (l₁ l₂ : List (HloOp τ sig (Elt F))) (G : Valuation τ sig (Elt F)) :
    StableHlo.after (l₁ ++ l₂) G = StableHlo.after l₂ (StableHlo.after l₁ G) := by
  induction l₁ generalizing G with
  | nil => rfl
  | cons op l ih => simp only [List.cons_append, StableHlo.after_cons, ih]

/-- A line whose operations keep the listed buffers leaves each of them as it was. -/
theorem after_keeps {L : List (Ref sig .tc)} {ops : List (HloOp τ sig (Elt F))} (h : ops.Forall (Keeps L))
    (G : Valuation τ sig (Elt F)) {r : Ref sig .tc} (hr : r ∈ L) :
    StableHlo.after ops G (Proc.devRef .tc r) = G (Proc.devRef .tc r) :=
  StableHlo.after_of_forall_not_mem ops G fun op hop => List.forall_iff_forall_mem.mp h op hop r hr

section Stretches

variable (G : Valuation τ sig (Elt F))

/-! The first stretch: the pooled blocks from the region's output arrays, the in-degrees and their mean. -/

theorem s0_v5 : StableHlo.after hostOps1 G (Proc.devRef .tc main_v5) = kMean (G (Proc.devRef .tc main_v0_0)) := by
  simp only [hostOps1]; after_results_simp; rfl
theorem s0_v3 : StableHlo.after hostOps1 G (Proc.devRef .tc main_v3) = kMax (G (Proc.devRef .tc main_v0_2)) := by
  simp only [hostOps1]; after_results_simp; rfl
theorem s0_v12 : StableHlo.after hostOps1 G (Proc.devRef .tc main_v12) = kStd (G (Proc.devRef .tc main_v0_0)) (G (Proc.devRef .tc main_v0_1)) := by
  simp only [hostOps1]; after_results_simp; rfl
theorem s0_v23 : StableHlo.after hostOps1 G (Proc.devRef .tc main_v23) = kDeg (G (Proc.devRef .tc main_arg1)) := by
  simp only [hostOps1]; after_results_simp; rfl
theorem s0_v25 : StableHlo.after hostOps1 G (Proc.devRef .tc main_v25) = kDegMean (G (Proc.devRef .tc main_arg1)) := by
  simp only [hostOps1]; after_results_simp; rfl
theorem s0_c7 : StableHlo.after hostOps1 G (Proc.devRef .tc main_c_7) = constantI S_ 32 1#32 := by
  simp only [hostOps1]; after_results_simp

/-! The second stretch: the deviation of the in-degrees, when it finds them and the delta degrees of freedom in
    place; it writes only the buffers of its own call. -/

theorem s1_v26 (e : IVec S2x3200000 32) (h23 : G (Proc.devRef .tc main_v23) = kDeg e)
    (hc : G (Proc.devRef .tc main_c_7) = constantI S_ 32 1#32) :
    StableHlo.after hostOps1_1 G (Proc.devRef .tc main_v26) = kDegStd e := by
  simp only [hostOps1_1]; after_results_simp; rw [h23, hc]; rfl

theorem hostOps1_1_keeps' : (hostOps1_1 : List (HloOp τ sig (Elt F))).Forall (Keeps [main_v5, main_v3, main_v12, main_v25]) := by
  simp only [List.Forall]
  repeat' apply And.intro
  all_goals exact keeps_of_writes _ _ _ rfl (by decide)

/-! The third stretch: the features side by side, times the first weight matrix, plus its bias. -/

theorem s2_v38_raw : StableHlo.after hostOps1_2 G (Proc.devRef .tc main_v38)
    = addf (Host.dotGeneral dot_S8x196_S196x64_S8x64_1_0_0_1_n_n none
          (kFeat (G (Proc.devRef .tc main_v5)) (G (Proc.devRef .tc main_v3)) (G (Proc.devRef .tc main_v12))
            (broadcastInDim S8x4 ![0, 1] bcast_S1x4_S8x4_0_1 (broadcastInDim S1x4 ![1] bcast_S4_S1x4_1
              (kFour (broadcastInDim S1 ![] bcast_S_S1 (G (Proc.devRef .tc main_v25))) (broadcastInDim S1 ![] bcast_S_S1 (G (Proc.devRef .tc main_v26)))
                (broadcastInDim S1 ![] bcast_S_S1 (constant S_ .f32 0x39A7C61A#32))
                (broadcastInDim S1 ![] bcast_S_S1 (constant S_ .f32 0x3F935D96#32))))))
          (G (Proc.devRef .tc main_arg2)))
        (broadcastInDim S8x64 ![0, 1] bcast_S1x64_S8x64_0_1 (broadcastInDim S1x64 ![1] bcast_S64_S1x64_1 (G (Proc.devRef .tc main_arg3)))) := by
  simp only [hostOps1_2]; after_results; rfl

theorem s2_v38 (e : IVec S2x3200000 32) (mean mx std : FVec F S8x64 .f32)
    (h5 : G (Proc.devRef .tc main_v5) = mean) (h3 : G (Proc.devRef .tc main_v3) = mx) (h12 : G (Proc.devRef .tc main_v12) = std)
    (h25 : G (Proc.devRef .tc main_v25) = kDegMean e) (h26 : G (Proc.devRef .tc main_v26) = kDegStd e) :
    StableHlo.after hostOps1_2 G (Proc.devRef .tc main_v38)
      = addf (Host.dotGeneral dot_S8x196_S196x64_S8x64_1_0_0_1_n_n none (kFeat mean mx std (kStruct e)) (G (Proc.devRef .tc main_arg2)))
          (broadcastInDim S8x64 ![0, 1] bcast_S1x64_S8x64_0_1 (broadcastInDim S1x64 ![1] bcast_S64_S1x64_1 (G (Proc.devRef .tc main_arg3)))) := by
  rw [s2_v38_raw, h5, h3, h12, h25, h26]; rfl

/-! The clamps and the second layer. -/

theorem s3_v39 (z : FVec F S8x196 .f32) (W1 : FVec F S196x64 .f32) (b1 : FVec F S64 .f32)
    (h38 : G (Proc.devRef .tc main_v38) = addf (Host.dotGeneral dot_S8x196_S196x64_S8x64_1_0_0_1_n_n none z W1)
      (broadcastInDim S8x64 ![0, 1] bcast_S1x64_S8x64_0_1 (broadcastInDim S1x64 ![1] bcast_S64_S1x64_1 b1))) :
    StableHlo.after hostOps1_3 G (Proc.devRef .tc main_v39) = kHidden1 z W1 b1 := by
  simp only [hostOps1_3]; after_results_simp; rw [h38]; rfl
theorem s4_v43 : StableHlo.after hostOps1_4 G (Proc.devRef .tc main_v43)
    = addf (Host.dotGeneral dot_S8x64_S64x32_S8x32_1_0_0_1_n_n none (G (Proc.devRef .tc main_v39)) (G (Proc.devRef .tc main_arg4)))
        (broadcastInDim S8x32 ![0, 1] bcast_S1x32_S8x32_0_1 (broadcastInDim S1x32 ![1] bcast_S32_S1x32_1 (G (Proc.devRef .tc main_arg5)))) := by
  simp only [hostOps1_4]; after_results_simp
theorem s5_v44 (h : FVec F S8x64 .f32) (W2 : FVec F S64x32 .f32) (b2 : FVec F S32 .f32)
    (h43 : G (Proc.devRef .tc main_v43) = addf (Host.dotGeneral dot_S8x64_S64x32_S8x32_1_0_0_1_n_n none h W2)
      (broadcastInDim S8x32 ![0, 1] bcast_S1x32_S8x32_0_1 (broadcastInDim S1x32 ![1] bcast_S32_S1x32_1 b2))) :
    StableHlo.after hostOps1_5 G (Proc.devRef .tc main_v44) = kHidden2 h W2 b2 := by
  simp only [hostOps1_5]; after_results_simp; rw [h43]; rfl

/-! The third layer with the logistic function, and the score. -/

theorem s6_v55 : StableHlo.after hostOps1_6 G (Proc.devRef .tc main_v55)
    = kProb (G (Proc.devRef .tc main_v44)) (G (Proc.devRef .tc main_arg6)) (G (Proc.devRef .tc main_arg7)) := by
  simp only [hostOps1_6]; after_results_simp; rfl
theorem s6_v59 : StableHlo.after hostOps1_6 G (Proc.devRef .tc main_v59)
    = kScore (kProb (G (Proc.devRef .tc main_v44)) (G (Proc.devRef .tc main_arg6)) (G (Proc.devRef .tc main_arg7))) := by
  simp only [hostOps1_6]; after_results_simp; rfl

/-! The rounding, which writes its own result only. -/

theorem s7_v60 : StableHlo.after hostOps1_7 G (Proc.devRef .tc main_v60) = Host.roundeven (G (Proc.devRef .tc main_v59)) := by
  simp only [hostOps1_7]; after_results_simp; rfl
theorem hostOps1_7_keeps' : (hostOps1_7 : List (HloOp τ sig (Elt F))).Forall (Keeps [main_v59, main_v55]) := by
  simp only [List.Forall]
  exact keeps_of_writes _ _ _ rfl (by decide)

/-! The last stretch: the two means side by side, when it finds the probabilities, the scores and the rounded scores
    in place. -/

theorem s8_v69 (p : FVec F S8 .f32) (h55 : G (Proc.devRef .tc main_v55) = p) (h59 : G (Proc.devRef .tc main_v59) = kScore p)
    (h60 : G (Proc.devRef .tc main_v60) = Host.roundeven (kScore p)) :
    StableHlo.after hostOps1_8 G (Proc.devRef .tc main_v69) = kOut p := by
  simp only [hostOps1_8]; after_results; rw [h55, h59, h60]; rfl

end Stretches

/-! ### The region's exit contents at the buffers the stretches read -/

section Exit

variable (c : Dev nD) (V : Valuation τ sig (Elt F)) (A : (w : Fin 4) → Buf (Elt F) ((spec0 w).arr.view.loc (c.tc : Thread nD τ)))

theorem exit_v0_0 : Pipeline.withArrays spec0 c V A (Proc.devRef .tc main_v0_0) = A 1 :=
  Pipeline.withArrays_arr spec0 launch0.win.arr_inj c V A 1
theorem exit_v0_1 : Pipeline.withArrays spec0 c V A (Proc.devRef .tc main_v0_1) = A 2 :=
  Pipeline.withArrays_arr spec0 launch0.win.arr_inj c V A 2
theorem exit_v0_2 : Pipeline.withArrays spec0 c V A (Proc.devRef .tc main_v0_2) = A 3 :=
  Pipeline.withArrays_arr spec0 launch0.win.arr_inj c V A 3
/-- A buffer that is no window's array leaves the region as it entered it. -/
theorem exit_rest {r : Ref sig .tc} (hr : ∀ w, Pipeline.arrRef spec0 w ≠ r) :
    Pipeline.withArrays spec0 c V A (Proc.devRef .tc r) = V (Proc.devRef .tc r) :=
  Pipeline.withArrays_of_ne spec0 c V A r hr

end Exit

/-! ### The stretches composed

`G1 W … G9 W` are the contents after the first one … nine stretches from contents `W`; each buffer a later stretch
reads is followed from the stretch that writes it. -/

section Composed

variable (W : Valuation τ sig (Elt F))

def G1 : Valuation τ sig (Elt F) := StableHlo.after hostOps1 W
def G2 : Valuation τ sig (Elt F) := StableHlo.after hostOps1_1 (G1 W)
def G3 : Valuation τ sig (Elt F) := StableHlo.after hostOps1_2 (G2 W)
def G4 : Valuation τ sig (Elt F) := StableHlo.after hostOps1_3 (G3 W)
def G5 : Valuation τ sig (Elt F) := StableHlo.after hostOps1_4 (G4 W)
def G6 : Valuation τ sig (Elt F) := StableHlo.after hostOps1_5 (G5 W)
def G7 : Valuation τ sig (Elt F) := StableHlo.after hostOps1_6 (G6 W)
def G8 : Valuation τ sig (Elt F) := StableHlo.after hostOps1_7 (G7 W)
def G9 : Valuation τ sig (Elt F) := StableHlo.after hostOps1_8 (G8 W)

/-- The nine stretches, run from `W`, leave `G9 W`. -/
theorem after_flatten : StableHlo.after (opss (F := F)).flatten W = G9 W := by
  simp only [opss, List.flatten_cons, List.flatten_nil, List.append_nil, after_append]
  rfl

-- from here on the fold over a line is rewritten by the stretches' equations only, never computed
attribute [local irreducible] StableHlo.after

/-! The kept buffers pass through. -/

theorem G1_kept {r : Ref sig .tc} (hr : r ∈ kept) : G1 W (Proc.devRef .tc r) = W (Proc.devRef .tc r) :=
  after_keeps hostOps1_keeps W hr
theorem G2_kept {r : Ref sig .tc} (hr : r ∈ kept) : G2 W (Proc.devRef .tc r) = W (Proc.devRef .tc r) :=
  (after_keeps hostOps1_1_keeps (G1 W) hr).trans (G1_kept W hr)
theorem G3_kept {r : Ref sig .tc} (hr : r ∈ kept) : G3 W (Proc.devRef .tc r) = W (Proc.devRef .tc r) :=
  (after_keeps hostOps1_2_keeps (G2 W) hr).trans (G2_kept W hr)
theorem G4_kept {r : Ref sig .tc} (hr : r ∈ kept) : G4 W (Proc.devRef .tc r) = W (Proc.devRef .tc r) :=
  (after_keeps hostOps1_3_keeps (G3 W) hr).trans (G3_kept W hr)
theorem G5_kept {r : Ref sig .tc} (hr : r ∈ kept) : G5 W (Proc.devRef .tc r) = W (Proc.devRef .tc r) :=
  (after_keeps hostOps1_4_keeps (G4 W) hr).trans (G4_kept W hr)
theorem G6_kept {r : Ref sig .tc} (hr : r ∈ kept) : G6 W (Proc.devRef .tc r) = W (Proc.devRef .tc r) :=
  (after_keeps hostOps1_5_keeps (G5 W) hr).trans (G5_kept W hr)

/-! After the first stretch. -/

theorem G1_v5 : G1 W (Proc.devRef .tc main_v5) = kMean (W (Proc.devRef .tc main_v0_0)) := s0_v5 W
theorem G1_v3 : G1 W (Proc.devRef .tc main_v3) = kMax (W (Proc.devRef .tc main_v0_2)) := s0_v3 W
theorem G1_v12 : G1 W (Proc.devRef .tc main_v12) = kStd (W (Proc.devRef .tc main_v0_0)) (W (Proc.devRef .tc main_v0_1)) := s0_v12 W
theorem G1_v23 : G1 W (Proc.devRef .tc main_v23) = kDeg (W (Proc.devRef .tc main_arg1)) := s0_v23 W
theorem G1_v25 : G1 W (Proc.devRef .tc main_v25) = kDegMean (W (Proc.devRef .tc main_arg1)) := s0_v25 W
theorem G1_c7 : G1 W (Proc.devRef .tc main_c_7) = constantI S_ 32 1#32 := s0_c7 W

/-! After the second. -/

theorem G2_v26 : G2 W (Proc.devRef .tc main_v26) = kDegStd (W (Proc.devRef .tc main_arg1)) := s1_v26 (G1 W) _ (G1_v23 W) (G1_c7 W)
theorem G2_v5 : G2 W (Proc.devRef .tc main_v5) = kMean (W (Proc.devRef .tc main_v0_0)) :=
  (after_keeps hostOps1_1_keeps' (G1 W) (r := main_v5) (by decide)).trans (G1_v5 W)
theorem G2_v3 : G2 W (Proc.devRef .tc main_v3) = kMax (W (Proc.devRef .tc main_v0_2)) :=
  (after_keeps hostOps1_1_keeps' (G1 W) (r := main_v3) (by decide)).trans (G1_v3 W)
theorem G2_v12 : G2 W (Proc.devRef .tc main_v12) = kStd (W (Proc.devRef .tc main_v0_0)) (W (Proc.devRef .tc main_v0_1)) :=
  (after_keeps hostOps1_1_keeps' (G1 W) (r := main_v12) (by decide)).trans (G1_v12 W)
theorem G2_v25 : G2 W (Proc.devRef .tc main_v25) = kDegMean (W (Proc.devRef .tc main_arg1)) :=
  (after_keeps hostOps1_1_keeps' (G1 W) (r := main_v25) (by decide)).trans (G1_v25 W)

/-! The layers. -/

theorem G4_v39 : G4 W (Proc.devRef .tc main_v39) = kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3)) := by
  refine s3_v39 (G3 W) _ _ _ ((s2_v38 (G2 W) _ _ _ _ (G2_v5 W) (G2_v3 W) (G2_v12 W) (G2_v25 W) (G2_v26 W)).trans ?_)
  rw [G2_kept W (r := main_arg2) (by decide), G2_kept W (r := main_arg3) (by decide)]
theorem G6_v44 : G6 W (Proc.devRef .tc main_v44) = kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5)) := by
  refine s5_v44 (G5 W) _ _ _ ((s4_v43 (G4 W)).trans ?_)
  rw [G4_v39 W, G4_kept W (r := main_arg4) (by decide), G4_kept W (r := main_arg5) (by decide)]
theorem G7_v55 : G7 W (Proc.devRef .tc main_v55) = kProb (kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5))) (W (Proc.devRef .tc main_arg6)) (W (Proc.devRef .tc main_arg7)) := by
  refine (s6_v55 (G6 W)).trans ?_
  rw [G6_v44 W, G6_kept W (r := main_arg6) (by decide), G6_kept W (r := main_arg7) (by decide)]
theorem G7_v59 : G7 W (Proc.devRef .tc main_v59) = kScore (kProb (kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5))) (W (Proc.devRef .tc main_arg6)) (W (Proc.devRef .tc main_arg7))) :=
  (s6_v59 (G6 W)).trans (congrArg kScore ((s6_v55 (G6 W)).symm.trans (G7_v55 W)))

/-! The rounding and the two means. -/

theorem G8_v55 : G8 W (Proc.devRef .tc main_v55) = kProb (kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5))) (W (Proc.devRef .tc main_arg6)) (W (Proc.devRef .tc main_arg7)) :=
  (after_keeps hostOps1_7_keeps' (G7 W) (r := main_v55) (by decide)).trans (G7_v55 W)
theorem G8_v59 : G8 W (Proc.devRef .tc main_v59) = kScore (kProb (kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5))) (W (Proc.devRef .tc main_arg6)) (W (Proc.devRef .tc main_arg7))) :=
  (after_keeps hostOps1_7_keeps' (G7 W) (r := main_v59) (by decide)).trans (G7_v59 W)
theorem G8_v60 : G8 W (Proc.devRef .tc main_v60) = Host.roundeven (kScore (kProb (kHidden2 (kHidden1 (kFeat (kMean (W (Proc.devRef .tc main_v0_0))) (kMax (W (Proc.devRef .tc main_v0_2))) (kStd (W (Proc.devRef .tc main_v0_0)) (W (Proc.devRef .tc main_v0_1))) (kStruct (W (Proc.devRef .tc main_arg1)))) (W (Proc.devRef .tc main_arg2)) (W (Proc.devRef .tc main_arg3))) (W (Proc.devRef .tc main_arg4)) (W (Proc.devRef .tc main_arg5))) (W (Proc.devRef .tc main_arg6)) (W (Proc.devRef .tc main_arg7)))) :=
  (s7_v60 (G7 W)).trans (congrArg Host.roundeven (G7_v59 W))
theorem G9_v69 : G9 W (Proc.devRef .tc main_v69)
    = common (kMean (W (Proc.devRef .tc main_v0_0))) (kMax (W (Proc.devRef .tc main_v0_2))) (kStd (W (Proc.devRef .tc main_v0_0)) (W (Proc.devRef .tc main_v0_1))) (W (Proc.devRef .tc main_arg1)) (W (Proc.devRef .tc main_arg2)) (W (Proc.devRef .tc main_arg3)) (W (Proc.devRef .tc main_arg4)) (W (Proc.devRef .tc main_arg5))
        (W (Proc.devRef .tc main_arg6)) (W (Proc.devRef .tc main_arg7)) :=
  s8_v69 (G8 W) _ (G8_v55 W) (G8_v59 W) (G8_v60 W)

end Composed

/-! ### The result -/

/-- The result buffer after the nine stretches: the common term at the pooled blocks the region's three output
    arrays give and at the launch contents of the other seven arguments. -/
theorem result_eq (dats : (p : Fin 1) → (c : Dev nD) → Dat τ (Elt F) Unit ℕ (UR sig nD τ) ℕ (cfgs p) c) (c : Dev nD) :
    Pipeline.afterTail₀ cfgs dats 0 (V0 m) (opss (F := F)) c main_v69
      = common (kMean ((dats 0 c).arrAt 1 cfg0.N)) (kMax ((dats 0 c).arrAt 3 cfg0.N))
          (kStd ((dats 0 c).arrAt 1 cfg0.N) ((dats 0 c).arrAt 2 cfg0.N))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  unfold Pipeline.afterTail₀
  rw [after_flatten, G9_v69, exit_v0_0, exit_v0_1, exit_v0_2,
    exit_rest (r := main_arg1) _ _ _ (by decide), exit_rest (r := main_arg2) _ _ _ (by decide),
    exit_rest (r := main_arg3) _ _ _ (by decide), exit_rest (r := main_arg4) _ _ _ (by decide),
    exit_rest (r := main_arg5) _ _ _ (by decide), exit_rest (r := main_arg6) _ _ _ (by decide),
    exit_rest (r := main_arg7) _ _ _ (by decide)]
  rfl

end Cert.KernelIdeal.Hand

end
-- ==== Proof.KI.Run.lean ====
/-
  The run of the whole program and its frame: the pooled-statistics region launched with the tracking invariant,
  continued by the nine stretches of host operations, none of which writes an array the region stages or an argument.
-/
import proofs.«138509_j5093831213700_1_alg».proof.Proof.KI.Frame
import proofs.«138509_j5093831213700_1_alg».proof.Proof.KI.Tail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the main function terminates, and the final
    state has every array of the region at what the proof data compute and every other unscoped buffer as the host
    operations after the region leave it. -/
theorem run_main : θ_run defs (onTc (τ := τ) (main (F := F))) (s₀ m ρ) (Pipeline.FramePost cfgs (dats m) 0 (Pipeline.afterTail₀ cfgs (dats m) 0 (V0 m) (opss (F := F)))) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hin := hin m) (hout := hout m)

/-- The frame: the program runs to the end, faults nowhere and leaves its eight argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.KI.Pay.lean ====
/-
  The kernel body's payloads read at one index, at the ideal values (every float an extended real).

  Per grid point the body holds a block `v3` of one batch element (20000 rows by 64 columns, under a leading unit
  axis) and three rows of 64 running values. Read at column `d`:
    • the three initial rows are `0`, `0` and `⊥` (the words `0x00000000` and `0xFF800000`, f32's `-∞`);
    • the updated running sum is the old one plus `∑ k, v3 (0, k, d)`;
    • the updated running sum of squares is the old one plus `∑ k, v3 (0, k, d) * v3 (0, k, d)`;
    • the updated running maximum is `max` of the old one and the fold of `max` from `⊥` over `k ↦ v3 (0, k, d)`;
    • the three final rows are the running rows with a unit axis inserted: `(0, 0, d) ↦ (0, d)`.
  Every index is written by its coordinates (`ix1`, `ix2`, `ix3` over literal extents), and the sums and the fold
  stay symbolic over `Fin 20000`: nothing here enumerates the rows.
-/
import proofs.«138509_j5093831213700_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx

/-! ## Indices of the two row shapes -/

/-- A `[1, 64]` index is `(0, d)`: its first coordinate lives in `Fin 1`, which has one element. -/
theorem idx_S1x64 (j : S1x64.Idx) : ∃ d : Fin 64, j = ix2 (0 : Fin 1) d := by
  obtain ⟨p, q, rfl⟩ : ∃ (p : Fin 1) (q : Fin 64), j = ix2 p q := ⟨j 0, j 1, eq_ix2 j⟩
  obtain rfl : p = 0 := Subsingleton.elim _ _
  exact ⟨q, rfl⟩

/-- A `[1, 1, 64]` index is `(0, 0, d)`, for the same reason on its first two coordinates. -/
theorem idx_S1x1x64 (j : S1x1x64.Idx) : ∃ d : Fin 64, j = ix3 (0 : Fin 1) (0 : Fin 1) d := by
  obtain ⟨p, q, r, rfl⟩ : ∃ (p : Fin 1) (q : Fin 1) (r : Fin 64), j = ix3 p q r := ⟨j 0, j 1, j 2, eq_ix3 j⟩
  obtain rfl : p = 0 := Subsingleton.elim _ _
  obtain rfl : q = 0 := Subsingleton.elim _ _
  exact ⟨r, rfl⟩

/-! ## The two literals -/

/-- The word `0xFF800000` (sign set, exponent all ones, mantissa zero) denotes `-∞`, the bottom extended real. -/
theorem ofBits_neg_inf_f32 : Ideal.ofBits .f32 0xFF800000#32 = ⊥ := by simp [Ideal.ofBits, Ideal.ieee]

/-! ## The initial rows: a splat read anywhere is its scalar; a cast to the same shape is the identity -/

theorem pay1_apply (d : Fin 64) : k0_pay1 (F := Ideal) (ix2 (0 : Fin 1) d) = 0 := by
  unfold k0_pay1
  rw [shapeCast_self]
  exact Ideal.ofBits_zero_f32

theorem pay2_apply (d : Fin 64) : k0_pay2 (F := Ideal) (ix2 (0 : Fin 1) d) = 0 := by
  unfold k0_pay2
  rw [shapeCast_self]
  exact Ideal.ofBits_zero_f32

theorem pay3_apply (d : Fin 64) : k0_pay3 (F := Ideal) (ix2 (0 : Fin 1) d) = ⊥ := by
  unfold k0_pay3
  rw [shapeCast_self]
  exact ofBits_neg_inf_f32

/-! ## The block with its unit axis dropped, and the column reductions over its rows -/

/-- `[1, 20000, 64] → [20000, 64]`: the row-major position of `(k, d)` is that of `(0, k, d)`. -/
theorem pay4_apply (v3 : Vec Ideal S1x20000x64 .f32) (k : Fin 20000) (d : Fin 64) :
    k0_pay4 v3 (ix2 k d) = v3 (ix3 (0 : Fin 1) k d) := by
  unfold k0_pay4
  exact shapeCast_1ab_ab_apply v3 _ k d

/-- Reducing axis 0 of `[20000, 64]`: the reduced index `d` with row coordinate `k` put back is `(k, d)`; both
    coordinates compute. -/
theorem lift_eq (k : Fin 20000) (d : Fin 64) :
    reduces_S20000x64_S64.lift (ix1 d) k = ix2 k d := by
  funext a
  refine Fin.ext ?_
  match a with
  | ⟨0, _⟩ => rfl
  | ⟨1, _⟩ => rfl

/-- The `add` reduction over the rows, at column `d`: the sum over the 20000 rows of the source at `(k, d)` (the
    accumulator word is the neutral `0`, so nothing is added to the sum). -/
theorem colsum_apply (src : FVec Ideal S20000x64 .f32) (d : Fin 64) :
    multiReduction .add [0] S64 src 0x00000000#32 reduces_S20000x64_S64 (.inl rfl) rfl (ix1 d)
      = ∑ k : Fin 20000, src (ix2 k d) := by
  refine (Ideal.multiReduction_add_single src _ _ _ _ _).trans ?_
  show ∑ k : Fin 20000, src (reduces_S20000x64_S64.lift (ix1 d) k) = _
  refine Finset.sum_congr rfl fun k _ => ?_
  rw [lift_eq]

/-- The `maximumf` reduction over the rows, at column `d`: the fold of `max` from `⊥` (what the accumulator word
    `0xFF800000` denotes) over the 20000 rows of the source at `(k, d)`. -/
theorem colmax_apply (src : FVec Ideal S20000x64 .f32) (d : Fin 64) :
    multiReduction .maximumf [0] S64 src 0xFF800000#32 reduces_S20000x64_S64 (.inl rfl) rfl (ix1 d)
      = (Finset.univ : Finset (Fin 20000)).fold max ⊥ (fun k => src (ix2 k d)) := by
  refine (Ideal.multiReduction_maximumf_single src _ _ _ _ _).trans ?_
  show (Finset.univ : Finset (Fin 20000)).fold max (Ideal.ofBits .f32 0xFF800000#32)
      (fun k => src (reduces_S20000x64_S64.lift (ix1 d) k)) = _
  rw [ofBits_neg_inf_f32]
  exact Finset.fold_congr fun (k : Fin 20000) _ => congrArg src (lift_eq k d)

/-! ## The three updated rows

Each is `old ⊕ (reduction re-laid [64] → [1, 64])` under an identity cast; at `(0, d)` the re-laid reduction reads
the reduction at `d`. -/

/-- The running sum: the old value plus the column sum of the block. -/
theorem pay5_apply (v3 : Vec Ideal S1x20000x64 .f32) (v5 : Vec Ideal S1x64 .f32) (d : Fin 64) :
    k0_pay5 v3 v5 (ix2 (0 : Fin 1) d) = v5 (ix2 (0 : Fin 1) d) + ∑ k : Fin 20000, v3 (ix3 (0 : Fin 1) k d) := by
  unfold k0_pay5
  rw [shapeCast_self]
  rw [addf_apply]
  rw [shapeCast_a_1a_apply]
  refine congrArg (v5 (ix2 (0 : Fin 1) d) + ·) ?_
  rw [colsum_apply]
  refine Finset.sum_congr rfl fun k _ => ?_
  rw [pay4_apply]

/-- The running sum of squares: the old value plus the column sum of the block's elementwise square. -/
theorem pay6_apply (v3 : Vec Ideal S1x20000x64 .f32) (v12 : Vec Ideal S1x64 .f32) (d : Fin 64) :
    k0_pay6 v3 v12 (ix2 (0 : Fin 1) d)
      = v12 (ix2 (0 : Fin 1) d) + ∑ k : Fin 20000, v3 (ix3 (0 : Fin 1) k d) * v3 (ix3 (0 : Fin 1) k d) := by
  unfold k0_pay6
  rw [shapeCast_self]
  rw [addf_apply]
  rw [shapeCast_a_1a_apply]
  refine congrArg (v12 (ix2 (0 : Fin 1) d) + ·) ?_
  rw [colsum_apply]
  refine Finset.sum_congr rfl fun k _ => ?_
  rw [mulf_apply, pay4_apply]

/-- The running maximum: `max` of the old value and the column maximum of the block. -/
theorem pay7_apply (v3 : Vec Ideal S1x20000x64 .f32) (v20 : Vec Ideal S1x64 .f32) (d : Fin 64) :
    k0_pay7 v3 v20 (ix2 (0 : Fin 1) d)
      = max (v20 (ix2 (0 : Fin 1) d))
          ((Finset.univ : Finset (Fin 20000)).fold max ⊥ (fun k => v3 (ix3 (0 : Fin 1) k d))) := by
  unfold k0_pay7
  rw [shapeCast_self]
  rw [maximumf_apply]
  rw [shapeCast_a_1a_apply]
  refine congrArg (max (v20 (ix2 (0 : Fin 1) d)) ·) ?_
  rw [colmax_apply]
  refine Finset.fold_congr fun k _ => ?_
  rw [pay4_apply]

/-! ## The final rows: `[1, 64] → [1, 1, 64]`, the position of `(0, 0, d)` is that of `(0, d)` -/

theorem pay8_apply (v : Vec Ideal S1x64 .f32) (d : Fin 64) :
    k0_pay8 v (ix3 (0 : Fin 1) (0 : Fin 1) d) = v (ix2 (0 : Fin 1) d) := by
  unfold k0_pay8
  exact shapeCast_ab_1ab_apply v _ 0 0 d

theorem pay9_apply (v : Vec Ideal S1x64 .f32) (d : Fin 64) :
    k0_pay9 v (ix3 (0 : Fin 1) (0 : Fin 1) d) = v (ix2 (0 : Fin 1) d) := by
  unfold k0_pay9
  exact shapeCast_ab_1ab_apply v _ 0 0 d

theorem pay10_apply (v : Vec Ideal S1x64 .f32) (d : Fin 64) :
    k0_pay10 v (ix3 (0 : Fin 1) (0 : Fin 1) d) = v (ix2 (0 : Fin 1) d) := by
  unfold k0_pay10
  exact shapeCast_ab_1ab_apply v _ 0 0 d

end Cert.KernelIdeal.Hand

end
-- ==== Proof.Spec.lean ====
/- The arithmetic behind a tiled one-pass variance, stated over the extended reals.

   A column of 100000 numbers is read in 5 tiles of 20000. Accumulating the sum (from 0), the sum of
   squares (from 0) and the maximum (from -∞) tile by tile gives the sum, the sum of squares and the
   maximum over the whole column (sum_tiles, max_tiles). For finite entries the one-pass form of the
   unbiased variance, (Q - S*S/N)/(N-1) with Q = Σ x_j^2 and S = Σ x_j, is the two-pass form
   (Σ (x_j - S/N)^2)/(N-1) (var_identity). The float literals the programs spell denote 100000, 99999
   and -∞ (ofBits_1e5, ofBits_99999, ofBits_neg_inf). -/
import Idealize.ShloMosaic.PureOps.Ideal
import Idealize.ShloMosaic.PureOps.Ideal.Laws
import Mathlib.Data.EReal.Basic
import Mathlib.Data.EReal.Operations
import Mathlib.Data.Finset.Fold
import Mathlib.Data.Fintype.BigOperators
import Mathlib.Logic.Equiv.Fin.Basic
import Mathlib.Algebra.BigOperators.Fin
import Mathlib.Algebra.BigOperators.Ring.Finset
import Mathlib.Tactic.Ring
import Mathlib.Tactic.FieldSimp
import Mathlib.Tactic.NormNum

noncomputable section

namespace Cert.Spec

open Idealize.ShloMosaic
open scoped BigOperators

/-- Entry k of tile n is entry 20000*n + k of the column. -/
def tileIdx (n : Fin 5) (k : Fin 20000) : Fin 100000 := ⟨20000 * n.val + k.val, by omega⟩

/-! ### The literals -/

/-- The pattern 0x47C35000 is (2^23 + 4411392) * 2^(143 - 127 - 23) = 12800000 / 128 = 100000. -/
theorem ofBits_1e5 : Ideal.ofBits .f32 0x47C35000#32 = ((100000 : ℝ) : EReal) := by
  simp [Ideal.ofBits, Ideal.ieee, -EReal.coe_mul]; norm_num

/-- The pattern 0x47C34F80 is (2^23 + 4411264) * 2^(143 - 127 - 23) = 12799872 / 128 = 99999. -/
theorem ofBits_99999 : Ideal.ofBits .f32 0x47C34F80#32 = ((99999 : ℝ) : EReal) := by
  simp [Ideal.ofBits, Ideal.ieee, -EReal.coe_mul]; norm_num

/-- Sign bit set, exponent all ones, significand zero: -∞. -/
theorem ofBits_neg_inf : Ideal.ofBits .f32 0xFF800000#32 = (⊥ : EReal) := by
  simp [Ideal.ofBits, Ideal.ieee]

/-- The integer 1, converted, is the extended real 1. -/
theorem sitofp_one : Scalar.sitofp (F := Ideal) .f32 (1#32) = (1 : EReal) := by
  rw [Ideal.scalar_sitofp_def]
  have h : (1#32 : BitVec 32).toInt = 1 := by decide
  rw [h]; norm_num

/-- 100000 - 1 is positive. -/
theorem n1_pos : Ideal.cmp .ogt (((100000 : ℝ) : EReal) - 1) 0 = 1#1 := by
  have h : (0 : EReal) < ((100000 : ℝ) : EReal) - 1 := by
    rw [← EReal.coe_one, ← EReal.coe_sub]
    exact_mod_cast (by norm_num : (0 : ℝ) < 100000 - 1)
  simp [Ideal.cmp, h]

/-! ### Tiles -/

/-- A sum over m*n entries is the sum over m tiles of the sums over each tile's n entries. -/
theorem sum_tiles_gen {M : Type*} [AddCommMonoid M] (m n : ℕ) (f : Fin (m * n) → M) :
    ∑ j, f j = ∑ i : Fin m, ∑ k : Fin n, f (finProdFinEquiv (i, k)) := by
  rw [← Fintype.sum_prod_type']
  exact (Fintype.sum_equiv finProdFinEquiv _ _ (fun _ => rfl)).symm

/-- The tile indexing is the standard pairing of (tile, entry) with an index below 5*20000. -/
theorem tileIdx_eq (n : Fin 5) (k : Fin 20000) :
    tileIdx n k = (finProdFinEquiv (n, k) : Fin (5 * 20000)) := by
  apply Fin.ext
  simp only [tileIdx, finProdFinEquiv_apply_val]
  omega

/-- Accumulating the five tile sums from 0 gives the sum over the column. -/
theorem sum_tiles (f : Fin 100000 → EReal) :
    ((((0 + ∑ k, f (tileIdx 0 k)) + ∑ k, f (tileIdx 1 k)) + ∑ k, f (tileIdx 2 k)) + ∑ k, f (tileIdx 3 k)) + ∑ k, f (tileIdx 4 k) = 0 + ∑ j, f j := by
  have h := sum_tiles_gen 5 20000 (M := EReal) f
  rw [Fin.sum_univ_five] at h
  simp only [← tileIdx_eq] at h
  rw [h]
  simp only [zero_add, add_assoc]

/-- Every entry of the column lies in one of the tiles. -/
theorem exists_tileIdx (j : Fin 100000) : ∃ n k, j = tileIdx n k :=
  ⟨⟨j.val / 20000, by omega⟩, ⟨j.val % 20000, by omega⟩, Fin.ext (by simp only [tileIdx]; omega)⟩

/-- Accumulating the five tile maxima from -∞ gives the maximum over the column. -/
theorem max_tiles (f : Fin 100000 → EReal) :
    max (max (max (max (max ⊥ ((Finset.univ : Finset (Fin 20000)).fold max ⊥ (fun k => f (tileIdx 0 k)))) ((Finset.univ : Finset (Fin 20000)).fold max ⊥ (fun k => f (tileIdx 1 k)))) ((Finset.univ : Finset (Fin 20000)).fold max ⊥ (fun k => f (tileIdx 2 k)))) ((Finset.univ : Finset (Fin 20000)).fold max ⊥ (fun k => f (tileIdx 3 k)))) ((Finset.univ : Finset (Fin 20000)).fold max ⊥ (fun k => f (tileIdx 4 k)))
      = (Finset.univ : Finset (Fin 100000)).fold max ⊥ f := by
  apply le_antisymm
  · -- each tile's maximum is at most the column's
    have hT : ∀ n : Fin 5, (Finset.univ : Finset (Fin 20000)).fold max ⊥ (fun k => f (tileIdx n k))
        ≤ (Finset.univ : Finset (Fin 100000)).fold max ⊥ f := by
      intro n
      rw [Finset.fold_max_le]
      refine ⟨bot_le, fun k _ => ?_⟩
      rw [Finset.le_fold_max]
      exact Or.inr ⟨tileIdx n k, Finset.mem_univ _, le_rfl⟩
    exact max_le (max_le (max_le (max_le (max_le bot_le (hT 0)) (hT 1)) (hT 2)) (hT 3)) (hT 4)
  · -- each entry is at most its tile's maximum
    rw [Finset.fold_max_le]
    refine ⟨bot_le, fun j _ => ?_⟩
    obtain ⟨n, k, rfl⟩ := exists_tileIdx j
    have hk : f (tileIdx n k) ≤ (Finset.univ : Finset (Fin 20000)).fold max ⊥ (fun k => f (tileIdx n k)) := by
      rw [Finset.le_fold_max]
      exact Or.inr ⟨k, Finset.mem_univ _, le_rfl⟩
    refine hk.trans ?_
    have h5 : ∀ n : Fin 5, n = 0 ∨ n = 1 ∨ n = 2 ∨ n = 3 ∨ n = 4 := by decide
    rcases h5 n with rfl | rfl | rfl | rfl | rfl
    · exact le_max_of_le_left (le_max_of_le_left (le_max_of_le_left (le_max_of_le_left (le_max_right _ _))))
    · exact le_max_of_le_left (le_max_of_le_left (le_max_of_le_left (le_max_right _ _)))
    · exact le_max_of_le_left (le_max_of_le_left (le_max_right _ _))
    · exact le_max_of_le_left (le_max_right _ _)
    · exact le_max_right _ _

/-! ### The variance -/

/-- A finite sum of real numbers, read in the extended reals, is the real sum. -/
theorem coe_sum {ι : Type*} (s : Finset ι) (g : ι → ℝ) :
    ∑ j ∈ s, (g j : EReal) = ((∑ j ∈ s, g j : ℝ) : EReal) := by
  classical
  induction s using Finset.induction_on with
  | empty => simp
  | insert a s ha ih => rw [Finset.sum_insert ha, Finset.sum_insert ha, ih, EReal.coe_add]

/-- With S = Σ r_i over a finite index of size N and c = 1/N: Σ (r_j - S c)^2 = Σ r_j^2 - S^2 c.
    Expanding the square, the cross term sums to -2 c S^2 and the constant term to N c^2 S^2 = c S^2. -/
theorem sum_sq_dev {ι : Type*} [Fintype ι] (r : ι → ℝ) (c : ℝ) (hc : (Fintype.card ι : ℝ) * c = 1) :
    ∑ j, (r j - (∑ i, r i) * c) * (r j - (∑ i, r i) * c)
      = ∑ j, r j * r j - (∑ i, r i) * (∑ i, r i) * c := by
  have h1 : ∀ j, (r j - (∑ i, r i) * c) * (r j - (∑ i, r i) * c)
      = r j * r j - (2 * c * ∑ i, r i) * r j + (∑ i, r i) * (∑ i, r i) * c * c := fun j => by ring
  simp only [h1]
  rw [Finset.sum_add_distrib, Finset.sum_sub_distrib, ← Finset.mul_sum, Finset.sum_const,
    Finset.card_univ, nsmul_eq_mul]
  have h2 : (Fintype.card ι : ℝ) * ((∑ i, r i) * (∑ i, r i) * c * c)
      = (∑ i, r i) * (∑ i, r i) * c * ((Fintype.card ι : ℝ) * c) := by ring
  rw [h2, hc]; ring

/-- One-pass and two-pass unbiased variance agree on finite entries: every term is a real number, so
    both sides are coercions of reals, and the real identity is sum_sq_dev with c = 1/100000. -/
theorem var_identity (r : Fin 100000 → ℝ) :
    Ideal.div ((0 + ∑ j, ((r j : EReal) * (r j : EReal))) - Ideal.div ((0 + ∑ j, (r j : EReal)) * (0 + ∑ j, (r j : EReal))) ((100000 : ℝ) : EReal)) ((99999 : ℝ) : EReal)
      = Ideal.div (0 + ∑ j, (((r j : EReal) - Ideal.div (0 + ∑ i, (r i : EReal)) ((100000 : ℝ) : EReal)) * ((r j : EReal) - Ideal.div (0 + ∑ i, (r i : EReal)) ((100000 : ℝ) : EReal)))) (((100000 : ℝ) : EReal) - 1) := by
  have hN : (((100000 : ℝ) : EReal) - 1) = ((99999 : ℝ) : EReal) := by
    rw [← EReal.coe_one, ← EReal.coe_sub]; norm_num
  have h5 : (100000 : ℝ) ≠ 0 := by norm_num
  have h9 : (99999 : ℝ) ≠ 0 := by norm_num
  have hc : (Fintype.card (Fin 100000) : ℝ) * (1 / 100000) = 1 := by
    rw [Fintype.card_fin]; norm_num
  simp only [zero_add, hN, Ideal.div_coe h5, Ideal.div_coe h9, ← EReal.coe_mul, coe_sum,
    ← EReal.coe_sub]
  rw [sum_sq_dev r (1 / 100000) hc]

end Cert.Spec

end
-- ==== Proof.KI.Value.lean ====
/-
  What the three pooled arrays hold after the region, at the ideal values, as functions of the input x : [8, 100000, 64].

  The grid is 8 batch elements by 5 row tiles, walked row-major: point t works on batch element t / 5 and tile t % 5,
  whose block is rows 20000 (t % 5) … 20000 (t % 5) + 19999 of x[t / 5]. Three running rows of 64 values are carried
  from point to point: at tile 0 they restart from 0, 0 and ⊥ and take the tile's column sum, column sum of squares and
  column maximum; at tiles 1 to 4 they take the tile's on top of what they held; at tile 4 the updated rows are copied
  into row t / 5 of the three [8, 1, 64] output arrays, and only those points write back.

    • the pieces: what each case leaves in each running row and output block is the body's payload of the block and of
      what the rows held (one covering store each; at tile 0 the reset is stored and read back first);
    • the block: element (0, k, d) of point t's block is x (t / 5, 20000 (t % 5) + k, d);
    • the invariant (induction on the tile): after point 5 b + r the rows hold, at column d, the sum, sum of squares and
      maximum of tiles 0 … r of column (b, d), accumulated tile by tile from 0, 0, ⊥;
    • five tiles make the column: the tile-by-tile accumulation is the sum from 0 and the maximum from ⊥ over all
      100000 entries, so output array w ends holding, at (b, 0, d), that statistic of column (b, d) (the point 5 b + 4
      is the one whose block holds row b).
  The sums and folds over the 20000 rows of a tile and the 100000 entries of a column stay symbolic throughout.
-/
import proofs.«138509_j5093831213700_1_alg».proof.Proof.KI.Frame
import proofs.«138509_j5093831213700_1_alg».proof.Proof.KI.Pay
import proofs.«138509_j5093831213700_1_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## What each case leaves, as payloads of the block and of what the rows held

Every store of the body goes through the whole buffer (zero offsets, full size), so the contents a list of stores leaves
are the last store's payload, and a load after a store reads that store's payload. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first tile, running row 0 (the running sum): the reset is stored, read back, and the tile's contribution joined to it. -/
theorem soutA_0_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) :
    soutA_0 c i arg2 harg2 arg3 harg3 arg4 harg4 arg5 harg5 arg6 harg6 arg7 harg7 arg8 harg8 hc0 hc1 x0 = k0_pay5 x0 k0_pay1 := by
  unfold soutA_0
  rw [View.read_writes_eq_canon _ _ _ (scoverA_0 c i arg2 harg2 arg3 harg3 arg4 harg4 arg5 harg5 arg6 harg6 arg7 harg7 arg8 harg8 hc0 hc1 x0)]
  unfold kernelRun0_A
  dsimp only
  sl_unfold_words
  rw [View.canon_cons_unit_zero (S := S1x64) hz2, View.readCov_unit_zero (S := S1x64) _ hz2]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

/-- A first tile, running row 1 (the running sum of squares): the reset is stored, read back, and the tile's contribution joined to it. -/
theorem soutA_1_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) :
    soutA_1 c i arg2 harg2 arg3 harg3 arg4 harg4 arg5 harg5 arg6 harg6 arg7 harg7 arg8 harg8 hc0 hc1 x0 = k0_pay6 x0 k0_pay2 := by
  unfold soutA_1
  rw [View.read_writes_eq_canon _ _ _ (scoverA_1 c i arg2 harg2 arg3 harg3 arg4 harg4 arg5 harg5 arg6 harg6 arg7 harg7 arg8 harg8 hc0 hc1 x0)]
  unfold kernelRun0_A
  dsimp only
  sl_unfold_words
  rw [View.canon_cons_unit_zero (S := S1x64) hz2, View.readCov_unit_zero (S := S1x64) _ hz2]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

/-- A first tile, running row 2 (the running maximum): the reset is stored, read back, and the tile's contribution joined to it. -/
theorem soutA_2_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S1x20000x64 .f32) :
    soutA_2 c i arg2 harg2 arg3 harg3 arg4 harg4 arg5 harg5 arg6 harg6 arg7 harg7 arg8 harg8 hc0 hc1 x0 = k0_pay7 x0 k0_pay3 := by
  unfold soutA_2
  rw [View.read_writes_eq_canon _ _ _ (scoverA_2 c i arg2 harg2 arg3 harg3 arg4 harg4 arg5 harg5 arg6 harg6 arg7 harg7 arg8 harg8 hc0 hc1 x0)]
  unfold kernelRun0_A
  dsimp only
  sl_unfold_words
  rw [View.canon_cons_unit_zero (S := S1x64) hz2, View.readCov_unit_zero (S := S1x64) _ hz2]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

/-- A middle tile, running row 0 (the running sum): the tile's contribution joined to what the row held. -/
theorem soutB_0_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) :
    soutB_0 c i arg2 harg2 arg3 harg3 arg4 harg4 arg5 harg5 arg6 harg6 arg7 harg7 arg8 harg8 hc0 hc1 x0 xs0 xs1 xs2 = k0_pay5 x0 xs0 := by
  unfold soutB_0
  rw [View.read_writes_eq_canon _ _ _ (scoverB_0 c i arg2 harg2 arg3 harg3 arg4 harg4 arg5 harg5 arg6 harg6 arg7 harg7 arg8 harg8 hc0 hc1 x0 xs0 xs1 xs2)]
  unfold kernelRun0_B
  dsimp only
  sl_unfold_words
  rw [View.canon_unit_zero hz2]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

/-- A middle tile, running row 1 (the running sum of squares): the tile's contribution joined to what the row held. -/
theorem soutB_1_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) :
    soutB_1 c i arg2 harg2 arg3 harg3 arg4 harg4 arg5 harg5 arg6 harg6 arg7 harg7 arg8 harg8 hc0 hc1 x0 xs0 xs1 xs2 = k0_pay6 x0 xs1 := by
  unfold soutB_1
  rw [View.read_writes_eq_canon _ _ _ (scoverB_1 c i arg2 harg2 arg3 harg3 arg4 harg4 arg5 harg5 arg6 harg6 arg7 harg7 arg8 harg8 hc0 hc1 x0 xs0 xs1 xs2)]
  unfold kernelRun0_B
  dsimp only
  sl_unfold_words
  rw [View.canon_unit_zero hz2]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

/-- A middle tile, running row 2 (the running maximum): the tile's contribution joined to what the row held. -/
theorem soutB_2_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S1x20000x64 .f32) (xs0 xs1 xs2 : Vec F S1x64 .f32) :
    soutB_2 c i arg2 harg2 arg3 harg3 arg4 harg4 arg5 harg5 arg6 harg6 arg7 harg7 arg8 harg8 hc0 hc1 x0 xs0 xs1 xs2 = k0_pay7 x0 xs2 := by
  unfold soutB_2
  rw [View.read_writes_eq_canon _ _ _ (scoverB_2 c i arg2 harg2 arg3 harg3 arg4 harg4 arg5 harg5 arg6 harg6 arg7 harg7 arg8 harg8 hc0 hc1 x0 xs0 xs1 xs2)]
  unfold kernelRun0_B
  dsimp only
  sl_unfold_words
  rw [View.canon_unit_zero hz2]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

/-- A last tile, running row 0 (the running sum): the tile's contribution joined to what the row held. -/
theorem soutC_0_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) :
    soutC_0 c i arg2 harg2 arg3 harg3 arg4 harg4 arg5 harg5 arg6 harg6 arg7 harg7 arg8 harg8 hc0 hc1 x0 xs0 xs1 xs2 = k0_pay5 x0 xs0 := by
  unfold soutC_0
  rw [View.read_writes_eq_canon _ _ _ (scoverC_0 c i arg2 harg2 arg3 harg3 arg4 harg4 arg5 harg5 arg6 harg6 arg7 harg7 arg8 harg8 hc0 hc1 x0 xs0 xs1 xs2)]
  unfold kernelRun0_C
  dsimp only
  sl_unfold_words
  rw [View.canon_unit_zero hz2]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

/-- A last tile, running row 1 (the running sum of squares): the tile's contribution joined to what the row held. -/
theorem soutC_1_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) :
    soutC_1 c i arg2 harg2 arg3 harg3 arg4 harg4 arg5 harg5 arg6 harg6 arg7 harg7 arg8 harg8 hc0 hc1 x0 xs0 xs1 xs2 = k0_pay6 x0 xs1 := by
  unfold soutC_1
  rw [View.read_writes_eq_canon _ _ _ (scoverC_1 c i arg2 harg2 arg3 harg3 arg4 harg4 arg5 harg5 arg6 harg6 arg7 harg7 arg8 harg8 hc0 hc1 x0 xs0 xs1 xs2)]
  unfold kernelRun0_C
  dsimp only
  sl_unfold_words
  rw [View.canon_unit_zero hz2]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

/-- A last tile, running row 2 (the running maximum): the tile's contribution joined to what the row held. -/
theorem soutC_2_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) :
    soutC_2 c i arg2 harg2 arg3 harg3 arg4 harg4 arg5 harg5 arg6 harg6 arg7 harg7 arg8 harg8 hc0 hc1 x0 xs0 xs1 xs2 = k0_pay7 x0 xs2 := by
  unfold soutC_2
  rw [View.read_writes_eq_canon _ _ _ (scoverC_2 c i arg2 harg2 arg3 harg3 arg4 harg4 arg5 harg5 arg6 harg6 arg7 harg7 arg8 harg8 hc0 hc1 x0 xs0 xs1 xs2)]
  unfold kernelRun0_C
  dsimp only
  sl_unfold_words
  rw [View.canon_unit_zero hz2]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

/-- A last tile, output block 1: the updated running sum row, read back and re-laid with a unit axis inserted. -/
theorem outC_1_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) :
    outC_1 c i arg2 harg2 arg3 harg3 arg4 harg4 arg5 harg5 arg6 harg6 arg7 harg7 arg8 harg8 hc0 hc1 x0 xs0 xs1 xs2 = k0_pay8 (k0_pay5 x0 xs0) := by
  unfold outC_1
  rw [View.read_writes_eq_canon _ _ _ (coverC_1 c i arg2 harg2 arg3 harg3 arg4 harg4 arg5 harg5 arg6 harg6 arg7 harg7 arg8 harg8 hc0 hc1 x0 xs0 xs1 xs2)]
  unfold kernelRun0_C
  dsimp only
  sl_unfold_words
  rw [View.canon_unit_zero hz3]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

/-- A last tile, output block 2: the updated running sum of squares row, read back and re-laid with a unit axis inserted. -/
theorem outC_2_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) :
    outC_2 c i arg2 harg2 arg3 harg3 arg4 harg4 arg5 harg5 arg6 harg6 arg7 harg7 arg8 harg8 hc0 hc1 x0 xs0 xs1 xs2 = k0_pay9 (k0_pay6 x0 xs1) := by
  unfold outC_2
  rw [View.read_writes_eq_canon _ _ _ (coverC_2 c i arg2 harg2 arg3 harg3 arg4 harg4 arg5 harg5 arg6 harg6 arg7 harg7 arg8 harg8 hc0 hc1 x0 xs0 xs1 xs2)]
  unfold kernelRun0_C
  dsimp only
  sl_unfold_words
  rw [View.canon_unit_zero hz3]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

/-- A last tile, output block 3: the updated running maximum row, read back and re-laid with a unit axis inserted. -/
theorem outC_3_eq (c : Dev nD) (i : grid0.Coords) (arg2 : Memref sig .tc .vmem S1x20000x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S1x20000x64 .f32) (xs0 xs1 xs2 : Vec F S1x64 .f32) :
    outC_3 c i arg2 harg2 arg3 harg3 arg4 harg4 arg5 harg5 arg6 harg6 arg7 harg7 arg8 harg8 hc0 hc1 x0 xs0 xs1 xs2 = k0_pay10 (k0_pay7 x0 xs2) := by
  unfold outC_3
  rw [View.read_writes_eq_canon _ _ _ (coverC_3 c i arg2 harg2 arg3 harg3 arg4 harg4 arg5 harg5 arg6 harg6 arg7 harg7 arg8 harg8 hc0 hc1 x0 xs0 xs1 xs2)]
  unfold kernelRun0_C
  dsimp only
  sl_unfold_words
  rw [View.canon_unit_zero hz3]
  simp only [View.readCov_unit_zero (S := S1x64) _ hz2, View.readAt_eq_ld, harg2.read_unread, harg6.read_unread, harg7.read_unread, harg8.read_unread, View.ld_unit_zero (S := S1x20000x64) hz3, View.ld_unit_zero (S := S1x64) hz2]

end Pieces

/-! ## The input block read off the input array -/

variable (m : (ℓ : Loc nD τ sig) → Buf (Elt Ideal) ℓ)

/-- The input array as the region finds it. -/
abbrev X (c : Dev nD) : FVec Ideal S8x100000x64 .f32 := m ((c : Thread nD τ).loc main_arg0)

/-- The input window's block at point t. -/
abbrev xblk (c : Dev nD) (t : Fin cfg0.N) : Vec Ideal S1x20000x64 .f32 := iblk m c 0 t

theorem idx_facts0 : ∀ t : Fin cfg0.N, win0_0.index t 0 = t.val / 5 ∧ win0_0.index t 1 = t.val % 5 ∧ win0_0.index t 2 = 0 :=
  (by decide +kernel : ∀ t : Fin grid0.N, win0_0.index t 0 = t.val / 5 ∧ win0_0.index t 1 = t.val % 5 ∧ win0_0.index t 2 = 0)

theorem N40 : cfg0.N = 40 := N_0

theorem t_lt (t : Fin cfg0.N) : t.val < 40 := lt_of_lt_of_eq t.isLt N40

theorem tdiv_lt (t : Fin cfg0.N) : t.val / 5 < 8 := by have := t_lt t; omega

theorem xblk_apply (c : Dev nD) (t : Fin cfg0.N) (k : Fin 20000) (d : Fin 64) :
    xblk m c t (ix3 (0 : Fin 1) k d)
      = X m c (ix3 (⟨t.val / 5, tdiv_lt t⟩ : Fin 8)
          (Cert.Spec.tileIdx ⟨t.val % 5, Nat.mod_lt _ (by decide)⟩ k) d) := by
  obtain ⟨h0, h1, h2⟩ := idx_facts0 t
  show V m c main_arg0 (((cfg0.win 0).blk t).view.emb (ix3 (0 : Fin 1) k d)) = V m c main_arg0 _
  refine congrArg (V m c main_arg0) ?_
  funext a
  refine Fin.ext ?_
  match a with
  | ⟨0, _⟩ =>
    show win0_0.index t 0 * 1 + 1 * 0 = t.val / 5
    rw [h0]; omega
  | ⟨1, _⟩ =>
    show win0_0.index t 1 * 20000 + 1 * k.val = 20000 * (t.val % 5) + k.val
    rw [h1]; omega
  | ⟨2, _⟩ =>
    show win0_0.index t 2 * 64 + 1 * d.val = d.val
    rw [h2]; omega

/-! ## What a point leaves in the running rows, at column d -/

theorem scA_apply (c : Dev nD) (t : Fin cfg0.N) (h0 : t.val % 5 = 0) (h1 : ¬t.val % 5 = 4) (d : Fin 64) :
    (scA m c t h0 h1).1 (ix2 (0 : Fin 1) d) = 0 + ∑ k : Fin 20000, xblk m c t (ix3 (0 : Fin 1) k d)
    ∧ (scA m c t h0 h1).2.1 (ix2 (0 : Fin 1) d)
        = 0 + ∑ k : Fin 20000, xblk m c t (ix3 (0 : Fin 1) k d) * xblk m c t (ix3 (0 : Fin 1) k d)
    ∧ (scA m c t h0 h1).2.2 (ix2 (0 : Fin 1) d)
        = max (⊥) ((Finset.univ : Finset (Fin 20000)).fold max ⊥ (fun k => xblk m c t (ix3 (0 : Fin 1) k d))) := by
  unfold scA
  dsimp only
  rw [soutA_0_eq, soutA_1_eq, soutA_2_eq]
  rw [pay5_apply, pay6_apply, pay7_apply, pay1_apply, pay2_apply, pay3_apply]
  exact ⟨rfl, rfl, rfl⟩

theorem scB_apply (c : Dev nD) (t : Fin cfg0.N) (h0 : ¬t.val % 5 = 0) (h1 : ¬t.val % 5 = 4) (xs : Vec Ideal S1x64 .f32 × Vec Ideal S1x64 .f32 × Vec Ideal S1x64 .f32) (d : Fin 64) :
    (scB m c t h0 h1 xs).1 (ix2 (0 : Fin 1) d) = xs.1 (ix2 (0 : Fin 1) d) + ∑ k : Fin 20000, xblk m c t (ix3 (0 : Fin 1) k d)
    ∧ (scB m c t h0 h1 xs).2.1 (ix2 (0 : Fin 1) d)
        = xs.2.1 (ix2 (0 : Fin 1) d) + ∑ k : Fin 20000, xblk m c t (ix3 (0 : Fin 1) k d) * xblk m c t (ix3 (0 : Fin 1) k d)
    ∧ (scB m c t h0 h1 xs).2.2 (ix2 (0 : Fin 1) d)
        = max (xs.2.2 (ix2 (0 : Fin 1) d)) ((Finset.univ : Finset (Fin 20000)).fold max ⊥ (fun k => xblk m c t (ix3 (0 : Fin 1) k d))) := by
  unfold scB
  dsimp only
  rw [soutB_0_eq, soutB_1_eq, soutB_2_eq]
  rw [pay5_apply, pay6_apply, pay7_apply]
  exact ⟨rfl, rfl, rfl⟩

theorem scC_apply (c : Dev nD) (t : Fin cfg0.N) (h0 : ¬t.val % 5 = 0) (h1 : t.val % 5 = 4) (xs : Vec Ideal S1x64 .f32 × Vec Ideal S1x64 .f32 × Vec Ideal S1x64 .f32) (d : Fin 64) :
    (scC m c t h0 h1 xs).1 (ix2 (0 : Fin 1) d) = xs.1 (ix2 (0 : Fin 1) d) + ∑ k : Fin 20000, xblk m c t (ix3 (0 : Fin 1) k d)
    ∧ (scC m c t h0 h1 xs).2.1 (ix2 (0 : Fin 1) d)
        = xs.2.1 (ix2 (0 : Fin 1) d) + ∑ k : Fin 20000, xblk m c t (ix3 (0 : Fin 1) k d) * xblk m c t (ix3 (0 : Fin 1) k d)
    ∧ (scC m c t h0 h1 xs).2.2 (ix2 (0 : Fin 1) d)
        = max (xs.2.2 (ix2 (0 : Fin 1) d)) ((Finset.univ : Finset (Fin 20000)).fold max ⊥ (fun k => xblk m c t (ix3 (0 : Fin 1) k d))) := by
  unfold scC
  dsimp only
  rw [soutC_0_eq, soutC_1_eq, soutC_2_eq]
  rw [pay5_apply, pay6_apply, pay7_apply]
  exact ⟨rfl, rfl, rfl⟩

/-! ## The accumulation over a batch element's tiles -/

/-- Column (b, d) of the input: 100000 entries. -/
abbrev col (c : Dev nD) (b : Fin 8) (d : Fin 64) : Fin 100000 → EReal := fun j => X m c (ix3 b j d)

/-- Entry k of tile number r (taken modulo 5, so that the tile number may be any natural). -/
def tIdx (r : ℕ) (k : Fin 20000) : Fin 100000 := Cert.Spec.tileIdx ⟨r % 5, Nat.mod_lt _ (by decide)⟩ k

/-- The running sum of a column after tile r: from 0, one tile's sum added at a time. -/
def psum (f : Fin 100000 → EReal) : ℕ → EReal
  | 0 => 0 + ∑ k : Fin 20000, f (tIdx 0 k)
  | r + 1 => psum f r + ∑ k : Fin 20000, f (tIdx (r + 1) k)

/-- The running maximum of a column after tile r: from ⊥, one tile's maximum joined at a time. -/
def pmax (f : Fin 100000 → EReal) : ℕ → EReal
  | 0 => max ⊥ ((Finset.univ : Finset (Fin 20000)).fold max ⊥ (fun k => f (tIdx 0 k)))
  | r + 1 => max (pmax f r) ((Finset.univ : Finset (Fin 20000)).fold max ⊥ (fun k => f (tIdx (r + 1) k)))

/-- The block of point 5b + r, read at (0, k, d), is entry k of tile r of column (b, d). -/
theorem xblk_at (c : Dev nD) (b : Fin 8) (r : ℕ) (hr : r < 5) (hn : 5 * b.val + r < cfg0.N) (k : Fin 20000) (d : Fin 64) :
    xblk m c ⟨5 * b.val + r, hn⟩ (ix3 (0 : Fin 1) k d) = col m c b d (tIdx r k) := by
  rw [xblk_apply]
  have hb : (⟨(⟨5 * b.val + r, hn⟩ : Fin cfg0.N).val / 5, tdiv_lt _⟩ : Fin 8) = b := Fin.ext (by
    show (5 * b.val + r) / 5 = b.val
    omega)
  have hj : Cert.Spec.tileIdx ⟨(⟨5 * b.val + r, hn⟩ : Fin cfg0.N).val % 5, Nat.mod_lt _ (by decide)⟩ k = tIdx r k := Fin.ext (by
    show 20000 * ((5 * b.val + r) % 5) + k.val = 20000 * (r % 5) + k.val
    omega)
  rw [hb, hj]

/-- THE INVARIANT: after the point 5b + r the three running rows hold, at column d, the running sum, the running sum
    of squares and the running maximum of column (b, d) after tile r. By induction on the tile. -/
theorem sc_inv (c : Dev nD) (b : Fin 8) (d : Fin 64) : ∀ (r : ℕ) (hr : r < 5) (hn : 5 * b.val + r < cfg0.N),
    (scAt0 m c (5 * b.val + r) hn).1 (ix2 (0 : Fin 1) d) = psum (col m c b d) r
    ∧ (scAt0 m c (5 * b.val + r) hn).2.1 (ix2 (0 : Fin 1) d) = psum (fun j => col m c b d j * col m c b d j) r
    ∧ (scAt0 m c (5 * b.val + r) hn).2.2 (ix2 (0 : Fin 1) d) = pmax (col m c b d) r
  | 0, hr, hn => by
    have h0 : (⟨5 * b.val + 0, hn⟩ : Fin cfg0.N).val % 5 = 0 := by show (5 * b.val + 0) % 5 = 0; omega
    have h1 : ¬(⟨5 * b.val + 0, hn⟩ : Fin cfg0.N).val % 5 = 4 := by show ¬(5 * b.val + 0) % 5 = 4; omega
    rw [show scAt0 m c (5 * b.val + 0) hn = scA m c ⟨5 * b.val + 0, hn⟩ h0 h1 from scAt0_A m c ⟨5 * b.val + 0, hn⟩ h0 h1]
    obtain ⟨a0, a1, a2⟩ := scA_apply m c ⟨5 * b.val + 0, hn⟩ h0 h1 d
    rw [a0, a1, a2]
    refine ⟨?_, ?_, ?_⟩
    · exact congrArg (0 + ·) (Finset.sum_congr rfl fun k _ => xblk_at m c b 0 hr hn k d)
    · exact congrArg (0 + ·) (Finset.sum_congr rfl fun k _ => by rw [xblk_at m c b 0 hr hn k d])
    · exact congrArg (max ⊥ ·) (Finset.fold_congr fun k _ => xblk_at m c b 0 hr hn k d)
  | r + 1, hr, hn => by
    have hr' : r < 5 := Nat.lt_of_succ_lt hr
    have hn' : 5 * b.val + r < cfg0.N := Nat.lt_of_succ_lt hn
    obtain ⟨i0, i1, i2⟩ := sc_inv c b d r hr' hn'
    have h0 : ¬(⟨5 * b.val + (r + 1), hn⟩ : Fin cfg0.N).val % 5 = 0 := by show ¬(5 * b.val + (r + 1)) % 5 = 0; omega
    have ep : scPrev m c ⟨5 * b.val + (r + 1), hn⟩ = scAt0 m c (5 * b.val + r) hn' := rfl
    by_cases h1 : (⟨5 * b.val + (r + 1), hn⟩ : Fin cfg0.N).val % 5 = 4
    · rw [show scAt0 m c (5 * b.val + (r + 1)) hn = scC m c ⟨5 * b.val + (r + 1), hn⟩ h0 h1 (scPrev m c ⟨5 * b.val + (r + 1), hn⟩)
        from scAt0_C m c ⟨5 * b.val + (r + 1), hn⟩ h0 h1, ep]
      obtain ⟨a0, a1, a2⟩ := scC_apply m c ⟨5 * b.val + (r + 1), hn⟩ h0 h1 (scAt0 m c (5 * b.val + r) hn') d
      rw [a0, a1, a2, i0, i1, i2]
      refine ⟨?_, ?_, ?_⟩
      · exact congrArg (psum (col m c b d) r + ·) (Finset.sum_congr rfl fun k _ => xblk_at m c b (r + 1) hr hn k d)
      · exact congrArg (psum (fun j => col m c b d j * col m c b d j) r + ·)
          (Finset.sum_congr rfl fun k _ => by rw [xblk_at m c b (r + 1) hr hn k d])
      · exact congrArg (max (pmax (col m c b d) r) ·) (Finset.fold_congr fun k _ => xblk_at m c b (r + 1) hr hn k d)
    · rw [show scAt0 m c (5 * b.val + (r + 1)) hn = scB m c ⟨5 * b.val + (r + 1), hn⟩ h0 h1 (scPrev m c ⟨5 * b.val + (r + 1), hn⟩)
        from scAt0_B m c ⟨5 * b.val + (r + 1), hn⟩ h0 h1, ep]
      obtain ⟨a0, a1, a2⟩ := scB_apply m c ⟨5 * b.val + (r + 1), hn⟩ h0 h1 (scAt0 m c (5 * b.val + r) hn') d
      rw [a0, a1, a2, i0, i1, i2]
      refine ⟨?_, ?_, ?_⟩
      · exact congrArg (psum (col m c b d) r + ·) (Finset.sum_congr rfl fun k _ => xblk_at m c b (r + 1) hr hn k d)
      · exact congrArg (psum (fun j => col m c b d j * col m c b d j) r + ·)
          (Finset.sum_congr rfl fun k _ => by rw [xblk_at m c b (r + 1) hr hn k d])
      · exact congrArg (max (pmax (col m c b d) r) ·) (Finset.fold_congr fun k _ => xblk_at m c b (r + 1) hr hn k d)

/-! ## After the last tile -/

/-- Five tiles' running sum is the column's sum from 0. -/
theorem psum_four (f : Fin 100000 → EReal) : psum f 4 = 0 + ∑ j, f j := Cert.Spec.sum_tiles f

/-- Five tiles' running maximum is the column's maximum from ⊥. -/
theorem pmax_four (f : Fin 100000 → EReal) : pmax f 4 = (Finset.univ : Finset (Fin 100000)).fold max ⊥ f := Cert.Spec.max_tiles f

/-- What the last tile of batch element b copies into the three output blocks, at (0, 0, d): the sum, the sum of
    squares and the maximum of column (b, d). -/
theorem out_at (c : Dev nD) (b : Fin 8) (hn : 5 * b.val + 4 < cfg0.N) (d : Fin 64)
    (h0 : ¬(⟨5 * b.val + 4, hn⟩ : Fin cfg0.N).val % 5 = 0) (h1 : (⟨5 * b.val + 4, hn⟩ : Fin cfg0.N).val % 5 = 4) :
    (outC m c ⟨5 * b.val + 4, hn⟩ h0 h1 (scPrev m c ⟨5 * b.val + 4, hn⟩)).1 (ix3 (0 : Fin 1) (0 : Fin 1) d)
        = 0 + ∑ j : Fin 100000, col m c b d j
    ∧ (outC m c ⟨5 * b.val + 4, hn⟩ h0 h1 (scPrev m c ⟨5 * b.val + 4, hn⟩)).2.1 (ix3 (0 : Fin 1) (0 : Fin 1) d)
        = 0 + ∑ j : Fin 100000, col m c b d j * col m c b d j
    ∧ (outC m c ⟨5 * b.val + 4, hn⟩ h0 h1 (scPrev m c ⟨5 * b.val + 4, hn⟩)).2.2 (ix3 (0 : Fin 1) (0 : Fin 1) d)
        = (Finset.univ : Finset (Fin 100000)).fold max ⊥ (col m c b d) := by
  have hn' : 5 * b.val + 3 < cfg0.N := Nat.lt_of_succ_lt hn
  have ep : scPrev m c ⟨5 * b.val + 4, hn⟩ = scAt0 m c (5 * b.val + 3) hn' := rfl
  obtain ⟨i0, i1, i2⟩ := sc_inv m c b d 3 (by decide) hn'
  unfold outC
  dsimp only
  rw [outC_1_eq, outC_2_eq, outC_3_eq, pay8_apply, pay9_apply, pay10_apply, pay5_apply, pay6_apply, pay7_apply, ep, i0, i1, i2]
  refine ⟨?_, ?_, ?_⟩
  · exact (congrArg (psum (col m c b d) 3 + ·) (Finset.sum_congr rfl fun k _ => xblk_at m c b 4 (by decide) hn k d)).trans
      (psum_four (col m c b d))
  · exact (congrArg (psum (fun j => col m c b d j * col m c b d j) 3 + ·)
      (Finset.sum_congr rfl fun k _ => congrArg₂ (· * ·) (xblk_at m c b 4 (by decide) hn k d) (xblk_at m c b 4 (by decide) hn k d))).trans
      (psum_four (fun j => col m c b d j * col m c b d j))
  · exact (congrArg (max (pmax (col m c b d) 3) ·) (Finset.fold_congr fun k _ => xblk_at m c b 4 (by decide) hn k d)).trans
      (pmax_four (col m c b d))

/-! ## The three output arrays -/

/-- The output windows' block index at point t is (t / 5, 0, 0): decided over the grid. -/
theorem out_facts1 : ∀ t : Fin cfg0.N, win0_1.index t 0 = t.val / 5 ∧ win0_1.index t 1 = 0 ∧ win0_1.index t 2 = 0 :=
  (by decide +kernel : ∀ t : Fin grid0.N, win0_1.index t 0 = t.val / 5 ∧ win0_1.index t 1 = 0 ∧ win0_1.index t 2 = 0)
theorem out_facts2 : ∀ t : Fin cfg0.N, win0_2.index t 0 = t.val / 5 ∧ win0_2.index t 1 = 0 ∧ win0_2.index t 2 = 0 :=
  (by decide +kernel : ∀ t : Fin grid0.N, win0_2.index t 0 = t.val / 5 ∧ win0_2.index t 1 = 0 ∧ win0_2.index t 2 = 0)
theorem out_facts3 : ∀ t : Fin cfg0.N, win0_3.index t 0 = t.val / 5 ∧ win0_3.index t 1 = 0 ∧ win0_3.index t 2 = 0 :=
  (by decide +kernel : ∀ t : Fin grid0.N, win0_3.index t 0 = t.val / 5 ∧ win0_3.index t 1 = 0 ∧ win0_3.index t 2 = 0)

/-- A column's sum from 0, and its maximum from ⊥, as opaque constants: a whole-array function built from them is
    compared by name and never evaluated over the 100000 entries. -/
def colSum (f : Fin 100000 → EReal) : EReal := 0 + ∑ j : Fin 100000, f j
def colMax (f : Fin 100000 → EReal) : EReal := (Finset.univ : Finset (Fin 100000)).fold max (⊥ : EReal) f
theorem colSum_def (f : Fin 100000 → EReal) : colSum f = 0 + ∑ j : Fin 100000, f j := rfl
theorem colMax_def (f : Fin 100000 → EReal) : colMax f = (Finset.univ : Finset (Fin 100000)).fold max (⊥ : EReal) f := rfl
attribute [irreducible] colSum colMax

/-- The column sums: what output array 1 ends holding. -/
def Gsum (c : Dev nD) : Buf (Elt Ideal) ((c : Thread nD τ).loc main_v0_0) :=
  fun i => colSum (fun j => X m c (ix3 (i 0) j (i 2)))

theorem Gsum_at (c : Dev nD) (b : Fin 8) (d : Fin 64) :
    Gsum m c (ix3 b (0 : Fin 1) d) = 0 + ∑ j : Fin 100000, X m c (ix3 b j d) :=
  colSum_def _

/-- The block of a last tile's point, read at (0, 0, d), sits at (b, 0, d) of output array 1. -/
theorem emb1_at (b : Fin 8) (hn : 5 * b.val + 4 < cfg0.N) (d : Fin 64) :
    ((cfg0.win 1).blk ⟨5 * b.val + 4, hn⟩).view.emb (ix3 (0 : Fin 1) (0 : Fin 1) d) = ix3 b (0 : Fin 1) d := by
  obtain ⟨e0, e1, e2⟩ := out_facts1 ⟨5 * b.val + 4, hn⟩
  funext a
  refine Fin.ext ?_
  match a with
  | ⟨0, _⟩ =>
    show win0_1.index ⟨5 * b.val + 4, hn⟩ 0 * 1 + 1 * 0 = b.val
    rw [e0]; show (5 * b.val + 4) / 5 * 1 + 1 * 0 = b.val; omega
  | ⟨1, _⟩ =>
    show win0_1.index ⟨5 * b.val + 4, hn⟩ 1 * 1 + 1 * 0 = 0
    rw [e1]
  | ⟨2, _⟩ =>
    show win0_1.index ⟨5 * b.val + 4, hn⟩ 2 * 64 + 1 * d.val = d.val
    rw [e2]; omega

/-- What a flushing point writes back to output array 1 is its block of Gsum. -/
theorem flushed1_eq (c : Dev nD) (t : Fin cfg0.N) (hf : (cfg0.win 1).flush t = true) :
    (dats m 0 c).flushed 1 t = ((cfg0.win 1).blk t).view.read (Elt Ideal) (Gsum m c) := by
  have h1 : t.val % 5 = 4 := (flush0_1 t).mp hf
  have h0 : ¬t.val % 5 = 0 := by omega
  obtain ⟨b, hn, rfl⟩ : ∃ (b : Fin 8) (hn : 5 * b.val + 4 < cfg0.N), t = ⟨5 * b.val + 4, hn⟩ :=
    ⟨⟨t.val / 5, tdiv_lt t⟩, by (show 5 * (t.val / 5) + 4 < cfg0.N; have := t.isLt; omega),
      Fin.ext (by show t.val = 5 * (t.val / 5) + 4; omega)⟩
  show (cfg0.win 1).cut (grid0.coords ⟨5 * b.val + 4, hn⟩) ((dats m 0 c).after 1 ⟨5 * b.val + 4, hn⟩) = _
  rw [after0_1, outAt0_C m c ⟨5 * b.val + 4, hn⟩ h0 h1]
  funext y
  obtain ⟨d, rfl⟩ := idx_S1x1x64 y
  refine Eq.trans ?_ (View.read_apply _ _).symm
  rw [emb1_at b hn d, Gsum_at]
  refine Eq.trans ?_ (cast_eq _ _).symm
  exact (out_at m c b hn d h0 h1).1

/-- OUTPUT ARRAY 1 after the region, at (b, 0, d). -/
theorem final_sum (c : Dev nD) (b : Fin 8) (d : Fin 64) :
    (dats m 0 c).arrAt 1 cfg0.N (ix3 b (0 : Fin 1) d) = 0 + ∑ j : Fin 100000, X m c (ix3 b j d) := by
  have hn : 5 * b.val + 4 < cfg0.N := by rw [N40]; omega
  have hf : (cfg0.win 1).flush ⟨5 * b.val + 4, hn⟩ = true := (flush0_1 _).mpr (by show (5 * b.val + 4) % 5 = 4; omega)
  have hmem : ix3 b (0 : Fin 1) d ∈ ((cfg0.win 1).blk ⟨5 * b.val + 4, hn⟩).view.set := by
    rw [← emb1_at b hn d]
    exact ((cfg0.win 1).blk ⟨5 * b.val + 4, hn⟩).view.emb_mem_set _
  exact ((dats m 0 c).arrAt_apply_of_mem 1 (Gsum m c) (flushed1_eq m c) cfg0.N ⟨5 * b.val + 4, hn⟩ (ix3 b (0 : Fin 1) d)
    hn hf hmem).trans (Gsum_at m c b d)

/-- The column sums of squares: what output array 2 ends holding. -/
def Gsq (c : Dev nD) : Buf (Elt Ideal) ((c : Thread nD τ).loc main_v0_1) :=
  fun i => colSum (fun j => X m c (ix3 (i 0) j (i 2)) * X m c (ix3 (i 0) j (i 2)))

theorem Gsq_at (c : Dev nD) (b : Fin 8) (d : Fin 64) :
    Gsq m c (ix3 b (0 : Fin 1) d) = 0 + ∑ j : Fin 100000, X m c (ix3 b j d) * X m c (ix3 b j d) :=
  colSum_def _

/-- The block of a last tile's point, read at (0, 0, d), sits at (b, 0, d) of output array 2. -/
theorem emb2_at (b : Fin 8) (hn : 5 * b.val + 4 < cfg0.N) (d : Fin 64) :
    ((cfg0.win 2).blk ⟨5 * b.val + 4, hn⟩).view.emb (ix3 (0 : Fin 1) (0 : Fin 1) d) = ix3 b (0 : Fin 1) d := by
  obtain ⟨e0, e1, e2⟩ := out_facts2 ⟨5 * b.val + 4, hn⟩
  funext a
  refine Fin.ext ?_
  match a with
  | ⟨0, _⟩ =>
    show win0_2.index ⟨5 * b.val + 4, hn⟩ 0 * 1 + 1 * 0 = b.val
    rw [e0]; show (5 * b.val + 4) / 5 * 1 + 1 * 0 = b.val; omega
  | ⟨1, _⟩ =>
    show win0_2.index ⟨5 * b.val + 4, hn⟩ 1 * 1 + 1 * 0 = 0
    rw [e1]
  | ⟨2, _⟩ =>
    show win0_2.index ⟨5 * b.val + 4, hn⟩ 2 * 64 + 1 * d.val = d.val
    rw [e2]; omega

/-- What a flushing point writes back to output array 2 is its block of Gsq. -/
theorem flushed2_eq (c : Dev nD) (t : Fin cfg0.N) (hf : (cfg0.win 2).flush t = true) :
    (dats m 0 c).flushed 2 t = ((cfg0.win 2).blk t).view.read (Elt Ideal) (Gsq m c) := by
  have h1 : t.val % 5 = 4 := (flush0_2 t).mp hf
  have h0 : ¬t.val % 5 = 0 := by omega
  obtain ⟨b, hn, rfl⟩ : ∃ (b : Fin 8) (hn : 5 * b.val + 4 < cfg0.N), t = ⟨5 * b.val + 4, hn⟩ :=
    ⟨⟨t.val / 5, tdiv_lt t⟩, by (show 5 * (t.val / 5) + 4 < cfg0.N; have := t.isLt; omega),
      Fin.ext (by show t.val = 5 * (t.val / 5) + 4; omega)⟩
  show (cfg0.win 2).cut (grid0.coords ⟨5 * b.val + 4, hn⟩) ((dats m 0 c).after 2 ⟨5 * b.val + 4, hn⟩) = _
  rw [after0_2, outAt0_C m c ⟨5 * b.val + 4, hn⟩ h0 h1]
  funext y
  obtain ⟨d, rfl⟩ := idx_S1x1x64 y
  refine Eq.trans ?_ (View.read_apply _ _).symm
  rw [emb2_at b hn d, Gsq_at]
  refine Eq.trans ?_ (cast_eq _ _).symm
  exact (out_at m c b hn d h0 h1).2.1

/-- OUTPUT ARRAY 2 after the region, at (b, 0, d). -/
theorem final_sumsq (c : Dev nD) (b : Fin 8) (d : Fin 64) :
    (dats m 0 c).arrAt 2 cfg0.N (ix3 b (0 : Fin 1) d) = 0 + ∑ j : Fin 100000, X m c (ix3 b j d) * X m c (ix3 b j d) := by
  have hn : 5 * b.val + 4 < cfg0.N := by rw [N40]; omega
  have hf : (cfg0.win 2).flush ⟨5 * b.val + 4, hn⟩ = true := (flush0_2 _).mpr (by show (5 * b.val + 4) % 5 = 4; omega)
  have hmem : ix3 b (0 : Fin 1) d ∈ ((cfg0.win 2).blk ⟨5 * b.val + 4, hn⟩).view.set := by
    rw [← emb2_at b hn d]
    exact ((cfg0.win 2).blk ⟨5 * b.val + 4, hn⟩).view.emb_mem_set _
  exact ((dats m 0 c).arrAt_apply_of_mem 2 (Gsq m c) (flushed2_eq m c) cfg0.N ⟨5 * b.val + 4, hn⟩ (ix3 b (0 : Fin 1) d)
    hn hf hmem).trans (Gsq_at m c b d)

/-- The column maxima: what output array 3 ends holding. -/
def Gmax (c : Dev nD) : Buf (Elt Ideal) ((c : Thread nD τ).loc main_v0_2) :=
  fun i => colMax (fun j => X m c (ix3 (i 0) j (i 2)))

theorem Gmax_at (c : Dev nD) (b : Fin 8) (d : Fin 64) :
    Gmax m c (ix3 b (0 : Fin 1) d) = (Finset.univ : Finset (Fin 100000)).fold max (⊥ : EReal) (fun j => X m c (ix3 b j d)) :=
  colMax_def _

/-- The block of a last tile's point, read at (0, 0, d), sits at (b, 0, d) of output array 3. -/
theorem emb3_at (b : Fin 8) (hn : 5 * b.val + 4 < cfg0.N) (d : Fin 64) :
    ((cfg0.win 3).blk ⟨5 * b.val + 4, hn⟩).view.emb (ix3 (0 : Fin 1) (0 : Fin 1) d) = ix3 b (0 : Fin 1) d := by
  obtain ⟨e0, e1, e2⟩ := out_facts3 ⟨5 * b.val + 4, hn⟩
  funext a
  refine Fin.ext ?_
  match a with
  | ⟨0, _⟩ =>
    show win0_3.index ⟨5 * b.val + 4, hn⟩ 0 * 1 + 1 * 0 = b.val
    rw [e0]; show (5 * b.val + 4) / 5 * 1 + 1 * 0 = b.val; omega
  | ⟨1, _⟩ =>
    show win0_3.index ⟨5 * b.val + 4, hn⟩ 1 * 1 + 1 * 0 = 0
    rw [e1]
  | ⟨2, _⟩ =>
    show win0_3.index ⟨5 * b.val + 4, hn⟩ 2 * 64 + 1 * d.val = d.val
    rw [e2]; omega

/-- What a flushing point writes back to output array 3 is its block of Gmax. -/
theorem flushed3_eq (c : Dev nD) (t : Fin cfg0.N) (hf : (cfg0.win 3).flush t = true) :
    (dats m 0 c).flushed 3 t = ((cfg0.win 3).blk t).view.read (Elt Ideal) (Gmax m c) := by
  have h1 : t.val % 5 = 4 := (flush0_3 t).mp hf
  have h0 : ¬t.val % 5 = 0 := by omega
  obtain ⟨b, hn, rfl⟩ : ∃ (b : Fin 8) (hn : 5 * b.val + 4 < cfg0.N), t = ⟨5 * b.val + 4, hn⟩ :=
    ⟨⟨t.val / 5, tdiv_lt t⟩, by (show 5 * (t.val / 5) + 4 < cfg0.N; have := t.isLt; omega),
      Fin.ext (by show t.val = 5 * (t.val / 5) + 4; omega)⟩
  show (cfg0.win 3).cut (grid0.coords ⟨5 * b.val + 4, hn⟩) ((dats m 0 c).after 3 ⟨5 * b.val + 4, hn⟩) = _
  rw [after0_3, outAt0_C m c ⟨5 * b.val + 4, hn⟩ h0 h1]
  funext y
  obtain ⟨d, rfl⟩ := idx_S1x1x64 y
  refine Eq.trans ?_ (View.read_apply _ _).symm
  rw [emb3_at b hn d, Gmax_at]
  refine Eq.trans ?_ (cast_eq _ _).symm
  exact (out_at m c b hn d h0 h1).2.2

/-- OUTPUT ARRAY 3 after the region, at (b, 0, d). -/
theorem final_max (c : Dev nD) (b : Fin 8) (d : Fin 64) :
    (dats m 0 c).arrAt 3 cfg0.N (ix3 b (0 : Fin 1) d) = (Finset.univ : Finset (Fin 100000)).fold max (⊥ : EReal) (fun j => X m c (ix3 b j d)) := by
  have hn : 5 * b.val + 4 < cfg0.N := by rw [N40]; omega
  have hf : (cfg0.win 3).flush ⟨5 * b.val + 4, hn⟩ = true := (flush0_3 _).mpr (by show (5 * b.val + 4) % 5 = 4; omega)
  have hmem : ix3 b (0 : Fin 1) d ∈ ((cfg0.win 3).blk ⟨5 * b.val + 4, hn⟩).view.set := by
    rw [← emb3_at b hn d]
    exact ((cfg0.win 3).blk ⟨5 * b.val + 4, hn⟩).view.emb_mem_set _
  exact ((dats m 0 c).arrAt_apply_of_mem 3 (Gmax m c) (flushed3_eq m c) cfg0.N ⟨5 * b.val + 4, hn⟩ (ix3 b (0 : Fin 1) d)
    hn hf hmem).trans (Gmax_at m c b d)

end Cert.KernelIdeal.Hand

end
-- ==== Proof.Ref.Stats.lean ====
/-
  The three pooled statistics as the reference forms them from the input x (8 by 100000 by 64), reducing over the
  100000 rows: the mean, the maximum, and the unbiased standard deviation sqrt (sum of squared deviations from the mean
  divided by 100000 - 1), the quotient guarded by "100000 - 1 is positive".
-/
import proofs.«138509_j5093831213700_1_alg».proof.ReferenceIdeal
import proofs.«138509_j5093831213700_1_alg».proof.Proof.Gen.ReferenceIdeal

noncomputable section

namespace Cert.ReferenceIdeal.Hand

open Idealize.ShloMosaic Cert.ReferenceIdeal
open Cert.ReferenceIdeal.Facts₀ Cert.ReferenceIdeal.Facts

variable {F : FTy → Type} [FloatOps F]

/-- The column sums over the rows, from zero. -/
def rSum (x : FVec F S8x100000x64 .f32) : FVec F S8x64 .f32 :=
  Host.reduceAdd x (constant S_ .f32 0x00000000#32) reducesTo_S8x100000x64_S8x64_d1 h_S_

/-- The column means. -/
def rMean (x : FVec F S8x100000x64 .f32) : FVec F S8x64 .f32 :=
  Host.divf (rSum x) (broadcastInDim S8x64 ![] bcast_S_S8x64 (constant S_ .f32 0x47C35000#32))

/-- The column maxima over the rows, from minus infinity. -/
def rMax (x : FVec F S8x100000x64 .f32) : FVec F S8x64 .f32 :=
  Host.reduce FloatOps.maximumf x (constant S_ .f32 0xFF800000#32) reducesTo_S8x100000x64_S8x64_d1 h_S_

/-- The row count less one, as the program computes it. -/
def rN1 : FVec F S_ .f32 :=
  subf (constant S_ .f32 0x47C35000#32) (sitofp .f32 (constantI S_ 32 1#32))

/-- The deviations from the column mean. -/
def rDev (x : FVec F S8x100000x64 .f32) : FVec F S8x100000x64 .f32 :=
  subf x (broadcastInDim S8x100000x64 ![0, 1, 2] bcast_S8x1x64_S8x100000x64_0_1_2
    (Host.divf (broadcastInDim S8x1x64 ![0, 2] bcast_S8x64_S8x1x64_0_2 (rSum x))
      (broadcastInDim S8x1x64 ![] bcast_S_S8x1x64 (constant S_ .f32 0x47C35000#32))))

/-- The unbiased column variances, guarded. -/
def rVar (x : FVec F S8x100000x64 .f32) : FVec F S8x64 .f32 :=
  select (broadcastInDim S8x64 ![] bcast_S_S8x64 (cmpf .ogt (rN1 (F := F)) (constant S_ .f32 0x00000000#32)))
    (Host.divf (Host.reduceAdd (mulf (rDev x) (rDev x)) (constant S_ .f32 0x00000000#32) reducesTo_S8x100000x64_S8x64_d1 h_S_)
      (broadcastInDim S8x64 ![] bcast_S_S8x64 (rN1 (F := F))))
    (broadcastInDim S8x64 ![] bcast_S_S8x64 (id (constant S_ .f32 0x7FC00000#32)))

/-- The column standard deviations. -/
def rStd (x : FVec F S8x100000x64 .f32) : FVec F S8x64 .f32 :=
  Host.sqrt (rVar x)

end Cert.ReferenceIdeal.Hand

end
-- ==== Proof.Bridge.lean ====
/- The pooled statistics of a column, formed two ways, agree over the extended reals.

   One side holds, for each of 8 by 64 columns, the column's sum S, its sum of squares Q and its maximum M (each stored
   8 by 1 by 64) and forms the mean S / 100000, the maximum M, and the standard deviation
   sqrt ((Q - S * S / 100000) / 99999). The other side reduces the 8 by 100000 by 64 input over its 100000 rows: the
   mean (0 + Σ x) / 100000, the maximum from -∞, and sqrt ((0 + Σ (x - (0 + Σ x) / 100000)^2) / (100000 - 1)), the
   quotient guarded by "100000 - 1 is positive". Each statistic is read at a column (b, d); the equations between the
   two sides are then the ones of Spec.lean. -/
import proofs.«138509_j5093831213700_1_alg».proof.Proof.KI.Stats
import proofs.«138509_j5093831213700_1_alg».proof.Proof.Ref.Stats
import proofs.«138509_j5093831213700_1_alg».proof.Proof.Spec
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import Idealize.ShloMosaic.Lib.IdealHost

noncomputable section

namespace Cert.Bridge

open Idealize.ShloMosaic Idealize.ShloMosaic.ValueIdx
open scoped BigOperators

/-! ### Indices -/

/-- The shape fact that names the index with a row inserted. -/
theorem reduces : Cert.ReferenceIdeal.S8x100000x64.Reduces [1] Cert.ReferenceIdeal.S8x64 := by decide

/-- Inserting row j into the column index (b, d) gives the entry index (b, j, d). -/
theorem lift_eq (h : Cert.ReferenceIdeal.S8x100000x64.Reduces [1] Cert.ReferenceIdeal.S8x64)
    (b : Fin 8) (d : Fin 64) (j : Fin 100000) :
    h.lift (ix2 b d) j = ix3 b j d := by
  funext a
  refine Fin.ext ?_
  match a with
  | ⟨0, _⟩ => rfl
  | ⟨1, _⟩ => rfl
  | ⟨2, _⟩ => rfl

/-- An 8 by 1 by 64 array re-laid as 8 by 64 reads, at (b, d), the array at (b, 0, d). -/
theorem cast_apply (A : FVec Ideal Cert.KernelIdeal.S8x1x64 .f32) (b : Fin 8) (d : Fin 64) :
    shapeCast Cert.KernelIdeal.S8x64 A Cert.KernelIdeal.Facts₀.shapeCasts_S8x1x64_S8x64 (ix2 b d)
      = A (ix3 b (0 : Fin 1) d) :=
  shapeCast_apply A _ _ _ (by
    rw [Shape.rowMajor_val_three, Shape.rowMajor_val_two]
    show (b.val * 1 + 0) * 64 + d.val = b.val * 64 + d.val
    omega)

/-! ### Single operations at an index -/

/-- The square root of an array, at an index, is the square root of the element. -/
theorem hostSqrt_apply {s : Shape} {φ : FTy} (a : FVec Ideal s φ) (i : s.Idx) :
    Host.sqrt a i = Ideal.sqrt (a i) := rfl

/-- A select on a condition that holds is its first operand. -/
theorem select_of_eq_one {α : Type} (c : BitVec 1) (a b : α) (h : c = 1#1) : Scalar.select c a b = a := by
  subst h; exact select_one a b

/-- A sum over the rows from zero, at the column (b, d): zero plus the sum over j of the entries (b, j, d). -/
theorem reduceAdd_apply (Y : FVec Ideal Cert.ReferenceIdeal.S8x100000x64 .f32) (b : Fin 8) (d : Fin 64) :
    Host.reduceAdd Y (constant Cert.ReferenceIdeal.S_ .f32 0x00000000#32)
        Cert.ReferenceIdeal.Facts₀.reducesTo_S8x100000x64_S8x64_d1 Cert.ReferenceIdeal.Facts₀.h_S_ (ix2 b d)
      = 0 + ∑ j : Fin 100000, Y (ix3 b j d) := by
  refine (hostReduceAdd_apply Y _ _ _ (ix2 b d)).trans ?_
  refine (Ideal.hostReduceAdd_single _ reduces Y _ (ix2 b d)).trans ?_
  refine congrArg₂ (fun u v : EReal => u + v) ((constant_apply _ _).trans Ideal.ofBits_zero_f32) ?_
  exact Finset.sum_congr rfl (fun (j : Fin 100000) _ => congrArg Y (lift_eq reduces b d j))

/-! ### The reference's statistics at a column -/

/-- The column sum. -/
theorem rSum_apply (X : FVec Ideal Cert.ReferenceIdeal.S8x100000x64 .f32) (b : Fin 8) (d : Fin 64) :
    Cert.ReferenceIdeal.Hand.rSum X (ix2 b d) = 0 + ∑ j : Fin 100000, X (ix3 b j d) := by
  unfold Cert.ReferenceIdeal.Hand.rSum
  exact reduceAdd_apply X b d

/-- The row count less one. -/
theorem rN1_apply : Cert.ReferenceIdeal.Hand.rN1 (F := Ideal) ix0 = ((100000 : ℝ) : EReal) - 1 := by
  unfold Cert.ReferenceIdeal.Hand.rN1
  refine (subf_apply _ _ _).trans ?_
  refine congrArg₂ (fun u v : EReal => u - v) ((constant_apply _ _).trans Spec.ofBits_1e5) ?_
  exact (sitofp_apply _ _).trans Spec.sitofp_one

/-- The deviation of entry (b, j, d) from its column's mean. -/
theorem rDev_apply (X : FVec Ideal Cert.ReferenceIdeal.S8x100000x64 .f32) (b : Fin 8) (j : Fin 100000) (d : Fin 64) :
    Cert.ReferenceIdeal.Hand.rDev X (ix3 b j d)
      = X (ix3 b j d) - Ideal.div (0 + ∑ i : Fin 100000, X (ix3 b i d)) ((100000 : ℝ) : EReal) := by
  unfold Cert.ReferenceIdeal.Hand.rDev
  refine (subf_apply _ _ _).trans ?_
  refine congrArg (fun t : EReal => X (ix3 b j d) - t) ?_
  refine (broadcastInDim_apply _ _ _ (ix3 b j d) (ix3 b (0 : Fin 1) d) ?_).trans ?_
  · intro c
    match c with
    | ⟨0, _⟩ =>
      show b.val = if (8 : ℕ) = 1 then 0 else b.val
      exact (if_neg (by decide)).symm
    | ⟨1, _⟩ =>
      show (0 : ℕ) = if (1 : ℕ) = 1 then 0 else j.val
      exact (if_pos rfl).symm
    | ⟨2, _⟩ =>
      show d.val = if (64 : ℕ) = 1 then 0 else d.val
      exact (if_neg (by decide)).symm
  refine (hostDivf_apply _ _ _).trans ?_
  refine congrArg₂ Ideal.div ?_ ?_
  · refine (broadcastInDim_apply _ _ _ (ix3 b (0 : Fin 1) d) (ix2 b d) ?_).trans (rSum_apply X b d)
    intro c
    match c with
    | ⟨0, _⟩ =>
      show b.val = if (8 : ℕ) = 1 then 0 else b.val
      exact (if_neg (by decide)).symm
    | ⟨1, _⟩ =>
      show d.val = if (64 : ℕ) = 1 then 0 else d.val
      exact (if_neg (by decide)).symm
  · exact (broadcastInDim_scalar_apply _ _ _).trans ((constant_apply _ _).trans Spec.ofBits_1e5)

/-- The guarded variance: the guard holds, so it is the sum of squared deviations over 100000 - 1. -/
theorem rVar_apply (X : FVec Ideal Cert.ReferenceIdeal.S8x100000x64 .f32) (b : Fin 8) (d : Fin 64) :
    Cert.ReferenceIdeal.Hand.rVar X (ix2 b d)
      = Ideal.div (0 + ∑ j : Fin 100000,
            (X (ix3 b j d) - Ideal.div (0 + ∑ i : Fin 100000, X (ix3 b i d)) ((100000 : ℝ) : EReal))
              * (X (ix3 b j d) - Ideal.div (0 + ∑ i : Fin 100000, X (ix3 b i d)) ((100000 : ℝ) : EReal)))
          (((100000 : ℝ) : EReal) - 1) := by
  unfold Cert.ReferenceIdeal.Hand.rVar
  refine (select_apply _ _ _ _).trans ?_
  refine (select_of_eq_one _ _ _ ?_).trans ?_
  · refine (broadcastInDim_scalar_apply _ _ _).trans ?_
    refine (cmpf_apply _ _ _ _).trans ?_
    refine Eq.trans ?_ Spec.n1_pos
    exact congrArg₂ (fun u v : EReal => Ideal.cmp .ogt u v) rN1_apply
      ((constant_apply _ _).trans Ideal.ofBits_zero_f32)
  refine (hostDivf_apply _ _ _).trans ?_
  refine congrArg₂ Ideal.div ?_ ?_
  · refine (reduceAdd_apply _ b d).trans ?_
    refine congrArg (fun t : EReal => 0 + t) ?_
    refine Finset.sum_congr rfl (fun (j : Fin 100000) _ => ?_)
    refine (mulf_apply _ _ _).trans ?_
    exact congrArg₂ (fun u v : EReal => u * v) (rDev_apply X b j d) (rDev_apply X b j d)
  · exact (broadcastInDim_scalar_apply _ _ _).trans rN1_apply

/-- The standard deviation. -/
theorem rStd_apply (X : FVec Ideal Cert.ReferenceIdeal.S8x100000x64 .f32) (b : Fin 8) (d : Fin 64) :
    Cert.ReferenceIdeal.Hand.rStd X (ix2 b d)
      = Ideal.sqrt (Ideal.div (0 + ∑ j : Fin 100000,
            (X (ix3 b j d) - Ideal.div (0 + ∑ i : Fin 100000, X (ix3 b i d)) ((100000 : ℝ) : EReal))
              * (X (ix3 b j d) - Ideal.div (0 + ∑ i : Fin 100000, X (ix3 b i d)) ((100000 : ℝ) : EReal)))
          (((100000 : ℝ) : EReal) - 1)) := by
  unfold Cert.ReferenceIdeal.Hand.rStd
  exact (hostSqrt_apply _ _).trans (congrArg Ideal.sqrt (rVar_apply X b d))

/-! ### The other side's statistics at a column -/

/-- The standard deviation from the stored sum and sum of squares. -/
theorem kStd_apply (S Q : FVec Ideal Cert.KernelIdeal.S8x1x64 .f32) (b : Fin 8) (d : Fin 64) :
    Cert.KernelIdeal.Hand.kStd S Q (ix2 b d)
      = Ideal.sqrt (Ideal.div (Q (ix3 b (0 : Fin 1) d)
          - Ideal.div (S (ix3 b (0 : Fin 1) d) * S (ix3 b (0 : Fin 1) d)) ((100000 : ℝ) : EReal))
          ((99999 : ℝ) : EReal)) := by
  unfold Cert.KernelIdeal.Hand.kStd
  refine (hostSqrt_apply _ _).trans (congrArg Ideal.sqrt ?_)
  refine (hostDivf_apply _ _ _).trans ?_
  refine congrArg₂ Ideal.div ?_ ?_
  · refine (subf_apply _ _ _).trans ?_
    refine congrArg₂ (fun u v : EReal => u - v) (cast_apply Q b d) ?_
    refine (hostDivf_apply _ _ _).trans ?_
    refine congrArg₂ Ideal.div ?_ ?_
    · refine (mulf_apply _ _ _).trans ?_
      exact congrArg₂ (fun u v : EReal => u * v) (cast_apply S b d) (cast_apply S b d)
    · exact (broadcastInDim_scalar_apply _ _ _).trans ((constant_apply _ _).trans Spec.ofBits_1e5)
  · exact (broadcastInDim_scalar_apply _ _ _).trans ((constant_apply _ _).trans Spec.ofBits_99999)

/-! ### The three equations -/

/-- The means agree: both are the column sum over 100000. -/
theorem mean_bridge (S : FVec Ideal Cert.KernelIdeal.S8x1x64 .f32) (X : FVec Ideal Cert.ReferenceIdeal.S8x100000x64 .f32)
    (hS : ∀ (b : Fin 8) (d : Fin 64), S (ix3 b (0 : Fin 1) d) = 0 + ∑ j : Fin 100000, X (ix3 b j d)) :
    Cert.KernelIdeal.Hand.kMean S = Cert.ReferenceIdeal.Hand.rMean X := by
  funext i
  obtain ⟨b, d, rfl⟩ : ∃ (b : Fin 8) (d : Fin 64), i = ix2 b d := ⟨i 0, i 1, eq_ix2 i⟩
  unfold Cert.KernelIdeal.Hand.kMean Cert.ReferenceIdeal.Hand.rMean
  refine (hostDivf_apply _ _ _).trans (Eq.trans ?_ (hostDivf_apply _ _ _).symm)
  refine congrArg₂ Ideal.div ?_ ?_
  · exact (cast_apply S b d).trans ((hS b d).trans (rSum_apply X b d).symm)
  · exact (broadcastInDim_scalar_apply _ _ _).trans (broadcastInDim_scalar_apply _ _ _).symm

/-- The maxima agree: both are the maximum of the column from -∞. -/
theorem max_bridge (M : FVec Ideal Cert.KernelIdeal.S8x1x64 .f32) (X : FVec Ideal Cert.ReferenceIdeal.S8x100000x64 .f32)
    (hM : ∀ (b : Fin 8) (d : Fin 64), M (ix3 b (0 : Fin 1) d)
      = (Finset.univ : Finset (Fin 100000)).fold max ⊥ (fun j => X (ix3 b j d))) :
    Cert.KernelIdeal.Hand.kMax M = Cert.ReferenceIdeal.Hand.rMax X := by
  funext i
  obtain ⟨b, d, rfl⟩ : ∃ (b : Fin 8) (d : Fin 64), i = ix2 b d := ⟨i 0, i 1, eq_ix2 i⟩
  unfold Cert.KernelIdeal.Hand.kMax Cert.ReferenceIdeal.Hand.rMax
  refine (cast_apply M b d).trans ((hM b d).trans (Eq.symm ?_))
  refine (Host.reduce_eq_fold_single FloatOps.maximumf X _ _ reduces _ (ix2 b d)).trans ?_
  have hb : constant (F := Ideal) Cert.ReferenceIdeal.S_ .f32 0xFF800000#32
      (Shape.Idx.first Cert.ReferenceIdeal.Facts₀.h_S_) = (⊥ : EReal) :=
    (constant_apply _ _).trans Spec.ofBits_neg_inf
  have hf : (X ∘ reduces.lift (ix2 b d)) = fun j : Fin 100000 => X (ix3 b j d) :=
    funext fun j => congrArg X (lift_eq reduces b d j)
  exact congrArg₂ (fun (u : EReal) (g : Fin 100000 → EReal) => (Finset.univ : Finset (Fin 100000)).fold max u g) hb hf

/-- The standard deviations agree: with finite entries, the one-pass and the two-pass variance are one number. -/
theorem std_bridge (S Q : FVec Ideal Cert.KernelIdeal.S8x1x64 .f32) (X : FVec Ideal Cert.ReferenceIdeal.S8x100000x64 .f32)
    (hS : ∀ (b : Fin 8) (d : Fin 64), S (ix3 b (0 : Fin 1) d) = 0 + ∑ j : Fin 100000, X (ix3 b j d))
    (hQ : ∀ (b : Fin 8) (d : Fin 64), Q (ix3 b (0 : Fin 1) d) = 0 + ∑ j : Fin 100000, X (ix3 b j d) * X (ix3 b j d))
    (hfin : ∀ i, ∃ r : ℝ, X i = (r : EReal)) :
    Cert.KernelIdeal.Hand.kStd S Q = Cert.ReferenceIdeal.Hand.rStd X := by
  funext i
  obtain ⟨b, d, rfl⟩ : ∃ (b : Fin 8) (d : Fin 64), i = ix2 b d := ⟨i 0, i 1, eq_ix2 i⟩
  choose r hr using hfin
  refine (kStd_apply S Q b d).trans (Eq.trans ?_ (rStd_apply X b d).symm)
  refine congrArg Ideal.sqrt ?_
  rewrite [hS b d, hQ b d]
  have hX : ∀ j : Fin 100000, X (ix3 b j d) = ((r (ix3 b j d) : ℝ) : EReal) := fun j => hr _
  simp only [hX]
  exact Spec.var_identity (fun j => r (ix3 b j d))

end Cert.Bridge

end
-- ==== Proof.Ref.Run.lean ====
/-
  The reference program's run, by hand. @main is a straight line of host operations once each module-local function
  is read at its call (`_std` through `_var` and `_where` on the node features, `_std_0` through `_var_1` and `_where_2`
  on the degree histogram, `relu`, `relu_3`, `round`): `ops` lists them in order, `main_eq` says @main is that line, and
  `run` reads the result buffer after it as ONE pure term of the arguments — `common` of the per-graph mean, maximum and
  standard deviation of the node features (`rMean`, `rMax`, `rStd`) and of the other seven arguments — with the arguments
  unchanged. The line is cut in four stretches; what a stretch leaves is stated from ANY contents it starts at, so the
  stretches compose by reading each at what the one before left.
-/
import proofs.«138509_j5093831213700_1_alg».proof.ReferenceIdeal
import proofs.«138509_j5093831213700_1_alg».proof.Proof.Gen.ReferenceIdeal
import proofs.«138509_j5093831213700_1_alg».proof.Proof.Ref.Stats
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations of @main, in order, the callees' operations listed where they are called

Four stretches, cut before each concatenate of four operands, so that a concatenate reads its operands at
the valuation its stretch starts from. -/

/-- The per-graph mean, maximum and standard deviation of the node features: `%cst … %3`, then `_std`
    (through `_var` and `_where`) on `%arg0` over the record `main_call0`. -/
abbrev opsA : List (HloOp τ sig (Elt F)) :=
  [ nullary main_cst (constant S_ .f32 0x00000000#32),
    binary main_arg0 main_cst main_v0 (fun x v => Host.reduceAdd x v reducesTo_S8x100000x64_S8x64_d1 h_S_),
    nullary main_cst_0 (constant S_ .f32 0x47C35000#32),
    unary main_cst_0 main_v1 (broadcastInDim S8x64 ![] bcast_S_S8x64),
    binary main_v0 main_v1 main_v2 Host.divf,
    nullary main_cst_1 (constant S_ .f32 0xFF800000#32),
    binary main_arg0 main_cst_1 main_v3 (fun x v => Host.reduce FloatOps.maximumf x v reducesTo_S8x100000x64_S8x64_d1 h_S_),
    nullary main_c (constantI S_ 32 1#32),
    TRef.nullary main_call0.call0.cst (constant S_ .f32 0x00000000#32),
    TRef.binary (.of main_arg0 : TRef sig ⟨S8x100000x64, .f32⟩) main_call0.call0.cst main_call0.call0.v0 (fun x v => Host.reduceAdd x v reducesTo_S8x100000x64_S8x64_d1 h_S_),
    TRef.unary main_call0.call0.v0 main_call0.call0.v1 (broadcastInDim S8x1x64 ![0, 2] bcast_S8x64_S8x1x64_0_2),
    TRef.nullary main_call0.call0.cst_0 (constant S_ .f32 0x47C35000#32),
    TRef.unary main_call0.call0.cst_0 main_call0.call0.v2 (broadcastInDim S8x1x64 ![] bcast_S_S8x1x64),
    TRef.binary main_call0.call0.v1 main_call0.call0.v2 main_call0.call0.v3 Host.divf,
    TRef.unary main_call0.call0.v3 main_call0.call0.v4 (broadcastInDim S8x100000x64 ![0, 1, 2] bcast_S8x1x64_S8x100000x64_0_1_2),
    TRef.binary (.of main_arg0 : TRef sig ⟨S8x100000x64, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x47C35000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8x100000x64_S8x64_d1 h_S_),
    TRef.unary main_call0.call0.v8 main_call0.call0.v10 (broadcastInDim S8x64 ![] bcast_S_S8x64),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S8x64 ![] bcast_S_S8x64),
    TRef.ternary main_call0.call0.v12 main_call0.call0.v11 main_call0.call0.call0.v1 main_call0.call0.call0.v2 (fun p a b => select (broadcastInDim S8x64 ![] bcast_S_S8x64 p) a b),
    TRef.unary main_call0.call0.call0.v2 main_call0.v1 Host.sqrt ]

/-- The degree histogram of the edge targets (a scatter-add of ones at row 1 of `%arg1`, negative indices
    wrapped), its mean `%17`, then `_std_0` (through `_var_1` and `_where_2`) on it over the record
    `main_call1`, the two literals, and the four one-element tensors `%19 … %22`. -/
abbrev opsB1 : List (HloOp τ sig (Elt F)) :=
  [ nullary main_cst_2 (constant S_ .f32 0x00000000#32),
    unary main_cst_2 main_v5 (broadcastInDim S100000 ![] bcast_S_S100000),
    unary main_arg1 main_v6 (extractStridedSlice S1x3200000 ![1, 0] · slices_S2x3200000_S1x3200000_1_0),
    reshape main_v6 main_v7 rfl shapeCasts_S1x3200000_S3200000,
    nullary main_c_3 (constantI S_ 32 0#32),
    unary main_c_3 main_v8 (broadcastInDim S3200000 ![] bcast_S_S3200000),
    binary main_v7 main_v8 main_v9 (cmpi .slt),
    nullary main_c_4 (constantI S_ 32 100000#32),
    unary main_c_4 main_v10 (broadcastInDim S3200000 ![] bcast_S_S3200000),
    binary main_v7 main_v10 main_v11 addi,
    ternary main_v9 main_v11 main_v7 main_v12 select,
    unary main_v12 main_v13 (broadcastInDim S3200000x1 ![0] bcast_S3200000_S3200000x1_0),
    nullary main_cst_5 (constant S_ .f32 0x3F800000#32),
    unary main_cst_5 main_v14 (broadcastInDim S3200000 ![] bcast_S_S3200000),
    ternary main_v5 main_v13 main_v14 main_v15 (fun x i u => Host.scatterAdd scatter_S100000_S3200000x1_S3200000_n_0_0_1 x i u),
    nullary main_cst_6 (constant S_ .f32 0x00000000#32),
    binary main_v15 main_cst_6 main_v16 (fun x v => Host.reduceAdd x v reducesTo_S100000_S_d0 h_S_),
    nullary main_cst_7 (constant S_ .f32 0x47C35000#32),
    binary main_v16 main_cst_7 main_v17 Host.divf,
    nullary main_c_8 (constantI S_ 32 1#32),
    TRef.nullary main_call1.call0.cst (constant S_ .f32 0x00000000#32),
    TRef.binary (.of main_v15 : TRef sig ⟨S100000, .f32⟩) main_call1.call0.cst main_call1.call0.v0 (fun x v => Host.reduceAdd x v reducesTo_S100000_S_d0 h_S_),
    TRef.unary main_call1.call0.v0 main_call1.call0.v1 (broadcastInDim S1 ![] bcast_S_S1),
    TRef.nullary main_call1.call0.cst_0 (constant S_ .f32 0x47C35000#32),
    TRef.unary main_call1.call0.cst_0 main_call1.call0.v2 (broadcastInDim S1 ![] bcast_S_S1),
    TRef.binary main_call1.call0.v1 main_call1.call0.v2 main_call1.call0.v3 Host.divf,
    TRef.unary main_call1.call0.v3 main_call1.call0.v4 (broadcastInDim S100000 ![0] bcast_S1_S100000_0),
    TRef.binary (.of main_v15 : TRef sig ⟨S100000, .f32⟩) main_call1.call0.v4 main_call1.call0.v5 subf,
    TRef.binary main_call1.call0.v5 main_call1.call0.v5 main_call1.call0.v6 mulf,
    TRef.unary (.of main_c_8 : TRef sig ⟨S_, .i32⟩) main_call1.call0.v7 (sitofp .f32),
    TRef.nullary main_call1.call0.cst_1 (constant S_ .f32 0x47C35000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S100000_S_d0 h_S_),
    TRef.binary main_call1.call0.v9 main_call1.call0.v8 main_call1.call0.v10 Host.divf,
    TRef.nullary main_call1.call0.cst_3 (constant S_ .f32 0x00000000#32),
    TRef.binary main_call1.call0.v8 main_call1.call0.cst_3 main_call1.call0.v11 (cmpf .ogt),
    TRef.nullary main_call1.call0.cst_4 (constant S_ .f32 0x7FC00000#32),
    TRef.unary main_call1.call0.cst_4 main_call1.call0.call0.v0 id,
    TRef.ternary main_call1.call0.v11 main_call1.call0.v10 main_call1.call0.call0.v0 main_call1.call0.call0.v1 select,
    TRef.unary main_call1.call0.call0.v1 main_call1.v1 Host.sqrt,
    nullary main_cst_9 (constant S_ .f32 0x39A7C61A#32),
    nullary main_cst_10 (constant S_ .f32 0x3F935D96#32),
    unary main_v17 main_v19 (broadcastInDim S1 ![] bcast_S_S1),
    unary main_v18 main_v20 (broadcastInDim S1 ![] bcast_S_S1),
    unary main_cst_9 main_v21 (broadcastInDim S1 ![] bcast_S_S1),
    unary main_cst_10 main_v22 (broadcastInDim S1 ![] bcast_S_S1) ]

/-- The four structural features side by side, one row, then the row repeated for the eight graphs: `%23 … %25`. -/
abbrev opsB2 : List (HloOp τ sig (Elt F)) :=
  [ nary ![main_v19, main_v20, main_v21, main_v22] main_v23 (fun u => concatenate S4 0 [⟨S1, u 0⟩, ⟨S1, u 1⟩, ⟨S1, u 2⟩, ⟨S1, u 3⟩] concatenates_S1_S1_S1_S1_S4_d0),
    unary main_v23 main_v24 (broadcastInDim S1x4 ![1] bcast_S4_S1x4_1),
    unary main_v24 main_v25 (broadcastInDim S8x4 ![0, 1] bcast_S1x4_S8x4_0_1) ]

/-- The 196 features side by side, the three dense layers (`relu`, `relu_3` over `main_call2`, `main_call3`), the
    logistic, the scaled score, its rounding (`round` over `main_call4`) carried through `x + (round x - x)`, and the
    two means: `%26 … %61`. -/
abbrev opsC : List (HloOp τ sig (Elt F)) :=
  [ nary ![main_v2, main_v3, main_v4, main_v25] main_v26 (fun u => concatenate S8x196 1 [⟨S8x64, u 0⟩, ⟨S8x64, u 1⟩, ⟨S8x64, u 2⟩, ⟨S8x4, u 3⟩] concatenates_S8x64_S8x64_S8x64_S8x4_S8x196_d1),
    binary main_v26 main_arg2 main_v27 (fun l r => Host.dotGeneral dot_S8x196_S196x64_S8x64_1_0_0_1_n_n none l r),
    unary main_arg3 main_v28 (broadcastInDim S1x64 ![1] bcast_S64_S1x64_1),
    unary main_v28 main_v29 (broadcastInDim S8x64 ![0, 1] bcast_S1x64_S8x64_0_1),
    binary main_v27 main_v29 main_v30 addf,
    TRef.nullary main_call2.cst (constant S_ .f32 0x00000000#32),
    TRef.unary main_call2.cst main_call2.v0 (broadcastInDim S8x64 ![] bcast_S_S8x64),
    TRef.binary (.of main_v30 : TRef sig ⟨S8x64, .f32⟩) main_call2.v0 main_call2.v1 maximumf,
    binary main_v31 main_arg4 main_v32 (fun l r => Host.dotGeneral dot_S8x64_S64x32_S8x32_1_0_0_1_n_n none l r),
    unary main_arg5 main_v33 (broadcastInDim S1x32 ![1] bcast_S32_S1x32_1),
    unary main_v33 main_v34 (broadcastInDim S8x32 ![0, 1] bcast_S1x32_S8x32_0_1),
    binary main_v32 main_v34 main_v35 addf,
    TRef.nullary main_call3.cst (constant S_ .f32 0x00000000#32),
    TRef.unary main_call3.cst main_call3.v0 (broadcastInDim S8x32 ![] bcast_S_S8x32),
    TRef.binary (.of main_v35 : TRef sig ⟨S8x32, .f32⟩) main_call3.v0 main_call3.v1 maximumf,
    binary main_v36 main_arg6 main_v37 (fun l r => Host.dotGeneral dot_S8x32_S32x1_S8x1_1_0_0_1_n_n none l r),
    unary main_arg7 main_v38 (broadcastInDim S1x1 ![1] bcast_S1_S1x1_1),
    unary main_v38 main_v39 (broadcastInDim S8x1 ![0, 1] bcast_S1x1_S8x1_0_1),
    binary main_v37 main_v39 main_v40 addf,
    unary main_v40 main_v41 Host.negf,
    unary main_v41 main_v42 Host.exp,
    nullary main_cst_11 (constant S_ .f32 0x3F800000#32),
    unary main_cst_11 main_v43 (broadcastInDim S8x1 ![] bcast_S_S8x1),
    binary main_v43 main_v42 main_v44 addf,
    nullary main_cst_12 (constant S_ .f32 0x3F800000#32),
    unary main_cst_12 main_v45 (broadcastInDim S8x1 ![] bcast_S_S8x1),
    binary main_v45 main_v44 main_v46 Host.divf,
    reshape main_v46 main_v47 rfl shapeCasts_S8x1_S8,
    nullary main_cst_13 (constant S_ .f32 0x423C0000#32),
    unary main_cst_13 main_v48 (broadcastInDim S8 ![] bcast_S_S8),
    binary main_v47 main_v48 main_v49 mulf,
    nullary main_cst_14 (constant S_ .f32 0x40400000#32),
    unary main_cst_14 main_v50 (broadcastInDim S8 ![] bcast_S_S8),
    binary main_v50 main_v49 main_v51 addf,
    TRef.unary (.of main_v51 : TRef sig ⟨S8, .f32⟩) main_call4.v0 Host.roundeven,
    binary main_v52 main_v51 main_v53 subf,
    binary main_v51 main_v53 main_v54 addf,
    nullary main_cst_15 (constant S_ .f32 0x00000000#32),
    binary main_v54 main_cst_15 main_v55 (fun x v => Host.reduceAdd x v reducesTo_S8_S_d0 h_S_),
    nullary main_cst_16 (constant S_ .f32 0x41000000#32),
    binary main_v55 main_cst_16 main_v56 Host.divf,
    nullary main_cst_17 (constant S_ .f32 0x00000000#32),
    binary main_v47 main_cst_17 main_v57 (fun x v => Host.reduceAdd x v reducesTo_S8_S_d0 h_S_),
    nullary main_cst_18 (constant S_ .f32 0x41000000#32),
    binary main_v57 main_cst_18 main_v58 Host.divf,
    unary main_v56 main_v59 (broadcastInDim S1 ![] bcast_S_S1),
    unary main_v58 main_v60 (broadcastInDim S1 ![] bcast_S_S1),
    binary main_v59 main_v60 main_v61 (fun a b => concatenate S2 0 [⟨S1, a⟩, ⟨S1, b⟩] concatenates_S1_S1_S2_d0) ]

/-- All of @main's operations, in order. -/
abbrev ops : List (HloOp τ sig (Elt F)) := opsA ++ (opsB1 ++ (opsB2 ++ opsC))

/-! ## @main is that line -/

-- some hundred and thirty binds re-associated: the rewrite under the chain recurses once per statement
set_option maxRecDepth 8192 in
set_option maxHeartbeats 4000000 in
/-- @main is the straight line `ops`: the two windows in a row, each callee's definition unfolded where it is called
    and each record at its fields; both sides are then one chain of `hlo` steps once sequencing is reassociated. -/
theorem main_eq (c : Dev nD) : main (F := F) c = seq ops := by
  simp only [main, main_part0, main_part1, fn_std.body, fn_var.body, fn_where.body, fn_std_0.body, fn_var_1.body, fn_where_2.body,
    fn_relu.body, fn_relu_3.body, fn_round.body, ops, opsA, opsB1, opsB2, opsC, List.cons_append, List.nil_append, seq, bind_assoc, pure_bind]
  rfl

/-! ## The values, as pure terms of the arguments

The three node statistics `rMean`, `rMax`, `rStd` (with `rSum`, `rN1`, `rDev`, `rVar`) are those of `Ref/Stats.lean`; what follows
is everything downstream of them, each function's body the operations in the program's order. -/

/-- Row 1 of the edge list (the targets), as a vector. -/
def rRow1 (e : IVec S2x3200000 32) : IVec S3200000 32 :=
  shapeCast S3200000 (extractStridedSlice S1x3200000 ![1, 0] e slices_S2x3200000_S1x3200000_1_0) shapeCasts_S1x3200000_S3200000

/-- `%12`: the targets, a negative one wrapped by adding 100000. -/
def rTargets (e : IVec S2x3200000 32) : IVec S3200000 32 :=
  select (cmpi .slt (rRow1 e) (broadcastInDim S3200000 ![] bcast_S_S3200000 (constantI S_ 32 0#32)))
    (addi (rRow1 e) (broadcastInDim S3200000 ![] bcast_S_S3200000 (constantI S_ 32 100000#32)))
    (rRow1 e)

/-- `%15`: the in-degree of every node: ones added into zeros at the targets. -/
def rDeg (e : IVec S2x3200000 32) : FVec F S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 (rTargets e))
    (broadcastInDim S3200000 ![] bcast_S_S3200000 (constant S_ .f32 0x3F800000#32))

/-- `%17`: the mean in-degree. -/
def rDegMean (e : IVec S2x3200000 32) : FVec F S_ .f32 :=
  Host.divf (Host.reduceAdd (rDeg e) (constant S_ .f32 0x00000000#32) reducesTo_S100000_S_d0 h_S_) (constant S_ .f32 0x47C35000#32)

/-- The in-degrees centred as `_var_1` centres them: minus the mean taken through a one-element tensor and repeated. -/
def rDegCentred (e : IVec S2x3200000 32) : FVec F S100000 .f32 :=
  subf (rDeg e) (broadcastInDim S100000 ![0] bcast_S1_S100000_0
    (Host.divf
      (broadcastInDim S1 ![] bcast_S_S1 (Host.reduceAdd (rDeg e) (constant S_ .f32 0x00000000#32) reducesTo_S100000_S_d0 h_S_))
      (broadcastInDim S1 ![] bcast_S_S1 (constant S_ .f32 0x47C35000#32))))

/-- `%18`: the unbiased standard deviation of the in-degrees (NaN were the divisor `1e5 − 1` not positive). -/
def rDegStd (e : IVec S2x3200000 32) : FVec F S_ .f32 :=
  Host.sqrt
    (select (cmpf .ogt (rN1 (F := F)) (constant S_ .f32 0x00000000#32))
      (Host.divf
        (Host.reduceAdd (mulf (rDegCentred e) (rDegCentred e)) (constant S_ .f32 0x00000000#32) reducesTo_S100000_S_d0 h_S_)
        (rN1 (F := F)))
      (id (constant S_ .f32 0x7FC00000#32)))

/-- `%23`, from its four one-element operands: side by side. -/
def rFour (a b c d : FVec F S1 .f32) : FVec F S4 .f32 :=
  concatenate S4 0 [⟨S1, a⟩, ⟨S1, b⟩, ⟨S1, c⟩, ⟨S1, d⟩] concatenates_S1_S1_S1_S1_S4_d0

/-- `%25`: the four structural features — mean in-degree, its deviation, and the two literals — one row, repeated for the eight graphs. -/
def rStruct (e : IVec S2x3200000 32) : FVec F S8x4 .f32 :=
  broadcastInDim S8x4 ![0, 1] bcast_S1x4_S8x4_0_1 (broadcastInDim S1x4 ![1] bcast_S4_S1x4_1
    (rFour (broadcastInDim S1 ![] bcast_S_S1 (rDegMean e)) (broadcastInDim S1 ![] bcast_S_S1 (rDegStd e))
      (broadcastInDim S1 ![] bcast_S_S1 (constant S_ .f32 0x39A7C61A#32)) (broadcastInDim S1 ![] bcast_S_S1 (constant S_ .f32 0x3F935D96#32))))

/-- `%26`: the 196 features of each graph: mean, maximum, deviation, structure, side by side. -/
def rFeat (mean mx std : FVec F S8x64 .f32) (s : FVec F S8x4 .f32) : FVec F S8x196 .f32 :=
  concatenate S8x196 1 [⟨S8x64, mean⟩, ⟨S8x64, mx⟩, ⟨S8x64, std⟩, ⟨S8x4, s⟩] concatenates_S8x64_S8x64_S8x64_S8x4_S8x196_d1

/-- `%31`: the first dense layer, `max(z·W1 + b1, 0)`. -/
def rHidden1 (z : FVec F S8x196 .f32) (W1 : FVec F S196x64 .f32) (b1 : FVec F S64 .f32) : FVec F S8x64 .f32 :=
  maximumf
    (addf (Host.dotGeneral dot_S8x196_S196x64_S8x64_1_0_0_1_n_n none z W1)
      (broadcastInDim S8x64 ![0, 1] bcast_S1x64_S8x64_0_1 (broadcastInDim S1x64 ![1] bcast_S64_S1x64_1 b1)))
    (broadcastInDim S8x64 ![] bcast_S_S8x64 (constant S_ .f32 0x00000000#32))

/-- `%36`: the second dense layer, `max(h·W2 + b2, 0)`. -/
def rHidden2 (h : FVec F S8x64 .f32) (W2 : FVec F S64x32 .f32) (b2 : FVec F S32 .f32) : FVec F S8x32 .f32 :=
  maximumf
    (addf (Host.dotGeneral dot_S8x64_S64x32_S8x32_1_0_0_1_n_n none h W2)
      (broadcastInDim S8x32 ![0, 1] bcast_S1x32_S8x32_0_1 (broadcastInDim S1x32 ![1] bcast_S32_S1x32_1 b2)))
    (broadcastInDim S8x32 ![] bcast_S_S8x32 (constant S_ .f32 0x00000000#32))

/-- `%47`: the third layer through the logistic, `1 / (1 + exp (−(h·W3 + b3)))`, one number per graph. -/
def rProb (h : FVec F S8x32 .f32) (W3 : FVec F S32x1 .f32) (b3 : FVec F S1 .f32) : FVec F S8 .f32 :=
  shapeCast S8
    (Host.divf (broadcastInDim S8x1 ![] bcast_S_S8x1 (constant S_ .f32 0x3F800000#32))
      (addf (broadcastInDim S8x1 ![] bcast_S_S8x1 (constant S_ .f32 0x3F800000#32))
        (Host.exp (Host.negf
          (addf (Host.dotGeneral dot_S8x32_S32x1_S8x1_1_0_0_1_n_n none h W3)
            (broadcastInDim S8x1 ![0, 1] bcast_S1x1_S8x1_0_1 (broadcastInDim S1x1 ![1] bcast_S1_S1x1_1 b3)))))))
    shapeCasts_S8x1_S8

/-- `%51`: the score `3 + 47·p`. -/
def rScore (p : FVec F S8 .f32) : FVec F S8 .f32 :=
  addf (broadcastInDim S8 ![] bcast_S_S8 (constant S_ .f32 0x40400000#32))
    (mulf p (broadcastInDim S8 ![] bcast_S_S8 (constant S_ .f32 0x423C0000#32)))

/-- `%61`: the mean over the eight graphs of `k + (round k − k)` for the score `k`, and the mean of `p`, side by side. -/
def rOut (p : FVec F S8 .f32) : FVec F S2 .f32 :=
  concatenate S2 0
    [⟨S1, broadcastInDim S1 ![] bcast_S_S1
        (Host.divf
          (Host.reduceAdd (addf (rScore p) (subf (Host.roundeven (rScore p)) (rScore p))) (constant S_ .f32 0x00000000#32) reducesTo_S8_S_d0 h_S_)
          (constant S_ .f32 0x41000000#32))⟩,
     ⟨S1, broadcastInDim S1 ![] bcast_S_S1
        (Host.divf (Host.reduceAdd p (constant S_ .f32 0x00000000#32) reducesTo_S8_S_d0 h_S_) (constant S_ .f32 0x41000000#32))⟩]
    concatenates_S1_S1_S2_d0

/-- Everything downstream of the three node statistics: the structural features of the edge list beside them, the three
    dense layers, the logistic, and the two means. -/
def common (mean mx std : FVec F S8x64 .f32) (e : IVec S2x3200000 32) (W1 : FVec F S196x64 .f32) (b1 : FVec F S64 .f32)
    (W2 : FVec F S64x32 .f32) (b2 : FVec F S32 .f32) (W3 : FVec F S32x1 .f32) (b3 : FVec F S1 .f32) : FVec F S2 .f32 :=
  rOut (rProb (rHidden2 (rHidden1 (rFeat mean mx std (rStruct e)) W1 b1) W2 b2) W3 b3)

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: stretch by stretch, one fact per operation, in order. -/
theorem opsA_sub : (opsA : List (HloOp τ sig (Elt F))).Forall fun op => op.bufs ⊆ tcRefs τ sig :=
  ⟨nullary_bufs_sub .., binary_bufs_sub .., nullary_bufs_sub .., unary_bufs_sub .., binary_bufs_sub .., nullary_bufs_sub ..,
    binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub ..⟩

theorem opsB1_sub : (opsB1 : List (HloOp τ sig (Elt F))).Forall fun op => op.bufs ⊆ tcRefs τ sig :=
  ⟨nullary_bufs_sub .., unary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., binary_bufs_sub .., nullary_bufs_sub ..,
    binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., binary_bufs_sub .., nullary_bufs_sub .., binary_bufs_sub .., nullary_bufs_sub ..,
    unary_bufs_sub .., ternary_bufs_sub .., unary_bufs_sub ..,
    nullary_bufs_sub .., nullary_bufs_sub .., unary_bufs_sub .., unary_bufs_sub .., unary_bufs_sub .., unary_bufs_sub ..⟩

theorem opsB2_sub : (opsB2 : List (HloOp τ sig (Elt F))).Forall fun op => op.bufs ⊆ tcRefs τ sig :=
  ⟨nary_bufs_sub .., unary_bufs_sub .., unary_bufs_sub ..⟩

theorem opsC_sub : (opsC : List (HloOp τ sig (Elt F))).Forall fun op => op.bufs ⊆ tcRefs τ sig :=
  ⟨nary_bufs_sub .., binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub ..,
    unary_bufs_sub .., binary_bufs_sub .., reshape_bufs_sub .., nullary_bufs_sub .., unary_bufs_sub .., binary_bufs_sub ..,
    nullary_bufs_sub .., unary_bufs_sub .., binary_bufs_sub .., unary_bufs_sub .., binary_bufs_sub .., binary_bufs_sub ..,
    nullary_bufs_sub .., binary_bufs_sub .., nullary_bufs_sub .., binary_bufs_sub .., nullary_bufs_sub .., binary_bufs_sub ..,
    nullary_bufs_sub .., binary_bufs_sub .., unary_bufs_sub .., unary_bufs_sub .., binary_bufs_sub ..⟩

theorem ops_sub : (ops : List (HloOp τ sig (Elt F))).Forall fun op => op.bufs ⊆ tcRefs τ sig :=
  List.forall_append.2 ⟨opsA_sub, List.forall_append.2 ⟨opsB1_sub, List.forall_append.2 ⟨opsB2_sub, opsC_sub⟩⟩⟩

/-- Every operation determines its results (none allocates a buffer at contents not chosen): by computation, one operation at a time. -/
theorem opsA_fresh : ∀ op ∈ (opsA : List (HloOp τ sig (Elt F))), op.fresh = ∅ := by
  intro _ h; (repeat (cases h with | head => rfl | tail _ h => ?_)); exact nomatch h
theorem opsB1_fresh : ∀ op ∈ (opsB1 : List (HloOp τ sig (Elt F))), op.fresh = ∅ := by
  intro _ h; (repeat (cases h with | head => rfl | tail _ h => ?_)); exact nomatch h
theorem opsB2_fresh : ∀ op ∈ (opsB2 : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h =>
  (List.mem_append.1 h).elim (opsA_fresh op) fun h => (List.mem_append.1 h).elim (opsB1_fresh op) fun h =>
    (List.mem_append.1 h).elim (opsB2_fresh op) (opsC_fresh op)

/-! ## What each stretch leaves, from any contents it starts at -/

/-- The line `l` leaves the buffer of `r` as it was, whatever the contents it starts from. -/
abbrev Keeps (l : List (HloOp τ sig (Elt F))) (r : Ref sig .tc) : Prop :=
  ∀ W : Valuation τ sig (Elt F), after l W (r : DevRef τ sig) = W (r : DevRef τ sig)

section Stretches

variable (W : Valuation τ sig (Elt F))

-- each result is read off the fold one operation at a time (the operation that writes the buffer gives its function's
-- value, every other leaves the buffer); what is left differs from the named term by the identity transports of the
-- callees' typed references and by β only, so the shape and arithmetic operations stay folded while it is compared

attribute [local irreducible] Host.reduce Host.reduceAdd Host.scatterAdd concatenate broadcastInDim extractStridedSlice shapeCast
  Host.divf Host.sqrt Host.exp Host.negf Host.roundeven addf subf mulf maximumf cmpf cmpi addi select sitofp constant constantI in
set_option maxRecDepth 8192 in
set_option maxHeartbeats 2000000 in
theorem A_v2 : after opsA W (main_v2 : DevRef τ sig) = rMean (W (main_arg0 : DevRef τ sig)) := by
  after_results
  rfl

attribute [local irreducible] Host.reduce Host.reduceAdd Host.scatterAdd concatenate broadcastInDim extractStridedSlice shapeCast
  Host.divf Host.sqrt Host.exp Host.negf Host.roundeven addf subf mulf maximumf cmpf cmpi addi select sitofp constant constantI in
set_option maxRecDepth 8192 in
set_option maxHeartbeats 2000000 in
theorem A_v3 : after opsA W (main_v3 : DevRef τ sig) = rMax (W (main_arg0 : DevRef τ sig)) := by
  after_results
  rfl

attribute [local irreducible] Host.reduce Host.reduceAdd Host.scatterAdd concatenate broadcastInDim extractStridedSlice shapeCast
  Host.divf Host.sqrt Host.exp Host.negf Host.roundeven addf subf mulf maximumf cmpf cmpi addi select sitofp constant constantI in
set_option maxRecDepth 8192 in
set_option maxHeartbeats 2000000 in
theorem A_v4 : after opsA W (main_v4 : DevRef τ sig) = rStd (W (main_arg0 : DevRef τ sig)) := by
  after_results
  rfl

set_option maxRecDepth 8192 in
set_option maxHeartbeats 4000000 in
/-- The first stretch writes no argument. -/
theorem A_keeps : Keeps (F := F) opsA main_arg0 ∧ Keeps (F := F) opsA main_arg1 ∧ Keeps (F := F) opsA main_arg2 ∧ Keeps (F := F) opsA main_arg3
    ∧ Keeps (F := F) opsA main_arg4 ∧ Keeps (F := F) opsA main_arg5 ∧ Keeps (F := F) opsA main_arg6 ∧ Keeps (F := F) opsA main_arg7 := by
  refine ⟨?_, ?_, ?_, ?_, ?_, ?_, ?_, ?_⟩ <;> intro W <;> after_results

attribute [local irreducible] Host.reduce Host.reduceAdd Host.scatterAdd concatenate broadcastInDim extractStridedSlice shapeCast
  Host.divf Host.sqrt Host.exp Host.negf Host.roundeven addf subf mulf maximumf cmpf cmpi addi select sitofp constant constantI in
set_option maxRecDepth 8192 in
set_option maxHeartbeats 2000000 in
theorem B1_v19 : after opsB1 W (main_v19 : DevRef τ sig) = broadcastInDim S1 ![] bcast_S_S1 (rDegMean (W (main_arg1 : DevRef τ sig))) := by
  after_results
  rfl

attribute [local irreducible] Host.reduce Host.reduceAdd Host.scatterAdd concatenate broadcastInDim extractStridedSlice shapeCast
  Host.divf Host.sqrt Host.exp Host.negf Host.roundeven addf subf mulf maximumf cmpf cmpi addi select sitofp constant constantI in
set_option maxRecDepth 8192 in
set_option maxHeartbeats 4000000 in
theorem B1_v20 : after opsB1 W (main_v20 : DevRef τ sig) = broadcastInDim S1 ![] bcast_S_S1 (rDegStd (W (main_arg1 : DevRef τ sig))) := by
  after_results
  rfl

set_option maxRecDepth 8192 in
set_option maxHeartbeats 2000000 in
theorem B1_v21 : after opsB1 W (main_v21 : DevRef τ sig) = broadcastInDim S1 ![] bcast_S_S1 (constant (F := F) S_ .f32 0x39A7C61A#32) := by
  after_results

set_option maxRecDepth 8192 in
set_option maxHeartbeats 2000000 in
theorem B1_v22 : after opsB1 W (main_v22 : DevRef τ sig) = broadcastInDim S1 ![] bcast_S_S1 (constant (F := F) S_ .f32 0x3F935D96#32) := by
  after_results

set_option maxRecDepth 8192 in
set_option maxHeartbeats 8000000 in
/-- The second stretch writes no argument and none of the three node statistics. -/
theorem B1_keeps : Keeps (F := F) opsB1 main_arg0 ∧ Keeps (F := F) opsB1 main_arg1 ∧ Keeps (F := F) opsB1 main_arg2 ∧ Keeps (F := F) opsB1 main_arg3
    ∧ Keeps (F := F) opsB1 main_arg4 ∧ Keeps (F := F) opsB1 main_arg5 ∧ Keeps (F := F) opsB1 main_arg6 ∧ Keeps (F := F) opsB1 main_arg7
    ∧ Keeps (F := F) opsB1 main_v2 ∧ Keeps (F := F) opsB1 main_v3 ∧ Keeps (F := F) opsB1 main_v4 := by
  refine ⟨?_, ?_, ?_, ?_, ?_, ?_, ?_, ?_, ?_, ?_, ?_⟩ <;> intro W <;> after_results

attribute [local irreducible] Host.reduce Host.reduceAdd Host.scatterAdd concatenate broadcastInDim extractStridedSlice shapeCast
  Host.divf Host.sqrt Host.exp Host.negf Host.roundeven addf subf mulf maximumf cmpf cmpi addi select sitofp constant constantI in
set_option maxRecDepth 8192 in
theorem B2_v25 : after opsB2 W (main_v25 : DevRef τ sig)
    = broadcastInDim S8x4 ![0, 1] bcast_S1x4_S8x4_0_1 (broadcastInDim S1x4 ![1] bcast_S4_S1x4_1
        (rFour (W (main_v19 : DevRef τ sig)) (W (main_v20 : DevRef τ sig)) (W (main_v21 : DevRef τ sig)) (W (main_v22 : DevRef τ sig)))) := by
  after_results
  rfl

set_option maxRecDepth 8192 in
/-- The third stretch writes no argument and none of the three node statistics. -/
theorem B2_keeps : Keeps (F := F) opsB2 main_arg0 ∧ Keeps (F := F) opsB2 main_arg1 ∧ Keeps (F := F) opsB2 main_arg2 ∧ Keeps (F := F) opsB2 main_arg3
    ∧ Keeps (F := F) opsB2 main_arg4 ∧ Keeps (F := F) opsB2 main_arg5 ∧ Keeps (F := F) opsB2 main_arg6 ∧ Keeps (F := F) opsB2 main_arg7
    ∧ Keeps (F := F) opsB2 main_v2 ∧ Keeps (F := F) opsB2 main_v3 ∧ Keeps (F := F) opsB2 main_v4 := by
  refine ⟨?_, ?_, ?_, ?_, ?_, ?_, ?_, ?_, ?_, ?_, ?_⟩ <;> intro W <;> after_results

attribute [local irreducible] Host.reduce Host.reduceAdd Host.scatterAdd concatenate broadcastInDim extractStridedSlice shapeCast
  Host.divf Host.sqrt Host.exp Host.negf Host.roundeven addf subf mulf maximumf cmpf cmpi addi select sitofp constant constantI in
set_option maxRecDepth 8192 in
set_option maxHeartbeats 4000000 in
theorem C_v61 : after opsC W (main_v61 : DevRef τ sig)
    = rOut (rProb (rHidden2 (rHidden1
        (rFeat (W (main_v2 : DevRef τ sig)) (W (main_v3 : DevRef τ sig)) (W (main_v4 : DevRef τ sig)) (W (main_v25 : DevRef τ sig)))
        (W (main_arg2 : DevRef τ sig)) (W (main_arg3 : DevRef τ sig))) (W (main_arg4 : DevRef τ sig)) (W (main_arg5 : DevRef τ sig)))
        (W (main_arg6 : DevRef τ sig)) (W (main_arg7 : DevRef τ sig))) := by
  after_results
  rfl

set_option maxRecDepth 8192 in
set_option maxHeartbeats 8000000 in
/-- The last stretch writes no argument. -/
theorem C_keeps : Keeps (F := F) opsC main_arg0 ∧ Keeps (F := F) opsC main_arg1 ∧ Keeps (F := F) opsC main_arg2 ∧ Keeps (F := F) opsC main_arg3
    ∧ Keeps (F := F) opsC main_arg4 ∧ Keeps (F := F) opsC main_arg5 ∧ Keeps (F := F) opsC main_arg6 ∧ Keeps (F := F) opsC main_arg7 := by
  refine ⟨?_, ?_, ?_, ?_, ?_, ?_, ?_, ?_⟩ <;> intro W <;> after_results

end Stretches

/-! ## The whole line -/

/-- The result buffer after the whole line: the stretches in a row, each read at what the one before left. -/
theorem ops_v61 (V : Valuation τ sig (Elt F)) :
    after ops V (main_v61 : DevRef τ sig)
      = common (rMean (V (main_arg0 : DevRef τ sig))) (rMax (V (main_arg0 : DevRef τ sig))) (rStd (V (main_arg0 : DevRef τ sig)))
          (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) := by
  obtain ⟨-, a1, a2, a3, a4, a5, a6, a7⟩ := A_keeps (F := F)
  obtain ⟨-, -, b2, b3, b4, b5, b6, b7, bv2, bv3, bv4⟩ := B1_keeps (F := F)
  obtain ⟨-, -, c2, c3, c4, c5, c6, c7, cv2, cv3, cv4⟩ := B2_keeps (F := F)
  simp only [ops, StableHlo.after_append]
  rw [C_v61, B2_v25, cv2, cv3, cv4, c2, c3, c4, c5, c6, c7, B1_v19, B1_v20, B1_v21, B1_v22, bv2, bv3, bv4, b2, b3, b4, b5, b6, b7,
    A_v2, A_v3, A_v4, a1, a2, a3, a4, a5, a6, a7]
  rfl

/-- No operation of the line writes an argument. -/
theorem ops_keeps : Keeps (F := F) ops main_arg0 ∧ Keeps (F := F) ops main_arg1 ∧ Keeps (F := F) ops main_arg2 ∧ Keeps (F := F) ops main_arg3
    ∧ Keeps (F := F) ops main_arg4 ∧ Keeps (F := F) ops main_arg5 ∧ Keeps (F := F) ops main_arg6 ∧ Keeps (F := F) ops main_arg7 := by
  obtain ⟨a0, a1, a2, a3, a4, a5, a6, a7⟩ := A_keeps (F := F)
  obtain ⟨b0, b1, b2, b3, b4, b5, b6, b7, -, -, -⟩ := B1_keeps (F := F)
  obtain ⟨c0, c1, c2, c3, c4, c5, c6, c7, -, -, -⟩ := B2_keeps (F := F)
  obtain ⟨d0, d1, d2, d3, d4, d5, d6, d7⟩ := C_keeps (F := F)
  refine ⟨?_, ?_, ?_, ?_, ?_, ?_, ?_, ?_⟩ <;> intro V <;> simp only [ops, StableHlo.after_append]
  · rw [d0, c0, b0, a0]
  · rw [d1, c1, b1, a1]
  · rw [d2, c2, b2, a2]
  · rw [d3, c3, b3, a3]
  · rw [d4, c4, b4, a4]
  · rw [d5, c5, b5, a5]
  · rw [d6, c6, b6, a6]
  · rw [d7, c7, b7, a7]

/-! ## The run -/

/-- On the device, for any float values, from any memory with zero counters: every weakly fair execution of @main
    terminates with the result at `common` of the three node statistics and the other arguments, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v61)
        = common (rMean (m ((c.tc : Thread nD τ).loc main_arg0))) (rMax (m ((c.tc : Thread nD τ).loc main_arg0)))
            (rStd (m ((c.tc : Thread nD τ).loc main_arg0))) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      ⟨(h c main_v61).trans (ops_v61 _), (h c main_arg0).trans (ops_keeps.1 _), (h c main_arg1).trans (ops_keeps.2.1 _),
        (h c main_arg2).trans (ops_keeps.2.2.1 _), (h c main_arg3).trans (ops_keeps.2.2.2.1 _), (h c main_arg4).trans (ops_keeps.2.2.2.2.1 _),
        (h c main_arg5).trans (ops_keeps.2.2.2.2.2.1 _), (h c main_arg6).trans (ops_keeps.2.2.2.2.2.2.1 _),
        (h c main_arg7).trans (ops_keeps.2.2.2.2.2.2.2 _)⟩)
    (run_seq scopedRefs_eq scopedSems_eq defs main (fun _ => ops) main_eq (fun _ => ops_sub) m ρ (fun _ => ops_fresh))

end Cert.ReferenceIdeal.Hand

end
-- ==== Proof.Common.lean ====
/-
  The two programs apply the same operations to the three node statistics, the edge list and the six weight arrays:
  each layer of the kernel program's host operations is the reference's layer of the same name, the operations and
  their literals being the same one by one (only the namespace the shapes and side conditions are stated in differs).
-/
import proofs.«138509_j5093831213700_1_alg».proof.Proof.KI.Tail
import proofs.«138509_j5093831213700_1_alg».proof.Proof.Ref.Run

set_option maxRecDepth 16384

noncomputable section

namespace Cert.Common

open Idealize.ShloMosaic

variable {F : FTy → Type} [FloatOps F]

theorem row1_eq (e : IVec Cert.KernelIdeal.S2x3200000 32) :
    Cert.KernelIdeal.Hand.kRow1 e = Cert.ReferenceIdeal.Hand.rRow1 e := by
  rfl

theorem targets_eq (e : IVec Cert.KernelIdeal.S2x3200000 32) :
    Cert.KernelIdeal.Hand.kTargets e = Cert.ReferenceIdeal.Hand.rTargets e := by
  unfold Cert.KernelIdeal.Hand.kTargets Cert.ReferenceIdeal.Hand.rTargets
  rw [row1_eq]
  try rfl

theorem deg_eq (e : IVec Cert.KernelIdeal.S2x3200000 32) :
    Cert.KernelIdeal.Hand.kDeg (F := F) e = Cert.ReferenceIdeal.Hand.rDeg (F := F) e := by
  unfold Cert.KernelIdeal.Hand.kDeg Cert.ReferenceIdeal.Hand.rDeg
  rw [targets_eq]
  try rfl

theorem degMean_eq (e : IVec Cert.KernelIdeal.S2x3200000 32) :
    Cert.KernelIdeal.Hand.kDegMean (F := F) e = Cert.ReferenceIdeal.Hand.rDegMean (F := F) e := by
  unfold Cert.KernelIdeal.Hand.kDegMean Cert.ReferenceIdeal.Hand.rDegMean
  rw [deg_eq]
  try rfl

theorem degCentred_eq (e : IVec Cert.KernelIdeal.S2x3200000 32) :
    Cert.KernelIdeal.Hand.kDegCentred (F := F) e = Cert.ReferenceIdeal.Hand.rDegCentred (F := F) e := by
  unfold Cert.KernelIdeal.Hand.kDegCentred Cert.ReferenceIdeal.Hand.rDegCentred
  rw [deg_eq]
  try rfl

theorem degStd_eq (e : IVec Cert.KernelIdeal.S2x3200000 32) :
    Cert.KernelIdeal.Hand.kDegStd (F := F) e = Cert.ReferenceIdeal.Hand.rDegStd (F := F) e := by
  unfold Cert.KernelIdeal.Hand.kDegStd Cert.ReferenceIdeal.Hand.rDegStd
  rw [degCentred_eq]
  try rfl

theorem four_eq (a b c d : FVec F Cert.KernelIdeal.S1 .f32) :
    Cert.KernelIdeal.Hand.kFour a b c d = Cert.ReferenceIdeal.Hand.rFour a b c d := rfl

theorem struct_eq (e : IVec Cert.KernelIdeal.S2x3200000 32) :
    Cert.KernelIdeal.Hand.kStruct (F := F) e = Cert.ReferenceIdeal.Hand.rStruct (F := F) e := by
  unfold Cert.KernelIdeal.Hand.kStruct Cert.ReferenceIdeal.Hand.rStruct
  rw [degMean_eq, degStd_eq, four_eq]
  try rfl

theorem feat_eq (mean mx std : FVec F Cert.KernelIdeal.S8x64 .f32) (s : FVec F Cert.KernelIdeal.S8x4 .f32) :
    Cert.KernelIdeal.Hand.kFeat mean mx std s = Cert.ReferenceIdeal.Hand.rFeat mean mx std s := rfl

theorem hidden1_eq (z : FVec F Cert.KernelIdeal.S8x196 .f32) (W1 : FVec F Cert.KernelIdeal.S196x64 .f32) (b1 : FVec F Cert.KernelIdeal.S64 .f32) :
    Cert.KernelIdeal.Hand.kHidden1 z W1 b1 = Cert.ReferenceIdeal.Hand.rHidden1 z W1 b1 := rfl

theorem hidden2_eq (h : FVec F Cert.KernelIdeal.S8x64 .f32) (W2 : FVec F Cert.KernelIdeal.S64x32 .f32) (b2 : FVec F Cert.KernelIdeal.S32 .f32) :
    Cert.KernelIdeal.Hand.kHidden2 h W2 b2 = Cert.ReferenceIdeal.Hand.rHidden2 h W2 b2 := rfl

theorem prob_eq (h : FVec F Cert.KernelIdeal.S8x32 .f32) (W3 : FVec F Cert.KernelIdeal.S32x1 .f32) (b3 : FVec F Cert.KernelIdeal.S1 .f32) :
    Cert.KernelIdeal.Hand.kProb h W3 b3 = Cert.ReferenceIdeal.Hand.rProb h W3 b3 := rfl

theorem score_eq (p : FVec F Cert.KernelIdeal.S8 .f32) : Cert.KernelIdeal.Hand.kScore p = Cert.ReferenceIdeal.Hand.rScore p := rfl

theorem out_eq (p : FVec F Cert.KernelIdeal.S8 .f32) : Cert.KernelIdeal.Hand.kOut p = Cert.ReferenceIdeal.Hand.rOut p := by
  unfold Cert.KernelIdeal.Hand.kOut Cert.ReferenceIdeal.Hand.rOut
  rw [score_eq]
  try rfl

/-- Everything downstream of the three node statistics is one function in the two programs. -/
theorem common_eq (mean mx std : FVec F Cert.KernelIdeal.S8x64 .f32) (e : IVec Cert.KernelIdeal.S2x3200000 32) (W1 : FVec F Cert.KernelIdeal.S196x64 .f32)
    (b1 : FVec F Cert.KernelIdeal.S64 .f32) (W2 : FVec F Cert.KernelIdeal.S64x32 .f32) (b2 : FVec F Cert.KernelIdeal.S32 .f32) (W3 : FVec F Cert.KernelIdeal.S32x1 .f32)
    (b3 : FVec F Cert.KernelIdeal.S1 .f32) :
    Cert.KernelIdeal.Hand.common mean mx std e W1 b1 W2 b2 W3 b3 = Cert.ReferenceIdeal.Hand.common mean mx std e W1 b1 W2 b2 W3 b3 := by
  unfold Cert.KernelIdeal.Hand.common Cert.ReferenceIdeal.Hand.common
  rw [struct_eq, feat_eq, hidden1_eq, hidden2_eq, prob_eq, out_eq]

end Cert.Common

end
-- ==== Proof.Alg.lean ====
/-
  The idealized kernel program's run with its result named: the region leaves the column sums, sums of squares and
  maxima of x in its three output arrays; over finite entries the mean, the maximum and the unbiased deviation the
  host operations form from them are the reference's; and everything downstream is the same function. So the result is
  the reference's term of the arguments.
-/
import proofs.«138509_j5093831213700_1_alg».proof.Proof.KI.Run
import proofs.«138509_j5093831213700_1_alg».proof.Proof.KI.Value
import proofs.«138509_j5093831213700_1_alg».proof.Proof.Bridge
import proofs.«138509_j5093831213700_1_alg».proof.Proof.Common

set_option maxRecDepth 16384

noncomputable section

namespace Cert.Alg

open Idealize.ShloMosaic Idealize.ShloMosaic.TcCoe Idealize.SL.Sem

/-- From a memory whose first argument holds real numbers only, every weakly fair execution of the idealized kernel
    program ends with the result at the reference's term of the arguments, and the arguments unchanged. -/
theorem kernel_run (m : (ℓ : Loc Cert.KernelIdeal.nD Cert.KernelIdeal.τ Cert.KernelIdeal.sig) → Buf (Elt Ideal) ℓ) (ρ : Dev Cert.KernelIdeal.nD → PrngReg)
    (hfin : ∀ (c : Dev Cert.KernelIdeal.nD) i, ∃ r : ℝ, (m ((c.tc : Thread Cert.KernelIdeal.nD Cert.KernelIdeal.τ).loc Cert.KernelIdeal.main_arg0)) i = (r : EReal)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v69)
        = Cert.ReferenceIdeal.Hand.common (F := Ideal) (Cert.ReferenceIdeal.Hand.rMean (F := Ideal) (m ((c.tc : Thread Cert.KernelIdeal.nD Cert.KernelIdeal.τ).loc Cert.KernelIdeal.main_arg0))) (Cert.ReferenceIdeal.Hand.rMax (F := Ideal) (m ((c.tc : Thread Cert.KernelIdeal.nD Cert.KernelIdeal.τ).loc Cert.KernelIdeal.main_arg0)))
            (Cert.ReferenceIdeal.Hand.rStd (F := Ideal) (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) := by
  refine (θ_run Cert.KernelIdeal.defs _ _).mono (fun r h c => ⟨?_, Cert.KernelIdeal.Hand.frame_post m (Cert.KernelIdeal.Hand.dats m) (Cert.KernelIdeal.Hand.A_eq m) r h c⟩)
    (Cert.KernelIdeal.Hand.run_main (F := Ideal) m ρ)
  rw [Cert.KernelIdeal.Hand.result_post m (Cert.KernelIdeal.Hand.dats m) r h c, Cert.KernelIdeal.Hand.result_eq m (Cert.KernelIdeal.Hand.dats m) c]
  rw [Cert.Bridge.mean_bridge _ (m ((c.tc : Thread Cert.KernelIdeal.nD Cert.KernelIdeal.τ).loc Cert.KernelIdeal.main_arg0)) (fun b d => Cert.KernelIdeal.Hand.final_sum m c b d),
    Cert.Bridge.max_bridge _ (m ((c.tc : Thread Cert.KernelIdeal.nD Cert.KernelIdeal.τ).loc Cert.KernelIdeal.main_arg0)) (fun b d => Cert.KernelIdeal.Hand.final_max m c b d),
    Cert.Bridge.std_bridge _ _ (m ((c.tc : Thread Cert.KernelIdeal.nD Cert.KernelIdeal.τ).loc Cert.KernelIdeal.main_arg0)) (fun b d => Cert.KernelIdeal.Hand.final_sum m c b d)
      (fun b d => Cert.KernelIdeal.Hand.final_sumsq m c b d) (hfin c)]
  exact Cert.Common.common_eq _ _ _ _ _ _ _ _ _ _

end Cert.Alg

end
-- ==== Proof.Finite.lean ====
import proofs.«138509_j5093831213700_1_alg».proof.Pre_finite_inputs
import proofs.«138509_j5093831213700_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

/-!
# Every entry of the float input `x` is a real number

The precondition is the conjunction, over the seven float inputs, of "every entry has absolute value
strictly below `+∞`". Over the extended reals the absolute value of `a` is `max a (-a)`, which is `⊤`
at both `⊥` and `⊤`; so `max a (-a) < ⊤` leaves only the real numbers. Only the conjunct about the
first input `x` is read here.
-/

namespace Cert.Finite

open Idealize.ShloMosaic

/-- The f32 pattern with exponent field all ones and significand zero, sign clear, denotes `⊤`. -/
theorem posInf_eq_top : Ideal.ofBits .f32 0x7F800000#32 = (⊤ : EReal) := by
  simp [Ideal.ofBits, Ideal.ieee]

/-- An extended real whose absolute value `max a (-a)` lies strictly below `⊤` is a real number:
    at `⊥` the negation is `⊤`, at `⊤` the number itself is, and either way the maximum is `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- A one-bit word made from a Boolean is `1` exactly when the Boolean is true. -/
theorem ofBool_eq_one_iff (b : Bool) : BitVec.ofBool b = 1#1 ↔ b = true := by
  cases b <;> decide

/-- The element fact of the precondition, read back: if the ordered comparison `|a| < +∞` answers `1`,
    then `a` is a real number. -/
theorem real_of_cmp (a : Ideal .f32)
    (h : FloatOps.cmpf (F := Ideal) .olt (FloatOps.hostAbsf a) (FloatOps.ofBits .f32 0x7F800000#32) = 1#1) :
    ∃ r : ℝ, a = (r : EReal) := by
  rw [Ideal.hostAbsf_def, Ideal.cmpf_def, Ideal.absf_def, Ideal.ofBits_def, posInf_eq_top] at h
  simp only [Ideal.cmp, ofBool_eq_one_iff, decide_eq_true_eq] at h
  exact real_of_abs_lt_top a h

/-- If the elementwise `and` of two `i1` arrays is `1` at an index, so is its left operand there. -/
theorem andi_left {s : Shape} (a b : IVec s 1) (j : s.Idx) (hab : andi a b j = 1#1) : a j = 1#1 :=
  (IntOp.andi_eq_one.1 hab).1

/-- The scalar shape has exactly one index. -/
instance : Subsingleton Cert.Pre_finite_inputs.S_.Idx := ⟨fun a b => funext fun d => d.elim0⟩

theorem finite_x (x : FVec Ideal Cert.Pre_finite_inputs.S8x100000x64 .f32) (e : IVec Cert.Pre_finite_inputs.S2x3200000 32)
    (W1 : FVec Ideal Cert.Pre_finite_inputs.S196x64 .f32) (b1 : FVec Ideal Cert.Pre_finite_inputs.S64 .f32) (W2 : FVec Ideal Cert.Pre_finite_inputs.S64x32 .f32)
    (b2 : FVec Ideal Cert.Pre_finite_inputs.S32 .f32) (W3 : FVec Ideal Cert.Pre_finite_inputs.S32x1 .f32) (b3 : FVec Ideal Cert.Pre_finite_inputs.S1 .f32)
    (h : Cert.Pre_finite_inputs.fn (F := Ideal) x e W1 b1 W2 b2 W3 b3 = fun _ => 1#1) :
    ∀ i, ∃ r : ℝ, x i = (r : EReal) := by
  intro i
  have h0 := congrFun h ValueIdx.ix0
  dsimp only [Cert.Pre_finite_inputs.fn, Cert.Pre_finite_inputs.fn_part1] at h0
  have hx := andi_left _ _ _ (andi_left _ _ _ (andi_left _ _ _ (andi_left _ _ _ (andi_left _ _ _ (andi_left _ _ _ h0)))))
  have hi := Host.reduce_andi_all _ _ _ _ _ hx i
  exact real_of_cmp (x i) hi

end Cert.Finite
-- ==== Proof.lean ====
/-
  The certificate: a pooling kernel against its plain reference, over the extended reals.

  The kernel walks x (8 graphs, 100000 nodes, 64 features) in tiles of 20000 nodes and keeps, per graph and feature, a
  running sum, a running sum of squares and a running maximum, which it writes out after a graph's fifth tile; the host
  then forms the mean S/N, the maximum, and the unbiased deviation sqrt ((Q - S*S/N)/(N-1)). The reference takes the mean
  and the maximum over all nodes at once and the deviation as sqrt (sum of (x - mean)^2 / (N-1)). Sums and maxima do not
  depend on how the nodes are tiled; and over finite entries Q - S*S/N is the sum of squared deviations, so the three
  statistics agree. Everything after them — the degree histogram's two statistics, the three dense layers, the logistic
  and the two means — is the same sequence of operations in both programs.

  Each program runs to the end without a fault and leaves its arguments as they were: the kernel program's region by the
  body's three cases (a graph's first tile, a middle tile, its last tile) with the running rows carried from point to
  point, the host operations after it writing no argument and no array the region stages; the reference by running its
  operations in order.
-/
import proofs.«138509_j5093831213700_1_alg».proof.Defs
import proofs.«138509_j5093831213700_1_alg».proof.Proof.Gen.Kernel
import proofs.«138509_j5093831213700_1_alg».proof.Proof.Gen.KernelIdeal
import proofs.«138509_j5093831213700_1_alg».proof.Proof.Gen.ReferenceIdeal
import proofs.«138509_j5093831213700_1_alg».proof.Proof.Gen.Pre_finite_inputs
import proofs.«138509_j5093831213700_1_alg».proof.Proof.KB.Run
import proofs.«138509_j5093831213700_1_alg».proof.Proof.Alg
import proofs.«138509_j5093831213700_1_alg».proof.Proof.Ref.Run
import proofs.«138509_j5093831213700_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_p : Cert.frame_Kernel := fun m ρ _ => Cert.Kernel.Hand.frame m ρ

/-- The idealized kernel program runs and keeps its arguments. -/
theorem frame_pi : Cert.frame_KernelIdeal := fun m ρ _ => Cert.KernelIdeal.Hand.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- Run from memories that agree on the arguments, the first of them finite, the two idealized programs end with the
    same result: the kernel program's is the reference's term of the kernel's arguments, the reference's the same term
    of its own, and the arguments agree. -/
theorem algebraic : Cert.algebraic_KernelIdeal_ReferenceIdeal := by
  intro m ρ m' ρ' hpre hagree
  refine ⟨_, Cert.Alg.kernel_run m ρ (fun c i => Cert.Finite.finite_x _ _ _ _ _ _ _ _ (hpre c) i), ?_⟩
  refine (θ_run Cert.ReferenceIdeal.defs _ _).mono (fun r h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
